-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v120)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S100000 : Shape := ⟨1, ![100000]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S128x8 : Shape := ⟨2, ![128, 8]⟩
abbrev S8 : Shape := ⟨1, ![8]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg9 : FVec F S128x8 .f32) (main_arg10 : FVec F S8 .f32) (main_v33 : IVec S_ 1) : IVec S_ 1 :=
  let main_v34 : FVec F S128x8 .f32 := Host.absf main_arg9
  let main_cst_12 : FVec F S_ .f32 := constant S_ .f32 0x7F800000#32
  let main_v35 : FVec F S128x8 .f32 := broadcastInDim S128x8 ![] bcast_S_S128x8 main_cst_12
  let main_v36 : IVec S128x8 1 := cmpf .olt main_v34 main_v35
  let main_c_13 : IVec S_ 1 := constantI S_ 1 1#1
  let main_v37 : IVec S_ 1 := (fun x v => Host.reduce IntOp.andi x v reducesTo_S128x8_S_d0_1 h_S_) main_v36 main_c_13
  let main_v38 : IVec S_ 1 := andi main_v33 main_v37
  let main_v39 : FVec F S8 .f32 := Host.absf main_arg10
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x8 .f32) (main_arg10 : FVec F S8 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x32 .f32) (main_arg1 : IVec S2x1600000 32) (main_arg2 : IVec S100000 32) (main_arg3 : FVec F S32x64 .f32) (main_arg4 : FVec F S64 .f32) (main_arg5 : FVec F S64x128 .f32) (main_arg6 : FVec F S128 .f32) (main_arg7 : FVec F S128x128 .f32) (main_arg8 : FVec F S128 .f32) (main_arg9 : FVec F S128x8 .f32) (main_arg10 : FVec F S8 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x64 .f32 := Host.absf main_arg3
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg6 main_arg7 main_arg8 main_arg9 main_arg10 main_v13 main_v16
-- ==== Kernel.lean ====
abbrev S100000x32 : Shape := ⟨2, ![100000, 32]⟩
abbrev S2x1600000 : Shape := ⟨2, ![2, 1600000]⟩
abbrev S100000 : Shape := ⟨1, ![100000]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S128x8 : Shape := ⟨2, ![128, 8]⟩
abbrev S8 : Shape := ⟨1, ![8]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x32 : Shape := ⟨2, ![10000, 32]⟩
abbrev S10000x64 : Shape := ⟨2, ![10000, 64]⟩
abbrev S1700000x64 : Shape := ⟨2, ![1700000, 64]⟩
abbrev S1x64 : Shape := ⟨2, ![1, 64]⟩
abbrev S100000x128 : Shape := ⟨2, ![100000, 128]⟩
abbrev S10000x128 : Shape := ⟨2, ![10000, 128]⟩
abbrev S1700000x128 : Shape := ⟨2, ![1700000, 128]⟩
abbrev S1x128 : Shape := ⟨2, ![1, 128]⟩
abbrev S100000x1 : Shape := ⟨2, ![100000, 1]⟩
abbrev S10000x1 : Shape := ⟨2, ![10000, 1]⟩
abbrev S128x1 : Shape := ⟨2, ![128, 1]⟩
abbrev S1x8 : Shape := ⟨2, ![1, 8]⟩

abbrev nBuf : Space → Nat
  | .hbm => 162
  | .vmem => 28
  | .smem => 0
  | _ => 0

abbrev hbmTy0_0 (i : Nat) : BufTy := match i % 128 with
  | 0 => ⟨S100000x32, .f32⟩
  | 1 => ⟨S2x1600000, .i32⟩
  | 2 => ⟨S100000, .i32⟩
  | 3 => ⟨S32x64, .f32⟩
  | 4 => ⟨S64, .f32⟩
  | 5 => ⟨S64x128, .f32⟩
  | 6 => ⟨S128, .f32⟩
  | 7 => ⟨S128x128, .f32⟩
  | 8 => ⟨S128, .f32⟩
  | 9 => ⟨S128x8, .f32⟩
  | 10 => ⟨S8, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S100000x64, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x64, .f32⟩
  | 61 => ⟨S1700000x1, .f32⟩
  | 62 => ⟨S1700000x64, .f32⟩
  | 63 => ⟨S1700000x64, .f32⟩
  | 64 => ⟨S_, .f32⟩
  | 65 => ⟨S100000x64, .f32⟩
  | 66 => ⟨S1700000x1, .i32⟩
  | 67 => ⟨S100000x64, .f32⟩
  | 68 => ⟨S1x64, .f32⟩
  | 69 => ⟨S100000x128, .f32⟩
  | 70 => ⟨S_, .i32⟩
  | 71 => ⟨S1700000, .i32⟩
  | 72 => ⟨S1700000, .i1⟩
  | 73 => ⟨S_, .i32⟩
  | 74 => ⟨S1700000, .i32⟩
  | 75 => ⟨S1700000, .i32⟩
  | 76 => ⟨S1700000, .i32⟩
  | 77 => ⟨S1700000x1, .i32⟩
  | 78 => ⟨S1700000, .f32⟩
  | 79 => ⟨S_, .i32⟩
  | 80 => ⟨S1700000, .i32⟩
  | 81 => ⟨S1700000, .i1⟩
  | 82 => ⟨S_, .i32⟩
  | 83 => ⟨S1700000, .i32⟩
  | 84 => ⟨S1700000, .i32⟩
  | 85 => ⟨S1700000, .i32⟩
  | 86 => ⟨S1700000x1, .i32⟩
  | 87 => ⟨S1700000, .f32⟩
  | 88 => ⟨S1700000, .f32⟩
  | 89 => ⟨S_, .i32⟩
  | 90 => ⟨S1700000, .i32⟩
  | 91 => ⟨S1700000, .i1⟩
  | 92 => ⟨S_, .i32⟩
  | 93 => ⟨S1700000, .i32⟩
  | 94 => ⟨S1700000, .i32⟩
  | 95 => ⟨S1700000, .i32⟩
  | 96 => ⟨S1700000x1, .i32⟩
  | 97 => ⟨S1700000x128, .f32⟩
  | 98 => ⟨S1700000x1, .f32⟩
  | 99 => ⟨S1700000x128, .f32⟩
  | 100 => ⟨S1700000x128, .f32⟩
  | 101 => ⟨S_, .f32⟩
  | 102 => ⟨S100000x128, .f32⟩
  | 103 => ⟨S1700000x1, .i32⟩
  | 104 => ⟨S100000x128, .f32⟩
  | 105 => ⟨S1x128, .f32⟩
  | 106 => ⟨S100000x128, .f32⟩
  | 107 => ⟨S_, .i32⟩
  | 108 => ⟨S1700000, .i32⟩
  | 109 => ⟨S1700000, .i1⟩
  | 110 => ⟨S_, .i32⟩
  | 111 => ⟨S1700000, .i32⟩
  | 112 => ⟨S1700000, .i32⟩
  | 113 => ⟨S1700000, .i32⟩
  | 114 => ⟨S1700000x1, .i32⟩
  | 115 => ⟨S1700000, .f32⟩
  | 116 => ⟨S_, .i32⟩
  | 117 => ⟨S1700000, .i32⟩
  | 118 => ⟨S1700000, .i1⟩
  | 119 => ⟨S_, .i32⟩
  | 120 => ⟨S1700000, .i32⟩
  | 121 => ⟨S1700000, .i32⟩
  | 122 => ⟨S1700000, .i32⟩
  | 123 => ⟨S1700000x1, .i32⟩
  | 124 => ⟨S1700000, .f32⟩
  | 125 => ⟨S1700000, .f32⟩
  | 126 => ⟨S_, .i32⟩
  | 127 => ⟨S1700000, .i32⟩
  | _ => ⟨S100000x32, .f32⟩

abbrev hbmTy0_1 (i : Nat) : BufTy := match i % 128 with
  | 0 => ⟨S1700000, .i1⟩
  | 1 => ⟨S_, .i32⟩
  | 2 => ⟨S1700000, .i32⟩
  | 3 => ⟨S1700000, .i32⟩
  | 4 => ⟨S1700000, .i32⟩
  | 5 => ⟨S1700000x1, .i32⟩
  | 6 => ⟨S1700000x128, .f32⟩
  | 7 => ⟨S1700000x1, .f32⟩
  | 8 => ⟨S1700000x128, .f32⟩
  | 9 => ⟨S1700000x128, .f32⟩
  | 10 => ⟨S_, .f32⟩
  | 11 => ⟨S100000x128, .f32⟩
  | 12 => ⟨S1700000x1, .i32⟩
  | 13 => ⟨S100000x128, .f32⟩
  | 14 => ⟨S1x128, .f32⟩
  | 15 => ⟨S100000x128, .f32⟩
  | 16 => ⟨S100000x1, .i32⟩
  | 17 => ⟨S128x128, .f32⟩
  | 18 => ⟨S_, .f32⟩
  | 19 => ⟨S100000, .f32⟩
  | 20 => ⟨S_, .f32⟩
  | 21 => ⟨S128, .f32⟩
  | 22 => ⟨S100000x1, .i32⟩
  | 23 => ⟨S128, .f32⟩
  | 24 => ⟨S_, .f32⟩
  | 25 => ⟨S128, .f32⟩
  | 26 => ⟨S128, .f32⟩
  | 27 => ⟨S128x1, .f32⟩
  | 28 => ⟨S128x128, .f32⟩
  | 29 => ⟨S128x128, .f32⟩
  | 30 => ⟨S128x8, .f32⟩
  | 31 => ⟨S1x8, .f32⟩
  | 32 => ⟨S128x8, .f32⟩
  | 33 => ⟨S128x8, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | .local _ .vmem, ⟨0, _⟩ => ⟨S10000x32, .f32⟩
  | .local _ .vmem, ⟨1, _⟩ => ⟨S10000x32, .f32⟩
  | .local _ .vmem, ⟨2, _⟩ => ⟨S32x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S1x128, .f32⟩
  | .local _ .vmem, ⟨14, _⟩ => ⟨S128x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S1x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S10000x128, .f32⟩
  | .local _ .vmem, ⟨24, _⟩ => ⟨S10000x1, .i32⟩
  | .local _ .vmem, ⟨25, _⟩ => ⟨S10000x1, .i32⟩
  | .local _ .vmem, ⟨26, _⟩ => ⟨S128x128, .f32⟩
  | .local _ .vmem, ⟨27, _⟩ => ⟨S128x128, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_9 : Ref sig .tc := ⟨.hbm, 70, rfl⟩
abbrev main_v46 : Ref sig .tc := ⟨.hbm, 71, rfl⟩
abbrev main_v47 : Ref sig .tc := ⟨.hbm, 72, rfl⟩
abbrev main_c_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_c_12 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_13 : Ref sig .tc := ⟨.hbm, 89, rfl⟩
abbrev main_v61 : Ref sig .tc := ⟨.hbm, 90, rfl⟩
abbrev main_v62 : Ref sig .tc := ⟨.hbm, 91, rfl⟩
abbrev main_c_14 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_15 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_c_16 : Ref sig .tc := ⟨.hbm, 107, rfl⟩
abbrev main_v76 : Ref sig .tc := ⟨.hbm, 108, rfl⟩
abbrev main_v77 : Ref sig .tc := ⟨.hbm, 109, rfl⟩
abbrev main_c_17 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_c_18 : Ref sig .tc := ⟨.hbm, 116, rfl⟩
abbrev main_v83 : Ref sig .tc := ⟨.hbm, 117, rfl⟩
abbrev main_v84 : Ref sig .tc := ⟨.hbm, 118, rfl⟩
abbrev main_c_19 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_c_20 : Ref sig .tc := ⟨.hbm, 126, rfl⟩
abbrev main_v91 : Ref sig .tc := ⟨.hbm, 127, rfl⟩
abbrev main_v92 : Ref sig .tc := ⟨.hbm, 128, rfl⟩
abbrev main_c_21 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_cst_22 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_23 : Ref sig .tc := ⟨.hbm, 146, rfl⟩
abbrev main_v108 : Ref sig .tc := ⟨.hbm, 147, rfl⟩
abbrev main_cst_24 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_cst_25 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x128_S64x128_0_0 : ∀ a, (![0, 0] : Fin 2 → Nat) a + S64x128.size a ≤ S64x128.size a
  h_S64x128 : 0 < S64x128.numel
  inb_S10000x128_S10000x128_0_0 : ∀ a, (![0, 0] : Fin 2 → Nat) a + S10000x128.size a ≤ S10000x128.size a
  h_S10000x128 : 0 < S10000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x128_S128x128_0_0 : ∀ a, (![0, 0] : Fin 2 → Nat) a + S128x128.size a ≤ S128x128.size a
  h_S128x128 : 0 < S128x128.numel
  shapeCasts_S100000_S100000x1 : S100000.ShapeCasts S100000x1
  shapeCasts_S128x128_S128x128 : S128x128.ShapeCasts S128x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S10000x128_d1_w32 : S10000x128.Iotas .tc 32 [1]
  iota_S10000x128_d0_w32 : S10000x128.Iotas .tc 32 [0]
  broadcasts_S10000x1_S10000x128 : S10000x1.Broadcasts S10000x128
  bcast_S_S128 : S_.BroadcastsInDim S128 (![] : Fin 0 → Fin S128.rank)
  bcast_S100000_S100000x1_0 : S100000.BroadcastsInDim S100000x1 (![0] : Fin 1 → Fin S100000x1.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S8_S1x8_1 : S8.BroadcastsInDim S1x8 (![1] : Fin 1 → Fin S1x8.rank)
  bcast_S1x8_S128x8_0_1 : S1x8.BroadcastsInDim S128x8 (![0, 1] : Fin 2 → Fin S128x8.rank)
  scatter_S100000_S1700000x1_S1700000_n_0_0_1_wf : ScatterDims.WF S100000 S1700000x1 S1700000 [] [0] [0] 1
  dot_S10000x32_S32x64_S10000x64_1_0_0_1_n_n_wf : DotDims.WF S10000x32 S32x64 S10000x64 [1] [0] [0] [1] [] []
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x128_S10000x128_1_0_0_1_n_n_wf : DotDims.WF S10000x64 S64x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x128_S10000x128_1_0_0_1_n_n_wf : DotDims.WF S10000x128 S128x128 S10000x128 [1] [0] [0] [1] [] []
  dot_S10000x128_S10000x128_S128x128_0_0_1_1_n_n_wf : DotDims.WF S10000x128 S10000x128 S128x128 [0] [0] [1] [1] [] []
  scatter_S128_S100000x1_S100000_n_0_0_1_wf : ScatterDims.WF S128 S100000x1 S100000 [] [0] [0] 1
  dot_S128x128_S128x8_S128x8_1_0_0_1_n_n_wf : DotDims.WF S128x128 S128x8 S128x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S100000x128.size a
  hwx2_3 : ∀ i : grid2.Coords, EltTy.bits .f32 = 32 ∨ (Rect.block (s := S100000x128) S10000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S100000x1.size a
  hwx4_1 : ∀ i : grid4.Coords, EltTy.bits .i32 = 32 ∨ (Rect.block (s := S100000x1) S10000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S10000x128_S128x128_0_0_1_1_n_n : DotDims S10000x128 S10000x128 S128x128 where
  lhsContracting := [0]
  rhsContracting := [0]
  lhsNonContracting := [1]
  rhsNonContracting := [1]
  lhsBatch := []
  rhsBatch := []
  wf := dot_S10000x128_S10000x128_S128x128_0_0_1_1_n_n_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x128_S128x8_S128x8_1_0_0_1_n_n : DotDims S128x128 S128x8 S128x8 where
  lhsContracting := [1]
  rhsContracting := [0]
  lhsNonContracting := [0]
  rhsNonContracting := [1]
  lhsBatch := []
  rhsBatch := []
  wf := dot_S128x128_S128x8_S128x8_1_0_0_1_n_n_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v73) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v74) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v75) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v103) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v104) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v105) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v105) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v106) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v107) S128x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S100000 : Shape := ⟨1, ![100000]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S128x8 : Shape := ⟨2, ![128, 8]⟩
abbrev S8 : Shape := ⟨1, ![8]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x128 : Shape := ⟨2, ![100000, 128]⟩
abbrev S1700000x128 : Shape := ⟨2, ![1700000, 128]⟩
abbrev S1x128 : Shape := ⟨2, ![1, 128]⟩
abbrev S100000x1 : Shape := ⟨2, ![100000, 1]⟩
abbrev S128x1 : Shape := ⟨2, ![128, 1]⟩
abbrev S1x8 : Shape := ⟨2, ![1, 8]⟩

abbrev nBuf : Space → Nat
  | .hbm => 175
  | .vmem => 0
  | .smem => 0
  | _ => 0

abbrev hbmTy0_0 (i : Nat) : BufTy := match i % 128 with
  | 0 => ⟨S100000x32, .f32⟩
  | 1 => ⟨S2x1600000, .i32⟩
  | 2 => ⟨S100000, .i32⟩
  | 3 => ⟨S32x64, .f32⟩
  | 4 => ⟨S64, .f32⟩
  | 5 => ⟨S64x128, .f32⟩
  | 6 => ⟨S128, .f32⟩
  | 7 => ⟨S128x128, .f32⟩
  | 8 => ⟨S128, .f32⟩
  | 9 => ⟨S128x8, .f32⟩
  | 10 => ⟨S8, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S100000x64, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x64, .f32⟩
  | 61 => ⟨S1700000x1, .f32⟩
  | 62 => ⟨S1700000x64, .f32⟩
  | 63 => ⟨S1700000x64, .f32⟩
  | 64 => ⟨S_, .f32⟩
  | 65 => ⟨S100000x64, .f32⟩
  | 66 => ⟨S1700000x1, .i32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S100000x128, .f32⟩
  | 75 => ⟨S_, .i32⟩
  | 76 => ⟨S1700000, .i32⟩
  | 77 => ⟨S1700000, .i1⟩
  | 78 => ⟨S_, .i32⟩
  | 79 => ⟨S1700000, .i32⟩
  | 80 => ⟨S1700000, .i32⟩
  | 81 => ⟨S1700000, .i32⟩
  | 82 => ⟨S1700000x1, .i32⟩
  | 83 => ⟨S1700000, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1700000, .f32⟩
  | 93 => ⟨S1700000, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000x128, .f32⟩
  | 103 => ⟨S1700000x1, .f32⟩
  | 104 => ⟨S1700000x128, .f32⟩
  | 105 => ⟨S1700000x128, .f32⟩
  | 106 => ⟨S_, .f32⟩
  | 107 => ⟨S100000x128, .f32⟩
  | 108 => ⟨S1700000x1, .i32⟩
  | 109 => ⟨S100000x128, .f32⟩
  | 110 => ⟨S1x128, .f32⟩
  | 111 => ⟨S100000x128, .f32⟩
  | 112 => ⟨S100000x128, .f32⟩
  | 113 => ⟨S_, .f32⟩
  | 114 => ⟨S100000x128, .f32⟩
  | 115 => ⟨S100000x128, .f32⟩
  | 116 => ⟨S100000x128, .f32⟩
  | 117 => ⟨S_, .i32⟩
  | 118 => ⟨S1700000, .i32⟩
  | 119 => ⟨S1700000, .i1⟩
  | 120 => ⟨S_, .i32⟩
  | 121 => ⟨S1700000, .i32⟩
  | 122 => ⟨S1700000, .i32⟩
  | 123 => ⟨S1700000, .i32⟩
  | 124 => ⟨S1700000x1, .i32⟩
  | 125 => ⟨S1700000, .f32⟩
  | 126 => ⟨S_, .i32⟩
  | 127 => ⟨S1700000, .i32⟩
  | _ => ⟨S100000x32, .f32⟩

abbrev hbmTy0_1 (i : Nat) : BufTy := match i % 128 with
  | 0 => ⟨S1700000, .i1⟩
  | 1 => ⟨S_, .i32⟩
  | 2 => ⟨S1700000, .i32⟩
  | 3 => ⟨S1700000, .i32⟩
  | 4 => ⟨S1700000, .i32⟩
  | 5 => ⟨S1700000x1, .i32⟩
  | 6 => ⟨S1700000, .f32⟩
  | 7 => ⟨S1700000, .f32⟩
  | 8 => ⟨S_, .i32⟩
  | 9 => ⟨S1700000, .i32⟩
  | 10 => ⟨S1700000, .i1⟩
  | 11 => ⟨S_, .i32⟩
  | 12 => ⟨S1700000, .i32⟩
  | 13 => ⟨S1700000, .i32⟩
  | 14 => ⟨S1700000, .i32⟩
  | 15 => ⟨S1700000x1, .i32⟩
  | 16 => ⟨S1700000x128, .f32⟩
  | 17 => ⟨S1700000x1, .f32⟩
  | 18 => ⟨S1700000x128, .f32⟩
  | 19 => ⟨S1700000x128, .f32⟩
  | 20 => ⟨S_, .f32⟩
  | 21 => ⟨S100000x128, .f32⟩
  | 22 => ⟨S1700000x1, .i32⟩
  | 23 => ⟨S100000x128, .f32⟩
  | 24 => ⟨S1x128, .f32⟩
  | 25 => ⟨S100000x128, .f32⟩
  | 26 => ⟨S100000x128, .f32⟩
  | 27 => ⟨S_, .f32⟩
  | 28 => ⟨S128x128, .f32⟩
  | 29 => ⟨S100000x1, .i32⟩
  | 30 => ⟨S128x128, .f32⟩
  | 31 => ⟨S_, .f32⟩
  | 32 => ⟨S100000, .f32⟩
  | 33 => ⟨S_, .f32⟩
  | 34 => ⟨S128, .f32⟩
  | 35 => ⟨S100000x1, .i32⟩
  | 36 => ⟨S128, .f32⟩
  | 37 => ⟨S_, .f32⟩
  | 38 => ⟨S128, .f32⟩
  | 39 => ⟨S128, .f32⟩
  | 40 => ⟨S128x1, .f32⟩
  | 41 => ⟨S128x128, .f32⟩
  | 42 => ⟨S128x128, .f32⟩
  | 43 => ⟨S128x8, .f32⟩
  | 44 => ⟨S1x8, .f32⟩
  | 45 => ⟨S128x8, .f32⟩
  | 46 => ⟨S128x8, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_11 : Ref sig .tc := ⟨.hbm, 84, rfl⟩
abbrev main_v56 : Ref sig .tc := ⟨.hbm, 85, rfl⟩
abbrev main_v57 : Ref sig .tc := ⟨.hbm, 86, rfl⟩
abbrev main_c_12 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_13 : Ref sig .tc := ⟨.hbm, 94, rfl⟩
abbrev main_v64 : Ref sig .tc := ⟨.hbm, 95, rfl⟩
abbrev main_v65 : Ref sig .tc := ⟨.hbm, 96, rfl⟩
abbrev main_c_14 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_15 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_call2_cst : Ref sig .tc := ⟨.hbm, 113, rfl⟩
abbrev main_call2_v0 : Ref sig .tc := ⟨.hbm, 114, rfl⟩
abbrev main_v80 : Ref sig .tc := ⟨.hbm, 115, rfl⟩
abbrev main_v81 : Ref sig .tc := ⟨.hbm, 116, rfl⟩
abbrev main_c_16 : Ref sig .tc := ⟨.hbm, 117, rfl⟩
abbrev main_v82 : Ref sig .tc := ⟨.hbm, 118, rfl⟩
abbrev main_v83 : Ref sig .tc := ⟨.hbm, 119, rfl⟩
abbrev main_c_17 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_c_18 : Ref sig .tc := ⟨.hbm, 126, rfl⟩
abbrev main_v89 : Ref sig .tc := ⟨.hbm, 127, rfl⟩
abbrev main_v90 : Ref sig .tc := ⟨.hbm, 128, rfl⟩
abbrev main_c_19 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_c_20 : Ref sig .tc := ⟨.hbm, 136, rfl⟩
abbrev main_v97 : Ref sig .tc := ⟨.hbm, 137, rfl⟩
abbrev main_v98 : Ref sig .tc := ⟨.hbm, 138, rfl⟩
abbrev main_c_21 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst_22 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_cst_23 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_cst_24 : Ref sig .tc := ⟨.hbm, 159, rfl⟩
abbrev main_v116 : Ref sig .tc := ⟨.hbm, 160, rfl⟩
abbrev main_cst_25 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_cst_26 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128x128 : S_.BroadcastsInDim S128x128 (![] : Fin 0 → Fin S128x128.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S8_S1x8_1 : S8.BroadcastsInDim S1x8 (![1] : Fin 1 → Fin S1x8.rank)
  bcast_S1x8_S128x8_0_1 : S1x8.BroadcastsInDim S128x8 (![0, 1] : Fin 2 → Fin S128x8.rank)
  scatter_S100000_S1700000x1_S1700000_n_0_0_1_wf : ScatterDims.WF S100000 S1700000x1 S1700000 [] [0] [0] 1
  dot_S100000x32_S32x64_S100000x64_1_0_0_1_n_n_wf : DotDims.WF S100000x32 S32x64 S100000x64 [1] [0] [0] [1] [] []
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x128_S100000x128_1_0_0_1_n_n_wf : DotDims.WF S100000x64 S64x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  scatter_S128x128_S100000x1_S100000x128_1_0_0_1_wf : ScatterDims.WF S128x128 S100000x1 S100000x128 [1] [0] [0] 1
  scatter_S128_S100000x1_S100000_n_0_0_1_wf : ScatterDims.WF S128 S100000x1 S100000 [] [0] [0] 1
  dot_S128x128_S128x8_S128x8_1_0_0_1_n_n_wf : DotDims.WF S128x128 S128x8 S128x8 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x128_S128x8_S128x8_1_0_0_1_n_n : DotDims S128x128 S128x8 S128x8 where
  lhsContracting := [1]
  rhsContracting := [0]
  lhsNonContracting := [0]
  rhsNonContracting := [1]
  lhsBatch := []
  rhsBatch := []
  wf := dot_S128x128_S128x8_S128x8_1_0_0_1_n_n_wf

class Facts : Prop extends Facts₀ where

variable [Facts]
-- ==== Proof.KernelIdeal.Reg0.lean ====
/-
  The first pallas_call (rows of x times W1, ten row blocks of 10000): its half of the frame, at a parameter
  `V` — the buffers' contents when the region is entered. A block of x (window 0) and the whole of W1
  (window 1) are found in their staging buffers at every grid point; the body stores one value into the
  output block (window 2), the product of the two loaded blocks; so the output buffer after the body is a
  function `out0_2` of the two input blocks, and the proof data `dat0` say so point by point.
-/
import proofs.«408481_j1683627180174_2_alg».proof.Proof.Gen.KernelIdeal.Launch
import proofs.«408481_j1683627180174_2_alg».proof.Proof.Gen.KernelIdeal.Skeleton
import proofs.«408481_j1683627180174_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window's staging buffer holds its block at every point, for any proof data over `V` whose body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The W1 window's staging buffer holds the whole of W1 at every point (fetched once; its block index never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S10000x32 := Rect.unit (s := S10000x32) ![0, 0] S10000x32.size inb_S10000x32_S10000x32_0_0
abbrev r0_w : Rect S32x64 := Rect.unit (s := S32x64) ![0, 0] S32x64.size inb_S32x64_S32x64_0_0
abbrev r0_o : Rect S10000x64 := Rect.unit (s := S10000x64) ![0, 0] S10000x64.size inb_S10000x64_S10000x64_0_0

/-- The output block after the body: its one store, of the product of the loaded x block and W1, read back whole. -/
def out0_2 (x0 : Vec F S10000x32 .f32) (x1 : Vec F S32x64 .f32) : Vec F S10000x64 .f32 :=
  View.canon [⟨r0_o, k0_pay1 (View.ld x0 r0_x) (View.ld x1 r0_w)⟩]

/-- The one store covers the output block. -/
theorem cover0_2 (p0 : Vec F S10000x64 .f32) (y : S10000x64.Idx) :
    ∃ pc ∈ ([⟨r0_o, p0⟩] : List (View.Piece (Elt F) S10000x64 .f32)), y ∈ pc.1.set :=
  View.cover_of_tiled [⟨r0_o, p0⟩] S10000x64.size (by rfl) y

set_option maxHeartbeats 1000000 in
/-- The body on whole staging memrefs: the inputs stay, the output buffer ends at `out0_2` of the inputs. -/
theorem sound_kernel0 (c : Dev nD) (E : Set ℕ) (i : grid0.Coords) (arg1 : Memref sig .tc .vmem S10000x32 .f32) (harg1 : arg1.IsWhole) (arg2 : Memref sig .tc .vmem S32x64 .f32) (harg2 : arg2.IsWhole) (arg3 : Memref sig .tc .vmem S10000x64 .f32) (harg3 : arg3.IsWhole)
    (x0 : Vec F S10000x32 .f32) (x1 : Vec F S32x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this pipeline on core `c`: the arrays as the region finds them; after the body at point `t` each
    input's buffer at its block and the output's at `out0_2` of the two; the scoped rest and the generator register untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the rest passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KernelIdeal.Reg1.lean ====
/-
  The second pallas_call (ten row blocks of 10000): its half of the frame, at a parameter `V` — the buffers'
  contents when the region is entered. A row block of the input (window 0), the bias as a single row (window 1)
  and the whole weight matrix (window 2) are found in their staging buffers at every grid point; the body stores
  one value into the output block (window 3): the input block plus the bias, clamped below at zero, times the
  weights; so the output buffer after the body is a function `out1_3` of the three input blocks, and the proof
  data `dat1` say so point by point.
-/
import proofs.«408481_j1683627180174_2_alg».proof.Proof.Gen.KernelIdeal.Launch
import proofs.«408481_j1683627180174_2_alg».proof.Proof.Gen.KernelIdeal.Skeleton
import proofs.«408481_j1683627180174_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input row block's staging buffer holds its block at every point, for any proof data over `V` whose body leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The bias window's staging buffer holds the whole bias row at every point (fetched once; its block index never moves). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The weights window's staging buffer holds the whole weight matrix at every point (fetched once; its block index never moves). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_s : Rect S10000x64 := Rect.unit (s := S10000x64) ![0, 0] S10000x64.size inb_S10000x64_S10000x64_0_0
abbrev r1_b : Rect S1x64 := Rect.unit (s := S1x64) ![0, 0] S1x64.size inb_S1x64_S1x64_0_0
abbrev r1_w : Rect S64x128 := Rect.unit (s := S64x128) ![0, 0] S64x128.size inb_S64x128_S64x128_0_0
abbrev r1_o : Rect S10000x128 := Rect.unit (s := S10000x128) ![0, 0] S10000x128.size inb_S10000x128_S10000x128_0_0

/-- The output block after the body: its one store, read back whole. The stored value is the row block plus the bias row
    (broadcast down the rows), clamped below at zero, times the weights. -/
def out1_3 (x0 : Vec F S10000x64 .f32) (x1 : Vec F S1x64 .f32) (x2 : Vec F S64x128 .f32) : Vec F S10000x128 .f32 :=
  View.canon [⟨r1_o, k1_pay1 (View.ld x0 r1_s) (View.ld x1 r1_b) (View.ld x2 r1_w)⟩]

/-- The one store covers the output block. -/
theorem cover1_3 (p0 : Vec F S10000x128 .f32) (y : S10000x128.Idx) :
    ∃ pc ∈ ([⟨r1_o, p0⟩] : List (View.Piece (Elt F) S10000x128 .f32)), y ∈ pc.1.set :=
  View.cover_of_tiled [⟨r1_o, p0⟩] S10000x128.size (by rfl) y

set_option maxHeartbeats 1000000 in
/-- The body on whole staging memrefs: the three inputs stay, the output buffer ends at `out1_3` of the inputs. -/
theorem sound_kernel1 (c : Dev nD) (E : Set ℕ) (i : grid1.Coords) (arg1 : Memref sig .tc .vmem S10000x64 .f32) (harg1 : arg1.IsWhole) (arg2 : Memref sig .tc .vmem S1x64 .f32) (harg2 : arg2.IsWhole) (arg3 : Memref sig .tc .vmem S64x128 .f32) (harg3 : arg3.IsWhole) (arg4 : Memref sig .tc .vmem S10000x128 .f32) (harg4 : arg4.IsWhole)
    (x0 : Vec F S10000x64 .f32) (x1 : Vec F S1x64 .f32) (x2 : Vec F S64x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__bias_relu_matmul_kernel i arg1 harg1 arg2 harg2 arg3 harg3 arg4 harg4) K := by
  simp only [cc1__bias_relu_matmul_kernel_eq_skeleton]; unfold cc1__bias_relu_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of this pipeline on core `c`: the arrays as the region finds them; after the body at point `t` each
    input's buffer at its block and the output's at `out1_3` of the three; the scoped rest and the generator register untouched. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the rest passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KernelIdeal.Reg2.lean ====
/-
  The third pallas_call (ten row blocks of 10000): its half of the frame, at a parameter `V` — the buffers'
  contents when the region is entered. A row block of the input (window 0), the bias as a single row (window 1)
  and the whole weight matrix (window 2) are found in their staging buffers at every grid point; the body stores
  one value into the output block (window 3): the input block plus the bias, clamped below at zero, times the
  weights; so the output buffer after the body is a function `out2_3` of the three input blocks, and the proof
  data `dat2` say so point by point.
-/
import proofs.«408481_j1683627180174_2_alg».proof.Proof.Gen.KernelIdeal.Launch
import proofs.«408481_j1683627180174_2_alg».proof.Proof.Gen.KernelIdeal.Skeleton
import proofs.«408481_j1683627180174_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input row block's staging buffer holds its block at every point, for any proof data over `V` whose body leaves it in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The bias window's staging buffer holds the whole bias row at every point (fetched once; its block index never moves). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The weights window's staging buffer holds the whole weight matrix at every point (fetched once; its block index never moves). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_s : Rect S10000x128 := Rect.unit (s := S10000x128) ![0, 0] S10000x128.size inb_S10000x128_S10000x128_0_0
abbrev r2_b : Rect S1x128 := Rect.unit (s := S1x128) ![0, 0] S1x128.size inb_S1x128_S1x128_0_0
abbrev r2_w : Rect S128x128 := Rect.unit (s := S128x128) ![0, 0] S128x128.size inb_S128x128_S128x128_0_0
abbrev r2_o : Rect S10000x128 := Rect.unit (s := S10000x128) ![0, 0] S10000x128.size inb_S10000x128_S10000x128_0_0

/-- The output block after the body: its one store, read back whole. The stored value is the row block plus the bias row
    (broadcast down the rows), clamped below at zero, times the weights. -/
def out2_3 (x0 : Vec F S10000x128 .f32) (x1 : Vec F S1x128 .f32) (x2 : Vec F S128x128 .f32) : Vec F S10000x128 .f32 :=
  View.canon [⟨r2_o, k2_pay1 (View.ld x0 r2_s) (View.ld x1 r2_b) (View.ld x2 r2_w)⟩]

/-- The one store covers the output block. -/
theorem cover2_3 (p0 : Vec F S10000x128 .f32) (y : S10000x128.Idx) :
    ∃ pc ∈ ([⟨r2_o, p0⟩] : List (View.Piece (Elt F) S10000x128 .f32)), y ∈ pc.1.set :=
  View.cover_of_tiled [⟨r2_o, p0⟩] S10000x128.size (by rfl) y

set_option maxHeartbeats 1000000 in
/-- The body on whole staging memrefs: the three inputs stay, the output buffer ends at `out2_3` of the inputs. -/
theorem sound_kernel2 (c : Dev nD) (E : Set ℕ) (i : grid2.Coords) (arg1 : Memref sig .tc .vmem S10000x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S10000x128 .f32) (harg4 : arg4.IsWhole)
    (x0 : Vec F S10000x128 .f32) (x1 : Vec F S1x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__bias_relu_matmul_kernel i arg1 harg1 arg2 harg2 arg3 harg3 arg4 harg4) K := by
  simp only [cc2__bias_relu_matmul_kernel_eq_skeleton]; unfold cc2__bias_relu_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of this pipeline on core `c`: the arrays as the region finds them; after the body at point `t` each
    input's buffer at its block and the output's at `out2_3` of the three; the scoped rest and the generator register untouched. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the rest passes through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KernelIdeal.Reg3.lean ====
/-
  The fourth pallas_call (a bias row added to every row of s3, ten row blocks of 10000): its half of the frame,
  at a parameter `V` — the buffers' contents when the region is entered. A block of s3 (window 0) and the whole
  bias row (window 1) are found in their staging buffers at every grid point; the body stores one value into the
  output block (window 2), the loaded block plus the bias row broadcast down its rows; so the output buffer after
  the body is a function `out3_2` of the two input blocks, and the proof data `dat3` say so point by point.
-/
import proofs.«408481_j1683627180174_2_alg».proof.Proof.Gen.KernelIdeal.Launch
import proofs.«408481_j1683627180174_2_alg».proof.Proof.Gen.KernelIdeal.Skeleton
import proofs.«408481_j1683627180174_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The s3 window's staging buffer holds its block at every point, for any proof data over `V` whose body leaves it in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The bias window's staging buffer holds the whole bias row at every point (fetched once; its block index never moves). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_s : Rect S10000x128 := Rect.unit (s := S10000x128) ![0, 0] S10000x128.size inb_S10000x128_S10000x128_0_0
abbrev r3_b : Rect S1x128 := Rect.unit (s := S1x128) ![0, 0] S1x128.size inb_S1x128_S1x128_0_0
abbrev r3_o : Rect S10000x128 := Rect.unit (s := S10000x128) ![0, 0] S10000x128.size inb_S10000x128_S10000x128_0_0

/-- The output block after the body: its one store, of the loaded s3 block plus the bias row, read back whole. -/
def out3_2 (x0 : Vec F S10000x128 .f32) (x1 : Vec F S1x128 .f32) : Vec F S10000x128 .f32 :=
  View.canon [⟨r3_o, k3_pay1 (View.ld x0 r3_s) (View.ld x1 r3_b)⟩]

/-- The one store covers the output block. -/
theorem cover3_2 (p0 : Vec F S10000x128 .f32) (y : S10000x128.Idx) :
    ∃ pc ∈ ([⟨r3_o, p0⟩] : List (View.Piece (Elt F) S10000x128 .f32)), y ∈ pc.1.set :=
  View.cover_of_tiled [⟨r3_o, p0⟩] S10000x128.size (by rfl) y

set_option maxHeartbeats 1000000 in
/-- The body on whole staging memrefs: the inputs stay, the output buffer ends at `out3_2` of the inputs. -/
theorem sound_kernel3 (c : Dev nD) (E : Set ℕ) (i : grid3.Coords) (arg1 : Memref sig .tc .vmem S10000x128 .f32) (harg1 : arg1.IsWhole) (arg2 : Memref sig .tc .vmem S1x128 .f32) (harg2 : arg2.IsWhole) (arg3 : Memref sig .tc .vmem S10000x128 .f32) (harg3 : arg3.IsWhole)
    (x0 : Vec F S10000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__bias_add_kernel i arg1 harg1 arg2 harg2 arg3 harg3) K := by
  simp only [cc3__bias_add_kernel_eq_skeleton]; unfold cc3__bias_add_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of this pipeline on core `c`: the arrays as the region finds them; after the body at point `t` each
    input's buffer at its block and the output's at `out3_2` of the two; the scoped rest and the generator register untouched. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so `sound_kernel3` applies; the rest passes through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KernelIdeal.Reg4Defs.lean ====
/-
  The last pallas_call (the pooling sum: for each of ten row blocks of 10000, a 0/1 matrix built from the block's graph ids,
  transposed, times the block's rows of node features, added into a 128 × 128 accumulator kept in a scratch buffer across
  the grid points and copied to the output block at every point): the DEFINITIONS its frame and its value are stated over,
  at a parameter `V` — the buffers' contents when the region is entered.
-/
import proofs.«408481_j1683627180174_2_alg».proof.Proof.Gen.KernelIdeal.Launch
import proofs.«408481_j1683627180174_2_alg».proof.Proof.Gen.KernelIdeal.Skeleton
import proofs.«408481_j1683627180174_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it
    (window 0: a block of node features; window 1: the block's graph ids; window 2: the output). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- THE ACCUMULATION. What the scratch accumulator (and the output block) holds after the body at grid position `n`:
    at the first point the body first clears the accumulator, so the sum starts from the cleared value `k4_pay1`;
    at a later point from what the point before left. -/
def acc4 (c : Dev nD) : (n : ℕ) → n < cfg4.N → Vec F S128x128 .f32
  | 0, h => k4_pay2 (grid4.coords ⟨0, h⟩) (iblk4 V c 1 ⟨0, h⟩) (iblk4 V c 0 ⟨0, h⟩) (k4_pay1 (F := F))
  | n + 1, h => k4_pay2 (grid4.coords ⟨n + 1, h⟩) (iblk4 V c 1 ⟨n + 1, h⟩) (iblk4 V c 0 ⟨n + 1, h⟩) (acc4 c n (Nat.lt_of_succ_lt h))

theorem acc4_zero (c : Dev nD) (h : 0 < cfg4.N) :
    acc4 V c 0 h = k4_pay2 (grid4.coords ⟨0, h⟩) (iblk4 V c 1 ⟨0, h⟩) (iblk4 V c 0 ⟨0, h⟩) (k4_pay1 (F := F)) := rfl
theorem acc4_succ (c : Dev nD) (n : ℕ) (h : n + 1 < cfg4.N) :
    acc4 V c (n + 1) h = k4_pay2 (grid4.coords ⟨n + 1, h⟩) (iblk4 V c 1 ⟨n + 1, h⟩) (iblk4 V c 0 ⟨n + 1, h⟩) (acc4 V c n (Nat.lt_of_succ_lt h)) := rfl

/-- The scratch accumulator as a whole memref. -/
abbrev scM4 : Memref sig .tc .vmem S128x128 .f32 := Memref.whole cc4_scratch0

/-- The region's invariant before grid position `n`: before the first point whatever the launch hands the kernel
    (the scoped rest — every scoped buffer no window of this region stages, the accumulator among them, at anything — and
    the generator register); afterwards the accumulator at what the point before left in it, the other scoped buffers of
    that rest still unopened, and the generator register at some state. -/
def PhiS4 (c : Dev nD) : (n : ℕ) → n ≤ cfg4.N → sProp 𝕄
  | 0, _ => Pipeline.ΦA spec4 c
  | n + 1, hn => iprop(iprop(owns (c : Thread nD τ) scM4 fullShare (acc4 V c n hn) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(owns (c : Thread nD τ) scM4 fullShare (acc4 V c n hn) ∗ Pipeline.scopedRestBut (Ix := Unit) (Name := ℕ) (U := UR sig nD τ) (Lvl := ℕ) (Val := Elt F) spec4 c [cc4_scratch0]) ∗ (∃ r, prngReg c r)) := rfl
theorem PhiS4_pos (c : Dev nD) (n : ℕ) (h : n ≤ cfg4.N) (hz : n ≠ 0) :
    PhiS4 V c n h = iprop(iprop(owns (c : Thread nD τ) scM4 fullShare (acc4 V c (n - 1) (by omega)) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-- The proof data of this pipeline on core `c`: the arrays as the region finds them; after the body at point `t` each
    input's buffer at its block and the output's at the accumulated sum `acc4`; the invariant `PhiS4`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => acc4 V c t.val t.isLt
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = acc4 V c t.val t.isLt := by dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]

end Cert.KernelIdeal.Fr

end
-- ==== Proof.KernelIdeal.Fold.lean ====
/-
  The contents of the TensorCore's unscoped buffers at every boundary between two items of @main, as a fold from the
  launch memory `m`: a stretch of host operations applies those operations (`StableHlo.after`); a pallas_call leaves its
  windows' arrays at what its write-backs leave (`Dat.arrAt … N` of that region's proof data, taken at the contents the
  region was entered from) and every other buffer as it was. `W0` is the launch; `W12` is what @main returns from.
  Then: what each item leaves untouched, so that an argument array reads back through the whole fold to its launch
  contents.
-/
import proofs.«408481_j1683627180174_2_alg».proof.Proof.KernelIdeal.Reg0
import proofs.«408481_j1683627180174_2_alg».proof.Proof.KernelIdeal.Reg1
import proofs.«408481_j1683627180174_2_alg».proof.Proof.KernelIdeal.Reg2
import proofs.«408481_j1683627180174_2_alg».proof.Proof.KernelIdeal.Reg3
import proofs.«408481_j1683627180174_2_alg».proof.Proof.KernelIdeal.Reg4Defs
import proofs.«408481_j1683627180174_2_alg».proof.Proof.Gen.KernelIdeal.Regions
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Fr

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-- Core `c`'s unscoped buffers at launch. -/
abbrev W0 (c : Dev nD) : Valuation τ sig (Elt F) := fun b => m (c, b)
/-- After the host stretch `hostOps0`. -/
abbrev W1 (c : Dev nD) : Valuation τ sig (Elt F) := StableHlo.after hostOps0 (W0 m c)
/-- The stretch `hostOps0` leaves every buffer it does not write as it was. -/
theorem W1_of (c : Dev nD) (r : Ref sig .tc) (h : r ∉ hostOps0_W) : W1 m c r = W0 m c r :=
  StableHlo.after_of_writes_sub hostOps0 _ hostOps0_writes h
/-- After the host stretch `hostOps0_1`. -/
abbrev W2 (c : Dev nD) : Valuation τ sig (Elt F) := StableHlo.after hostOps0_1 (W1 m c)
/-- The stretch `hostOps0_1` leaves every buffer it does not write as it was. -/
theorem W2_of (c : Dev nD) (r : Ref sig .tc) (h : r ∉ hostOps0_1_W) : W2 m c r = W1 m c r :=
  StableHlo.after_of_writes_sub hostOps0_1 _ hostOps0_1_writes h
/-- The same contents read at the TensorCore's references: what pallas_call 0 is entered from. -/
abbrev E2 : (c : Dev nD) → (b : Ref sig .tc) → Buf (Elt F) ((c : Thread nD τ).loc b) := fun c b => W2 m c b
/-- After pallas_call 0: its windows' arrays at what the pipeline leaves, every other buffer as entered. -/
def W3 (c : Dev nD) : Valuation τ sig (Elt F) :=
  Pipeline.withArrays spec0 c (W2 m c) fun w => (dat0 (E2 m) c).arrAt w cfg0.N
theorem W3_arr (c : Dev nD) (w : Fin cfg0.W) :
    W3 m c (Proc.devRef .tc (Pipeline.arrRef spec0 w)) = (dat0 (E2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
/-- The same read at the TensorCore's references (pallas_call 0's exit contents). -/
abbrev X3 : (c : Dev nD) → (b : Ref sig .tc) → Buf (Elt F) ((c : Thread nD τ).loc b) := fun c b => W3 m c b
theorem hF0 (c : Dev nD) (w : Fin cfg0.W) : (dat0 (E2 m) c).arrAt w cfg0.N = X3 m c (Pipeline.arrRef spec0 w) :=
  (W3_arr m c w).symm
theorem hrest0 (c : Dev nD) : ∀ b, b ∉ Finset.univ.image (Pipeline.arrRef spec0) → X3 m c b = E2 m c b :=
  fun b hb => W3_of_ne m c b fun w e => hb (Finset.mem_image.mpr ⟨w, Finset.mem_univ _, e⟩)
/-- pallas_call 0 changes only its output array `main_v15`: an input window's array ends as entered, and a buffer that
    is no window's array is not touched. -/
theorem W3_keep (c : Dev nD) (b : Ref sig .tc) (hb : b ≠ main_v15) : W3 m c (Proc.devRef .tc b) = W2 m c (Proc.devRef .tc b) := by
  by_cases hw : ∃ w, Pipeline.arrRef spec0 w = b
  · obtain ⟨w, rfl⟩ := hw
    rw [W3_arr]
    match w, hb with
    | ⟨0, _⟩, _ => exact ((dat0 (E2 m) c).arrAt_in 0 rfl _).trans (A_eq0 (E2 m) c 0)
    | ⟨1, _⟩, _ => exact ((dat0 (E2 m) c).arrAt_in 1 rfl _).trans (A_eq0 (E2 m) c 1)
    | ⟨2, _⟩, hb => exact absurd rfl hb
  · exact W3_of_ne m c b fun w e => hw ⟨w, e⟩
/-- After the host stretch `hostOps1`. -/
abbrev W4 (c : Dev nD) : Valuation τ sig (Elt F) := StableHlo.after hostOps1 (W3 m c)
/-- The stretch `hostOps1` leaves every buffer it does not write as it was. -/
theorem W4_of (c : Dev nD) (r : Ref sig .tc) (h : r ∉ hostOps1_W) : W4 m c r = W3 m c r :=
  StableHlo.after_of_writes_sub hostOps1 _ hostOps1_writes h
/-- The same contents read at the TensorCore's references: what pallas_call 1 is entered from. -/
abbrev E4 : (c : Dev nD) → (b : Ref sig .tc) → Buf (Elt F) ((c : Thread nD τ).loc b) := fun c b => W4 m c b
/-- After pallas_call 1: its windows' arrays at what the pipeline leaves, every other buffer as entered. -/
def W5 (c : Dev nD) : Valuation τ sig (Elt F) :=
  Pipeline.withArrays spec1 c (W4 m c) fun w => (dat1 (E4 m) c).arrAt w cfg1.N
theorem W5_arr (c : Dev nD) (w : Fin cfg1.W) :
    W5 m c (Proc.devRef .tc (Pipeline.arrRef spec1 w)) = (dat1 (E4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
/-- The same read at the TensorCore's references (pallas_call 1's exit contents). -/
abbrev X5 : (c : Dev nD) → (b : Ref sig .tc) → Buf (Elt F) ((c : Thread nD τ).loc b) := fun c b => W5 m c b
theorem hF1 (c : Dev nD) (w : Fin cfg1.W) : (dat1 (E4 m) c).arrAt w cfg1.N = X5 m c (Pipeline.arrRef spec1 w) :=
  (W5_arr m c w).symm
theorem hrest1 (c : Dev nD) : ∀ b, b ∉ Finset.univ.image (Pipeline.arrRef spec1) → X5 m c b = E4 m c b :=
  fun b hb => W5_of_ne m c b fun w e => hb (Finset.mem_image.mpr ⟨w, Finset.mem_univ _, e⟩)
/-- pallas_call 1 changes only its output array `main_v45`: an input window's array ends as entered, and a buffer that
    is no window's array is not touched. -/
theorem W5_keep (c : Dev nD) (b : Ref sig .tc) (hb : b ≠ main_v45) : W5 m c (Proc.devRef .tc b) = W4 m c (Proc.devRef .tc b) := by
  by_cases hw : ∃ w, Pipeline.arrRef spec1 w = b
  · obtain ⟨w, rfl⟩ := hw
    rw [W5_arr]
    match w, hb with
    | ⟨0, _⟩, _ => exact ((dat1 (E4 m) c).arrAt_in 0 rfl _).trans (A_eq1 (E4 m) c 0)
    | ⟨1, _⟩, _ => exact ((dat1 (E4 m) c).arrAt_in 1 rfl _).trans (A_eq1 (E4 m) c 1)
    | ⟨2, _⟩, _ => exact ((dat1 (E4 m) c).arrAt_in 2 rfl _).trans (A_eq1 (E4 m) c 2)
    | ⟨3, _⟩, hb => exact absurd rfl hb
  · exact W5_of_ne m c b fun w e => hw ⟨w, e⟩
/-- After the host stretch `hostOps2`. -/
abbrev W6 (c : Dev nD) : Valuation τ sig (Elt F) := StableHlo.after hostOps2 (W5 m c)
/-- The stretch `hostOps2` leaves every buffer it does not write as it was. -/
theorem W6_of (c : Dev nD) (r : Ref sig .tc) (h : r ∉ hostOps2_W) : W6 m c r = W5 m c r :=
  StableHlo.after_of_writes_sub hostOps2 _ hostOps2_writes h
/-- The same contents read at the TensorCore's references: what pallas_call 2 is entered from. -/
abbrev E6 : (c : Dev nD) → (b : Ref sig .tc) → Buf (Elt F) ((c : Thread nD τ).loc b) := fun c b => W6 m c b
/-- After pallas_call 2: its windows' arrays at what the pipeline leaves, every other buffer as entered. -/
def W7 (c : Dev nD) : Valuation τ sig (Elt F) :=
  Pipeline.withArrays spec2 c (W6 m c) fun w => (dat2 (E6 m) c).arrAt w cfg2.N
theorem W7_arr (c : Dev nD) (w : Fin cfg2.W) :
    W7 m c (Proc.devRef .tc (Pipeline.arrRef spec2 w)) = (dat2 (E6 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
/-- The same read at the TensorCore's references (pallas_call 2's exit contents). -/
abbrev X7 : (c : Dev nD) → (b : Ref sig .tc) → Buf (Elt F) ((c : Thread nD τ).loc b) := fun c b => W7 m c b
theorem hF2 (c : Dev nD) (w : Fin cfg2.W) : (dat2 (E6 m) c).arrAt w cfg2.N = X7 m c (Pipeline.arrRef spec2 w) :=
  (W7_arr m c w).symm
theorem hrest2 (c : Dev nD) : ∀ b, b ∉ Finset.univ.image (Pipeline.arrRef spec2) → X7 m c b = E6 m c b :=
  fun b hb => W7_of_ne m c b fun w e => hb (Finset.mem_image.mpr ⟨w, Finset.mem_univ _, e⟩)
/-- pallas_call 2 changes only its output array `main_v75`: an input window's array ends as entered, and a buffer that
    is no window's array is not touched. -/
theorem W7_keep (c : Dev nD) (b : Ref sig .tc) (hb : b ≠ main_v75) : W7 m c (Proc.devRef .tc b) = W6 m c (Proc.devRef .tc b) := by
  by_cases hw : ∃ w, Pipeline.arrRef spec2 w = b
  · obtain ⟨w, rfl⟩ := hw
    rw [W7_arr]
    match w, hb with
    | ⟨0, _⟩, _ => exact ((dat2 (E6 m) c).arrAt_in 0 rfl _).trans (A_eq2 (E6 m) c 0)
    | ⟨1, _⟩, _ => exact ((dat2 (E6 m) c).arrAt_in 1 rfl _).trans (A_eq2 (E6 m) c 1)
    | ⟨2, _⟩, _ => exact ((dat2 (E6 m) c).arrAt_in 2 rfl _).trans (A_eq2 (E6 m) c 2)
    | ⟨3, _⟩, hb => exact absurd rfl hb
  · exact W7_of_ne m c b fun w e => hw ⟨w, e⟩
/-- After the host stretch `hostOps3`. -/
abbrev W8 (c : Dev nD) : Valuation τ sig (Elt F) := StableHlo.after hostOps3 (W7 m c)
/-- The stretch `hostOps3` leaves every buffer it does not write as it was. -/
theorem W8_of (c : Dev nD) (r : Ref sig .tc) (h : r ∉ hostOps3_W) : W8 m c r = W7 m c r :=
  StableHlo.after_of_writes_sub hostOps3 _ hostOps3_writes h
/-- The same contents read at the TensorCore's references: what pallas_call 3 is entered from. -/
abbrev E8 : (c : Dev nD) → (b : Ref sig .tc) → Buf (Elt F) ((c : Thread nD τ).loc b) := fun c b => W8 m c b
/-- After pallas_call 3: its windows' arrays at what the pipeline leaves, every other buffer as entered. -/
def W9 (c : Dev nD) : Valuation τ sig (Elt F) :=
  Pipeline.withArrays spec3 c (W8 m c) fun w => (dat3 (E8 m) c).arrAt w cfg3.N
theorem W9_arr (c : Dev nD) (w : Fin cfg3.W) :
    W9 m c (Proc.devRef .tc (Pipeline.arrRef spec3 w)) = (dat3 (E8 m) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m c (Proc.devRef .tc b) = W8 m c (Proc.devRef .tc b) := by
  unfold W9; exact Pipeline.withArrays_of_ne spec3 c _ _ b hb
/-- The same read at the TensorCore's references (pallas_call 3's exit contents). -/
abbrev X9 : (c : Dev nD) → (b : Ref sig .tc) → Buf (Elt F) ((c : Thread nD τ).loc b) := fun c b => W9 m c b
theorem hF3 (c : Dev nD) (w : Fin cfg3.W) : (dat3 (E8 m) c).arrAt w cfg3.N = X9 m c (Pipeline.arrRef spec3 w) :=
  (W9_arr m c w).symm
theorem hrest3 (c : Dev nD) : ∀ b, b ∉ Finset.univ.image (Pipeline.arrRef spec3) → X9 m c b = E8 m c b :=
  fun b hb => W9_of_ne m c b fun w e => hb (Finset.mem_image.mpr ⟨w, Finset.mem_univ _, e⟩)
/-- pallas_call 3 changes only its output array `main_v105`: an input window's array ends as entered, and a buffer that
    is no window's array is not touched. -/
theorem W9_keep (c : Dev nD) (b : Ref sig .tc) (hb : b ≠ main_v105) : W9 m c (Proc.devRef .tc b) = W8 m c (Proc.devRef .tc b) := by
  by_cases hw : ∃ w, Pipeline.arrRef spec3 w = b
  · obtain ⟨w, rfl⟩ := hw
    rw [W9_arr]
    match w, hb with
    | ⟨0, _⟩, _ => exact ((dat3 (E8 m) c).arrAt_in 0 rfl _).trans (A_eq3 (E8 m) c 0)
    | ⟨1, _⟩, _ => exact ((dat3 (E8 m) c).arrAt_in 1 rfl _).trans (A_eq3 (E8 m) c 1)
    | ⟨2, _⟩, hb => exact absurd rfl hb
  · exact W9_of_ne m c b fun w e => hw ⟨w, e⟩
/-- After the host stretch `hostOps4`. -/
abbrev W10 (c : Dev nD) : Valuation τ sig (Elt F) := StableHlo.after hostOps4 (W9 m c)
/-- The stretch `hostOps4` leaves every buffer it does not write as it was. -/
theorem W10_of (c : Dev nD) (r : Ref sig .tc) (h : r ∉ hostOps4_W) : W10 m c r = W9 m c r :=
  StableHlo.after_of_writes_sub hostOps4 _ hostOps4_writes h
/-- The same contents read at the TensorCore's references: what pallas_call 4 is entered from. -/
abbrev E10 : (c : Dev nD) → (b : Ref sig .tc) → Buf (Elt F) ((c : Thread nD τ).loc b) := fun c b => W10 m c b
/-- After pallas_call 4: its windows' arrays at what the pipeline leaves, every other buffer as entered. -/
def W11 (c : Dev nD) : Valuation τ sig (Elt F) :=
  Pipeline.withArrays spec4 c (W10 m c) fun w => (dat4 (E10 m) c).arrAt w cfg4.N
theorem W11_arr (c : Dev nD) (w : Fin cfg4.W) :
    W11 m c (Proc.devRef .tc (Pipeline.arrRef spec4 w)) = (dat4 (E10 m) c).arrAt w cfg4.N := by
  unfold W11; exact Pipeline.withArrays_arr spec4 launch4.win.arr_inj c _ _ w
theorem W11_of_ne (c : Dev nD) (b : Ref sig .tc) (hb : ∀ w, Pipeline.arrRef spec4 w ≠ b) :
    W11 m c (Proc.devRef .tc b) = W10 m c (Proc.devRef .tc b) := by
  unfold W11; exact Pipeline.withArrays_of_ne spec4 c _ _ b hb
/-- The same read at the TensorCore's references (pallas_call 4's exit contents). -/
abbrev X11 : (c : Dev nD) → (b : Ref sig .tc) → Buf (Elt F) ((c : Thread nD τ).loc b) := fun c b => W11 m c b
theorem hF4 (c : Dev nD) (w : Fin cfg4.W) : (dat4 (E10 m) c).arrAt w cfg4.N = X11 m c (Pipeline.arrRef spec4 w) :=
  (W11_arr m c w).symm
theorem hrest4 (c : Dev nD) : ∀ b, b ∉ Finset.univ.image (Pipeline.arrRef spec4) → X11 m c b = E10 m c b :=
  fun b hb => W11_of_ne m c b fun w e => hb (Finset.mem_image.mpr ⟨w, Finset.mem_univ _, e⟩)
/-- pallas_call 4 changes only its output array `main_v107`: an input window's array ends as entered, and a buffer that
    is no window's array is not touched. -/
theorem W11_keep (c : Dev nD) (b : Ref sig .tc) (hb : b ≠ main_v107) : W11 m c (Proc.devRef .tc b) = W10 m c (Proc.devRef .tc b) := by
  by_cases hw : ∃ w, Pipeline.arrRef spec4 w = b
  · obtain ⟨w, rfl⟩ := hw
    rw [W11_arr]
    match w, hb with
    | ⟨0, _⟩, _ => exact ((dat4 (E10 m) c).arrAt_in 0 rfl _).trans (A_eq4 (E10 m) c 0)
    | ⟨1, _⟩, _ => exact ((dat4 (E10 m) c).arrAt_in 1 rfl _).trans (A_eq4 (E10 m) c 1)
    | ⟨2, _⟩, hb => exact absurd rfl hb
  · exact W11_of_ne m c b fun w e => hw ⟨w, e⟩
/-- After the host stretch `hostOps5`. -/
abbrev W12 (c : Dev nD) : Valuation τ sig (Elt F) := StableHlo.after hostOps5 (W11 m c)
/-- The stretch `hostOps5` leaves every buffer it does not write as it was. -/
theorem W12_of (c : Dev nD) (r : Ref sig .tc) (h : r ∉ hostOps5_W) : W12 m c r = W11 m c r :=
  StableHlo.after_of_writes_sub hostOps5 _ hostOps5_writes h

/-- A buffer that no host stretch writes and that is no pallas_call's output reaches the end as launched. -/
theorem W12_launch (c : Dev nD) (r : Ref sig .tc)
    (h0 : r ∉ hostOps0_W) (h01 : r ∉ hostOps0_1_W) (h1 : r ∉ hostOps1_W) (h2 : r ∉ hostOps2_W) (h3 : r ∉ hostOps3_W)
    (h4 : r ∉ hostOps4_W) (h5 : r ∉ hostOps5_W)
    (o0 : r ≠ main_v15) (o1 : r ≠ main_v45) (o2 : r ≠ main_v75) (o3 : r ≠ main_v105) (o4 : r ≠ main_v107) :
    W12 m c r = m ((c : Thread nD τ).loc r) :=
  (W12_of m c r h5).trans <| (W11_keep m c r o4).trans <| (W10_of m c r h4).trans <| (W9_keep m c r o3).trans <|
    (W8_of m c r h3).trans <| (W7_keep m c r o2).trans <| (W6_of m c r h2).trans <| (W5_keep m c r o1).trans <|
    (W4_of m c r h1).trans <| (W3_keep m c r o0).trans <| (W2_of m c r h01).trans <| (W1_of m c r h0).trans rfl

theorem W12_main_arg0 (c : Dev nD) : W12 m c main_arg0 = m ((c : Thread nD τ).loc main_arg0) :=
  W12_launch m c main_arg0 (by decide) (by decide) (by decide) (by decide) (by decide) (by decide) (by decide) (by decide) (by decide) (by decide) (by decide) (by decide)
theorem W12_main_arg1 (c : Dev nD) : W12 m c main_arg1 = m ((c : Thread nD τ).loc main_arg1) :=
  W12_launch m c main_arg1 (by decide) (by decide) (by decide) (by decide) (by decide) (by decide) (by decide) (by decide) (by decide) (by decide) (by decide) (by decide)
theorem W12_main_arg2 (c : Dev nD) : W12 m c main_arg2 = m ((c : Thread nD τ).loc main_arg2) :=
  W12_launch m c main_arg2 (by decide) (by decide) (by decide) (by decide) (by decide) (by decide) (by decide) (by decide) (by decide) (by decide) (by decide) (by decide)
theorem W12_main_arg3 (c : Dev nD) : W12 m c main_arg3 = m ((c : Thread nD τ).loc main_arg3) :=
  W12_launch m c main_arg3 (by decide) (by decide) (by decide) (by decide) (by decide) (by decide) (by decide) (by decide) (by decide) (by decide) (by decide) (by decide)
theorem W12_main_arg4 (c : Dev nD) : W12 m c main_arg4 = m ((c : Thread nD τ).loc main_arg4) :=
  W12_launch m c main_arg4 (by decide) (by decide) (by decide) (by decide) (by decide) (by decide) (by decide) (by decide) (by decide) (by decide) (by decide) (by decide)
theorem W12_main_arg5 (c : Dev nD) : W12 m c main_arg5 = m ((c : Thread nD τ).loc main_arg5) :=
  W12_launch m c main_arg5 (by decide) (by decide) (by decide) (by decide) (by decide) (by decide) (by decide) (by decide) (by decide) (by decide) (by decide) (by decide)
theorem W12_main_arg6 (c : Dev nD) : W12 m c main_arg6 = m ((c : Thread nD τ).loc main_arg6) :=
  W12_launch m c main_arg6 (by decide) (by decide) (by decide) (by decide) (by decide) (by decide) (by decide) (by decide) (by decide) (by decide) (by decide) (by decide)
theorem W12_main_arg7 (c : Dev nD) : W12 m c main_arg7 = m ((c : Thread nD τ).loc main_arg7) :=
  W12_launch m c main_arg7 (by decide) (by decide) (by decide) (by decide) (by decide) (by decide) (by decide) (by decide) (by decide) (by decide) (by decide) (by decide)
theorem W12_main_arg8 (c : Dev nD) : W12 m c main_arg8 = m ((c : Thread nD τ).loc main_arg8) :=
  W12_launch m c main_arg8 (by decide) (by decide) (by decide) (by decide) (by decide) (by decide) (by decide) (by decide) (by decide) (by decide) (by decide) (by decide)
theorem W12_main_arg9 (c : Dev nD) : W12 m c main_arg9 = m ((c : Thread nD τ).loc main_arg9) :=
  W12_launch m c main_arg9 (by decide) (by decide) (by decide) (by decide) (by decide) (by decide) (by decide) (by decide) (by decide) (by decide) (by decide) (by decide)
theorem W12_main_arg10 (c : Dev nD) : W12 m c main_arg10 = m ((c : Thread nD τ).loc main_arg10) :=
  W12_launch m c main_arg10 (by decide) (by decide) (by decide) (by decide) (by decide) (by decide) (by decide) (by decide) (by decide) (by decide) (by decide) (by decide)

end Cert.KernelIdeal.Fr

end
-- ==== Proof.KernelIdeal.Reg4.lean ====
/-
  The last pallas_call (the pooling sum: for each of ten row blocks of 10000, a 0/1 matrix built from the block's graph ids,
  transposed, times the block's rows of node features, added into a 128 × 128 accumulator kept in a scratch buffer across
  the grid points and copied to the output block at every point): its half of the frame, at a parameter `V` — the buffers'
  contents when the region is entered. A block of node features (window 0) and the block's graph ids (window 1) are found in
  their staging buffers at every grid point. The body branches on the grid coordinate: at coordinate 0 it first stores the
  cleared value into the accumulator; then, at every point, it loads the two input blocks and the accumulator, stores the
  block's sum added to what it loaded back into the accumulator, loads that and stores it into the output buffer (window 2).
  So after the body at a point both the accumulator and the output buffer hold `acc4` of the point: the block's sum over the
  cleared value at the first point, over what the point before left at a later one. The region's invariant carries the
  accumulator at that named value from one point to the next, beside the scoped buffers of the other regions, which the body
  never opens.
-/
import proofs.«408481_j1683627180174_2_alg».proof.Proof.Gen.KernelIdeal.Launch
import proofs.«408481_j1683627180174_2_alg».proof.Proof.Gen.KernelIdeal.Skeleton
import proofs.«408481_j1683627180174_2_alg».proof.Proof.Gen.KernelIdeal.Points
import proofs.«408481_j1683627180174_2_alg».proof.Proof.KernelIdeal.Reg4Defs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The branch condition of the body, in closed form: the body's comparison chain on the grid coordinate holds exactly at coordinate 0. -/
theorem cond4_iff : ∀ n : Fin 10,
    (Scalar.cmpi .ne (Scalar.extui (Scalar.cmpi .eq (BitVec.ofNat 32 n.val) 0#32)) 0#32 = 1#1) ↔ n.val = 0 := by
  decide

/-- The offsets of the body's loads and stores are all zero: each goes through the whole of its buffer. -/
theorem hz4_acc : (![0, 0] : Fin S128x128.rank → Nat) = fun _ => 0 := by
  funext a; fin_cases a <;> rfl
theorem hz4_ids : (![0, 0] : Fin S10000x1.rank → Nat) = fun _ => 0 := by
  funext a; fin_cases a <;> rfl
theorem hz4_feat : (![0, 0] : Fin S10000x128.rank → Nat) = fun _ => 0 := by
  funext a; fin_cases a <;> rfl

/-- The whole of a 128 × 128 buffer as a rectangle: what every load and store of the accumulator and of the output goes through. -/
abbrev r4_acc : Rect S128x128 := Rect.unit (s := S128x128) ![0, 0] S128x128.size inb_S128x128_S128x128_0_0

/-- A list of stores whose last goes through the whole buffer covers it. -/
theorem cover4 (p0 : Vec F S128x128 .f32) (L : List (View.Piece (Elt F) S128x128 .f32)) (y : S128x128.Idx) :
    ∃ pc ∈ ((⟨r4_acc, p0⟩ : View.Piece (Elt F) S128x128 .f32) :: L), y ∈ pc.1.set :=
  ⟨_, List.mem_cons_self, View.mem_set_unit_zero hz4_acc inb_S128x128_S128x128_0_0 y⟩

set_option maxHeartbeats 1000000 in
/-- The body at the first grid point, on whole memrefs: the branch is taken, so the accumulator is cleared before the block's
    sum is added; the inputs stay, and the accumulator and the output buffer both end at the block's sum over the cleared value. -/
theorem sound_kernel4_first (c : Dev nD) (E : Set ℕ) (i : grid4.Coords) (hi : (i 0).val = 0)
    (arg1 : Memref sig .tc .vmem S10000x128 .f32) (harg1 : arg1.IsWhole) (arg2 : Memref sig .tc .vmem S10000x1 .i32) (harg2 : arg2.IsWhole)
    (arg3 : Memref sig .tc .vmem S128x128 .f32) (harg3 : arg3.IsWhole) (arg4 : Memref sig .tc .vmem S128x128 .f32) (harg4 : arg4.IsWhole)
    (x0 : Vec F S10000x128 .f32) (x1 : Vec F S10000x1 .i32) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d)
        ∗ (iprop(owns (c : Thread nD τ) arg1 fullShare x0 ∗ owns (c : Thread nD τ) arg2 fullShare x1
            ∗ owns (c : Thread nD τ) arg3 fullShare (k4_pay2 i x1 x0 (k4_pay1 (F := F)))
            ∗ owns (c : Thread nD τ) arg4 fullShare (k4_pay2 i x1 x0 (k4_pay1 (F := F)))) -∗ K ⟨⟩))
      ⊢ wp frame (wpE (defs₀ (F := F)) Variants.none c none) E (cc4__pool_kernel i arg1 harg1 arg2 harg2 arg3 harg3 arg4 harg4) K := by
  have hc : (Scalar.cmpi .ne (Scalar.extui (Scalar.cmpi .eq (BitVec.ofNat 32 (i 0).val) 0#32)) 0#32 = 1#1) := by
    rw [hi]; decide
  simp only [cc4__pool_kernel_eq_skeleton]; unfold cc4__pool_kernel_skel
  unfold owns
  iintro ⟨⟨%f0, %hf0, H0⟩, ⟨%f1, %hf1, H1⟩, ⟨%d2, %f2, -, H2⟩, ⟨%d3, %f3, -, H3⟩, Hk⟩
  subst hf0 hf1
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (cover4 _ _), View.canon_unit_zero hz4_acc,
      View.readCov_eq_canon_ld _ _ _ (cover4 _ _), View.canon_cons_unit_zero (S := S128x128) hz4_acc, View.ld_unit_zero (S := S128x128) hz4_acc]
    simp only [View.readAt_eq_ld, View.ld_unit_zero (S := S10000x1) hz4_ids, View.ld_unit_zero (S := S10000x128) hz4_feat,
      View.readCov_unit_zero (S := S128x128) _ hz4_acc]
  · iexists _; isplitr
    swap; · iexact H3
    ipureintro
    sl_unfold_words
    rw [View.read_writes_eq_canon _ _ _ (cover4 _ _), View.canon_cons_unit_zero (S := S128x128) hz4_acc]
    simp only [View.readAt_eq_ld, View.ld_unit_zero (S := S10000x1) hz4_ids, View.ld_unit_zero (S := S10000x128) hz4_feat,
      View.readCov_unit_zero (S := S128x128) _ hz4_acc]

set_option maxHeartbeats 1000000 in
/-- The body at a later grid point, on whole memrefs, the accumulator holding `s`: the branch is not taken; the inputs stay, and
    the accumulator and the output buffer both end at the block's sum over `s`. -/
theorem sound_kernel4_later (c : Dev nD) (E : Set ℕ) (i : grid4.Coords) (hi : (i 0).val ≠ 0) (hlt : (i 0).val < 10)
    (arg1 : Memref sig .tc .vmem S10000x128 .f32) (harg1 : arg1.IsWhole) (arg2 : Memref sig .tc .vmem S10000x1 .i32) (harg2 : arg2.IsWhole)
    (arg3 : Memref sig .tc .vmem S128x128 .f32) (harg3 : arg3.IsWhole) (arg4 : Memref sig .tc .vmem S128x128 .f32) (harg4 : arg4.IsWhole)
    (x0 : Vec F S10000x128 .f32) (x1 : Vec F S10000x1 .i32) (s : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare s
        ∗ (iprop(owns (c : Thread nD τ) arg1 fullShare x0 ∗ owns (c : Thread nD τ) arg2 fullShare x1
            ∗ owns (c : Thread nD τ) arg3 fullShare (k4_pay2 i x1 x0 s)
            ∗ owns (c : Thread nD τ) arg4 fullShare (k4_pay2 i x1 x0 s)) -∗ K ⟨⟩))
      ⊢ wp frame (wpE (defs₀ (F := F)) Variants.none c none) E (cc4__pool_kernel i arg1 harg1 arg2 harg2 arg3 harg3 arg4 harg4) K := by
  have hc : ¬ (Scalar.cmpi .ne (Scalar.extui (Scalar.cmpi .eq (BitVec.ofNat 32 (i 0).val) 0#32)) 0#32 = 1#1) :=
    fun h => hi ((cond4_iff ⟨(i 0).val, hlt⟩).mp h)
  simp only [cc4__pool_kernel_eq_skeleton]; unfold cc4__pool_kernel_skel
  unfold owns
  iintro ⟨⟨%f0, %hf0, H0⟩, ⟨%f1, %hf1, H1⟩, ⟨%d2, %f2, -, H2⟩, ⟨%f3, %hf3, H3⟩, Hk⟩
  subst hf0 hf1 hf3
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (cover4 _ _), View.canon_unit_zero hz4_acc]
    simp only [View.readAt_eq_ld, View.ld_unit_zero (S := S10000x1) hz4_ids, View.ld_unit_zero (S := S10000x128) hz4_feat,
      View.ld_unit_zero (S := S128x128) hz4_acc, View.readCov_unit_zero (S := S128x128) _ hz4_acc]
  · iexists _; isplitr
    swap; · iexact H3
    ipureintro
    sl_unfold_words
    rw [View.read_writes_eq_canon _ _ _ (cover4 _ _), View.canon_unit_zero hz4_acc]
    simp only [View.readAt_eq_ld, View.ld_unit_zero (S := S10000x1) hz4_ids, View.ld_unit_zero (S := S10000x128) hz4_feat,
      View.ld_unit_zero (S := S128x128) hz4_acc]

/-- The feature window's staging buffer holds its block at every point, for any proof data over `V` whose body leaves it in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The graph-id window's staging buffer holds its block at every point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the launch hands the region, opened at the accumulator: the accumulator as a whole memref owned at some contents,
    the other scoped buffers no window of this region stages left unopened, and the generator register at some state. -/
theorem PhiA4_eq (c : Dev nD) :
    (Pipeline.ΦA spec4 c : sProp 𝕄)
      = iprop(iprop((∃ d, owns (c : Thread nD τ) scM4 fullShare d) ∗ Pipeline.scopedRestBut (Ix := Unit) (Name := ℕ) (U := UR sig nD τ) (Lvl := ℕ) (Val := Elt F) spec4 c [cc4_scratch0]) ∗ (∃ r, prngReg c r)) := by
  unfold Pipeline.ΦA
  rw [Pipeline.scopedRest_split_of_list spec4 c [cc4_scratch0] (by decide) (by decide)]
  simp only [bigSepL_singleton, scM4, owns_whole]; try rfl

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The grid coordinate of a point is its position (the grid has one axis of ten points). -/
theorem coord4_val : ∀ t : Fin cfg4.N, ((grid4.coords t) 0).val = t.val :=
  (by decide +kernel : ∀ t : Fin grid4.N, ((grid4.coords t) 0).val = t.val)

set_option maxHeartbeats 1000000 in
/-- The body at any point: the inputs' memrefs hold their blocks. At the first point the invariant is what the launch hands
    the region, opened at the accumulator (at anything), and the body clears it before adding; at a later point the invariant
    names what the point before left in the accumulator, and the body adds to that. Either way the accumulator and the output
    buffer end at `acc4` of the point, the other scoped buffers and the generator register pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl,
    show (dat4 V c).Φ t.succ = PhiS4 V c (t.val + 1) t.isLt from rfl, PhiS4_succ,
    after4_0, after4_1, after4_2]
  have hN : t.val < 10 := lt_of_lt_of_eq t.isLt (show cfg4.N = 10 from N_4)
  by_cases hz : t.val = 0
  · rw [PhiS4_castSucc V c t, PhiS4_zero V c _ _ hz, PhiA4_eq]
    obtain ⟨n, hn⟩ := t
    obtain rfl : n = 0 := hz
    rw [show acc4 V c (⟨0, hn⟩ : Fin cfg4.N).val (⟨0, hn⟩ : Fin cfg4.N).isLt = k4_pay2 (grid4.coords ⟨0, hn⟩) (iblk4 V c 1 ⟨0, hn⟩) (iblk4 V c 0 ⟨0, hn⟩) (k4_pay1 (F := F)) from acc4_zero V c hn]
    iintro ⟨⟨⟨HS, HR⟩, Hg⟩, Ho, ⟨%d0, H0⟩, ⟨%d1, H1⟩, ⟨%d2, H2⟩⟩
    iapply (sound_kernel4_first c Set.univ (grid4.coords ⟨0, hn⟩) ((coord4_val ⟨0, hn⟩).trans rfl) _ _ _ _ _ _ _ _ (iblk4 V c 0 ⟨0, hn⟩) (iblk4 V c 1 ⟨0, hn⟩) _)
    isplitl [H0]; · iexact H0
    isplitl [H1]; · iexact H1
    isplitl [H2]; · iexists _; iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2
  · rw [PhiS4_castSucc V c t, PhiS4_pos V c _ _ hz]
    obtain ⟨n, hn⟩ := t
    obtain ⟨k, rfl⟩ : ∃ k, n = k + 1 := ⟨n - 1, by have : n ≠ 0 := hz; omega⟩
    rw [show acc4 V c (⟨k + 1, hn⟩ : Fin cfg4.N).val (⟨k + 1, hn⟩ : Fin cfg4.N).isLt = k4_pay2 (grid4.coords ⟨k + 1, hn⟩) (iblk4 V c 1 ⟨k + 1, hn⟩) (iblk4 V c 0 ⟨k + 1, hn⟩) (acc4 V c k (Nat.lt_of_succ_lt hn)) from acc4_succ V c k hn]
    iintro ⟨⟨⟨HS, HR⟩, Hg⟩, Ho, ⟨%d0, H0⟩, ⟨%d1, H1⟩, ⟨%d2, H2⟩⟩
    iapply (sound_kernel4_later c Set.univ (grid4.coords ⟨k + 1, hn⟩) (by rw [coord4_val]; exact Nat.succ_ne_zero k) (by rw [coord4_val]; exact hN) _ _ _ _ _ _ _ _ (iblk4 V c 0 ⟨k + 1, hn⟩) (iblk4 V c 1 ⟨k + 1, hn⟩) (acc4 V c k (Nat.lt_of_succ_lt hn)) _)
    isplitl [H0]; · iexact H0
    isplitl [H1]; · iexact H1
    isplitl [H2]; · iexists _; iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 (F := F) V c).Φ 0 := by
  rw [show (dat4 V c).Φ 0 = PhiS4 V c 0 (Nat.zero_le _) from rfl, PhiS4_zero V c 0 _ rfl]
  try exact Idealize.SL.BI.Entails.refl _

/-- After any point but the first the invariant gives back what the launch handed the region: the accumulator's named
    contents are forgotten. -/
theorem Phi_out4 (c : Dev nD) (t : Fin (cfg4.N + 1)) (ht : t.val ≠ 0) : (dat4 (F := F) V c).Φ t ⊢ Pipeline.ΦA spec4 c := by
  rw [show (dat4 V c).Φ t = PhiS4 V c t.val (Nat.le_of_lt_succ t.isLt) from rfl, PhiS4_pos V c _ _ ht, PhiA4_eq]
  iintro ⟨⟨HS, HR⟩, Hg⟩
  isplitl [HS HR]
  · isplitl [HS]; · iexists _; iexact HS
    iexact HR
  iexact Hg

/-- The same after the last point. -/
theorem hout4 (c : Dev nD) : (dat4 (F := F) V c).Φ (Fin.last cfg4.N) ⊢ Pipeline.ΦA spec4 c :=
  Phi_out4 V c _ (by rw [Fin.val_last]; have : cfg4.N = 10 := N_4; omega)

end Cert.KernelIdeal.Fr

end
-- ==== Proof.KernelIdeal.Run.lean ====
/-
  THE RUN of the kernel program: @main as a list of segments — a host segment per stretch of host operations, entered
  from the fold's contents before it; a region per pallas_call, entered from every unscoped buffer at the fold's
  contents before it and left at the contents after it — launched by the several-regions launch theorem. Every weakly
  fair execution terminates, and every final memory holds every unscoped buffer at the fold's last contents `W12`.
  Read at the argument arrays this is the frame; read at the result buffer it names the program's result.
-/
import proofs.«408481_j1683627180174_2_alg».proof.Proof.KernelIdeal.Fold
import proofs.«408481_j1683627180174_2_alg».proof.Proof.KernelIdeal.Reg4
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, each at the contents its region is entered from. -/
def pdats : (p : Fin 5) → (c : Dev nD) → Dat τ (Elt F) Unit ℕ (UR sig nD τ) ℕ (Pipeline.pin (pcfgs (F := F)) adm p) c
  | ⟨0, _⟩ => fun c => dat0 (E2 m) c
  | ⟨1, _⟩ => fun c => dat1 (E4 m) c
  | ⟨2, _⟩ => fun c => dat2 (E6 m) c
  | ⟨3, _⟩ => fun c => dat3 (E8 m) c
  | ⟨4, _⟩ => fun c => dat4 (E10 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents, the generator register at some state. -/
abbrev Tₙ (c : Dev nD) : sProp 𝕄 := iprop(StableHlo.held (c : Thread nD τ) (Pipeline.ucRefs τ sig) (W12 m c) ∗ ∃ r, prngReg c r)

-- a library lemma stated over the pinned configuration unifies only when unification may unfold plain definitions in a metavariable's type
set_option backward.isDefEq.respectTransparency.types false in
/-- pallas_call 0 as a segment: entered from every unscoped buffer at `W2`, left at `W3`. Its windows' arrays are
    split out of the unscoped buffers at entry and put back at the exit contents; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E2 m) c).loose
  hwaits := Pipeline.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (E2 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (by rw [show (pdats m 0 c).Φ 0 = Pipeline.ΦA spec0 c from rfl])
    unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from by rw [show (pdats m 0 c).Φ (Fin.last _) = Pipeline.ΦA spec0 c from rfl]).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E2 m c) (X3 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies only when unification may unfold plain definitions in a metavariable's type
set_option backward.isDefEq.respectTransparency.types false in
/-- pallas_call 1 as a segment: entered from every unscoped buffer at `W4`, left at `W5`. Its windows' arrays are
    split out of the unscoped buffers at entry and put back at the exit contents; the generator register goes into the
    region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (E4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (by rw [show (pdats m 1 c).Φ 0 = Pipeline.ΦA spec1 c from rfl])
    unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from by rw [show (pdats m 1 c).Φ (Fin.last _) = Pipeline.ΦA spec1 c from rfl]).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E4 m c) (X5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies only when unification may unfold plain definitions in a metavariable's type
set_option backward.isDefEq.respectTransparency.types false in
/-- pallas_call 2 as a segment: entered from every unscoped buffer at `W6`, left at `W7`. Its windows' arrays are
    split out of the unscoped buffers at entry and put back at the exit contents; the generator register goes into the
    region's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E6 m) c).loose
  hwaits := Pipeline.hwaits_of_owed_zero _ _ _ _ L lv 2 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec2 c (E6 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec2 c from ?_).trans (by rw [show (pdats m 2 c).Φ 0 = Pipeline.ΦA spec2 c from rfl])
    unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA spec2 c from by rw [show (pdats m 2 c).Φ (Fin.last _) = Pipeline.ΦA spec2 c from rfl]).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E6 m c) (X7 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies only when unification may unfold plain definitions in a metavariable's type
set_option backward.isDefEq.respectTransparency.types false in
/-- pallas_call 3 as a segment: entered from every unscoped buffer at `W8`, left at `W9`. Its windows' arrays are
    split out of the unscoped buffers at entry and put back at the exit contents; the generator register goes into the
    region's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E8 m) c).loose
  hwaits := Pipeline.hwaits_of_owed_zero _ _ _ _ L lv 3 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec3 c (E8 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec3 c from ?_).trans (by rw [show (pdats m 3 c).Φ 0 = Pipeline.ΦA spec3 c from rfl])
    unfold Pipeline.ΦA
    iintro ⟨Hp, -, Hr⟩
    isplitl [Hr]; · iexact Hr
    iexact Hp
  hout c := by
    rw [Pipeline.ownSems0_none]
    refine (show (pdats m 3 c).Φ (Fin.last _) ⊢ Pipeline.ΦA spec3 c from by rw [show (pdats m 3 c).Φ (Fin.last _) = Pipeline.ΦA spec3 c from rfl]).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E8 m c) (X9 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies only when unification may unfold plain definitions in a metavariable's type
set_option backward.isDefEq.respectTransparency.types false in
/-- pallas_call 4 as a segment: entered from every unscoped buffer at `W10`, left at `W11`. Its windows' arrays are
    split out of the unscoped buffers at entry and put back at the exit contents; the generator register goes into the
    region's invariant and comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E10 m) c).loose
  hwaits := Pipeline.hwaits_of_owed_zero _ _ _ _ L lv 4 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec4 c (E10 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (E10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec4 c from ?_).trans (hin4 (E10 m) c)
    unfold Pipeline.ΦA
    iintro ⟨Hp, -, Hr⟩
    isplitl [Hr]; · iexact Hr
    iexact Hp
  hout c := by
    rw [Pipeline.ownSems0_none]
    refine (show (pdats m 4 c).Φ (Fin.last _) ⊢ Pipeline.ΦA spec4 c from hout4 (E10 m) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (E10 m c) (X11 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's twelve segments in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .region (reg0 m),
    .host (hseg hostOps1 hostOps1_sub hostOps1_fresh (W3 m)),
    .region (reg1 m),
    .host (hseg hostOps2 hostOps2_sub hostOps2_fresh (W5 m)),
    .region (reg2 m),
    .host (hseg hostOps3 hostOps3_sub hostOps3_fresh (W7 m)),
    .region (reg3 m),
    .host (hseg hostOps4 hostOps4_sub hostOps4_fresh (W9 m)),
    .region (reg4 m),
    .host (hseg hostOps5 hostOps5_sub hostOps5_fresh (W11 m)) ]

-- the launch theorem's implicit arguments are found by unifying its conclusion with this one
set_option backward.isDefEq.respectTransparency.types false in
/-- THE RUN: from any memory `m` with zero counters, every weakly fair execution of @main on the TensorCores terminates,
    nothing faulting, and every final memory holds every unscoped buffer of every core at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
        show iprop(StableHlo.held (c : Thread nD τ) (Pipeline.ucRefs τ sig) (W12 m c) ∗ R c)
          ⊢ iprop(Tₙ m c ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h => h)

/-- THE FRAME at any `F`: the run, read at the eleven argument arrays, each of which reaches the end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c _ (mem_uc main_arg0 (by decide))).trans (W12_main_arg0 m c),
     (h c _ (mem_uc main_arg1 (by decide))).trans (W12_main_arg1 m c),
     (h c _ (mem_uc main_arg2 (by decide))).trans (W12_main_arg2 m c),
     (h c _ (mem_uc main_arg3 (by decide))).trans (W12_main_arg3 m c),
     (h c _ (mem_uc main_arg4 (by decide))).trans (W12_main_arg4 m c),
     (h c _ (mem_uc main_arg5 (by decide))).trans (W12_main_arg5 m c),
     (h c _ (mem_uc main_arg6 (by decide))).trans (W12_main_arg6 m c),
     (h c _ (mem_uc main_arg7 (by decide))).trans (W12_main_arg7 m c),
     (h c _ (mem_uc main_arg8 (by decide))).trans (W12_main_arg8 m c),
     (h c _ (mem_uc main_arg9 (by decide))).trans (W12_main_arg9 m c),
     (h c _ (mem_uc main_arg10 (by decide))).trans (W12_main_arg10 m c)⟩) (run_all m ρ)

/-- The run read at the result buffer and at the arguments: the result ends at the fold's last contents there. -/
theorem run_result : θ_run defs (onTc (τ := τ) (main (F := F))) ⟨m, fun _ => 0, ρ⟩ (fun r => ∀ c : Dev nD,
      r.2.mem ((c.tc : Thread nD τ).loc main_v120) = W12 m c main_v120
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨h c _ (mem_uc main_v120 (by decide)),
     (h c _ (mem_uc main_arg0 (by decide))).trans (W12_main_arg0 m c),
     (h c _ (mem_uc main_arg1 (by decide))).trans (W12_main_arg1 m c),
     (h c _ (mem_uc main_arg2 (by decide))).trans (W12_main_arg2 m c),
     (h c _ (mem_uc main_arg3 (by decide))).trans (W12_main_arg3 m c),
     (h c _ (mem_uc main_arg4 (by decide))).trans (W12_main_arg4 m c),
     (h c _ (mem_uc main_arg5 (by decide))).trans (W12_main_arg5 m c),
     (h c _ (mem_uc main_arg6 (by decide))).trans (W12_main_arg6 m c),
     (h c _ (mem_uc main_arg7 (by decide))).trans (W12_main_arg7 m c),
     (h c _ (mem_uc main_arg8 (by decide))).trans (W12_main_arg8 m c),
     (h c _ (mem_uc main_arg9 (by decide))).trans (W12_main_arg9 m c),
     (h c _ (mem_uc main_arg10 (by decide))).trans (W12_main_arg10 m c)⟩) (run_all m ρ)

end Cert.KernelIdeal.Fr

end
-- ==== Proof.Kernel.Reg0.lean ====
/-
  The first pallas_call (rows of x times W1, ten row blocks of 10000): its half of the frame, at a parameter
  `V` — the buffers' contents when the region is entered. A block of x (window 0) and the whole of W1
  (window 1) are found in their staging buffers at every grid point; the body stores one value into the
  output block (window 2), the product of the two loaded blocks; so the output buffer after the body is a
  function `out0_2` of the two input blocks, and the proof data `dat0` say so point by point.
-/
import proofs.«408481_j1683627180174_2_alg».proof.Proof.Gen.Kernel.Launch
import proofs.«408481_j1683627180174_2_alg».proof.Proof.Gen.Kernel.Skeleton
import proofs.«408481_j1683627180174_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window's staging buffer holds its block at every point, for any proof data over `V` whose body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The W1 window's staging buffer holds the whole of W1 at every point (fetched once; its block index never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S10000x32 := Rect.unit (s := S10000x32) ![0, 0] S10000x32.size inb_S10000x32_S10000x32_0_0
abbrev r0_w : Rect S32x64 := Rect.unit (s := S32x64) ![0, 0] S32x64.size inb_S32x64_S32x64_0_0
abbrev r0_o : Rect S10000x64 := Rect.unit (s := S10000x64) ![0, 0] S10000x64.size inb_S10000x64_S10000x64_0_0

/-- The output block after the body: its one store, of the product of the loaded x block and W1, read back whole. -/
def out0_2 (x0 : Vec F S10000x32 .f32) (x1 : Vec F S32x64 .f32) : Vec F S10000x64 .f32 :=
  View.canon [⟨r0_o, k0_pay1 (View.ld x0 r0_x) (View.ld x1 r0_w)⟩]

/-- The one store covers the output block. -/
theorem cover0_2 (p0 : Vec F S10000x64 .f32) (y : S10000x64.Idx) :
    ∃ pc ∈ ([⟨r0_o, p0⟩] : List (View.Piece (Elt F) S10000x64 .f32)), y ∈ pc.1.set :=
  View.cover_of_tiled [⟨r0_o, p0⟩] S10000x64.size (by rfl) y

set_option maxHeartbeats 1000000 in
/-- The body on whole staging memrefs: the inputs stay, the output buffer ends at `out0_2` of the inputs. -/
theorem sound_kernel0 (c : Dev nD) (E : Set ℕ) (i : grid0.Coords) (arg1 : Memref sig .tc .vmem S10000x32 .f32) (harg1 : arg1.IsWhole) (arg2 : Memref sig .tc .vmem S32x64 .f32) (harg2 : arg2.IsWhole) (arg3 : Memref sig .tc .vmem S10000x64 .f32) (harg3 : arg3.IsWhole)
    (x0 : Vec F S10000x32 .f32) (x1 : Vec F S32x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this pipeline on core `c`: the arrays as the region finds them; after the body at point `t` each
    input's buffer at its block and the output's at `out0_2` of the two; the scoped rest and the generator register untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the rest passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.Kernel.Reg1.lean ====
/-
  The second pallas_call (ten row blocks of 10000): its half of the frame, at a parameter `V` — the buffers'
  contents when the region is entered. A row block of the input (window 0), the bias as a single row (window 1)
  and the whole weight matrix (window 2) are found in their staging buffers at every grid point; the body stores
  one value into the output block (window 3): the input block plus the bias, clamped below at zero, times the
  weights; so the output buffer after the body is a function `out1_3` of the three input blocks, and the proof
  data `dat1` say so point by point.
-/
import proofs.«408481_j1683627180174_2_alg».proof.Proof.Gen.Kernel.Launch
import proofs.«408481_j1683627180174_2_alg».proof.Proof.Gen.Kernel.Skeleton
import proofs.«408481_j1683627180174_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input row block's staging buffer holds its block at every point, for any proof data over `V` whose body leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The bias window's staging buffer holds the whole bias row at every point (fetched once; its block index never moves). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The weights window's staging buffer holds the whole weight matrix at every point (fetched once; its block index never moves). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_s : Rect S10000x64 := Rect.unit (s := S10000x64) ![0, 0] S10000x64.size inb_S10000x64_S10000x64_0_0
abbrev r1_b : Rect S1x64 := Rect.unit (s := S1x64) ![0, 0] S1x64.size inb_S1x64_S1x64_0_0
abbrev r1_w : Rect S64x128 := Rect.unit (s := S64x128) ![0, 0] S64x128.size inb_S64x128_S64x128_0_0
abbrev r1_o : Rect S10000x128 := Rect.unit (s := S10000x128) ![0, 0] S10000x128.size inb_S10000x128_S10000x128_0_0

/-- The output block after the body: its one store, read back whole. The stored value is the row block plus the bias row
    (broadcast down the rows), clamped below at zero, times the weights. -/
def out1_3 (x0 : Vec F S10000x64 .f32) (x1 : Vec F S1x64 .f32) (x2 : Vec F S64x128 .f32) : Vec F S10000x128 .f32 :=
  View.canon [⟨r1_o, k1_pay1 (View.ld x0 r1_s) (View.ld x1 r1_b) (View.ld x2 r1_w)⟩]

/-- The one store covers the output block. -/
theorem cover1_3 (p0 : Vec F S10000x128 .f32) (y : S10000x128.Idx) :
    ∃ pc ∈ ([⟨r1_o, p0⟩] : List (View.Piece (Elt F) S10000x128 .f32)), y ∈ pc.1.set :=
  View.cover_of_tiled [⟨r1_o, p0⟩] S10000x128.size (by rfl) y

set_option maxHeartbeats 1000000 in
/-- The body on whole staging memrefs: the three inputs stay, the output buffer ends at `out1_3` of the inputs. -/
theorem sound_kernel1 (c : Dev nD) (E : Set ℕ) (i : grid1.Coords) (arg1 : Memref sig .tc .vmem S10000x64 .f32) (harg1 : arg1.IsWhole) (arg2 : Memref sig .tc .vmem S1x64 .f32) (harg2 : arg2.IsWhole) (arg3 : Memref sig .tc .vmem S64x128 .f32) (harg3 : arg3.IsWhole) (arg4 : Memref sig .tc .vmem S10000x128 .f32) (harg4 : arg4.IsWhole)
    (x0 : Vec F S10000x64 .f32) (x1 : Vec F S1x64 .f32) (x2 : Vec F S64x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__bias_relu_matmul_kernel i arg1 harg1 arg2 harg2 arg3 harg3 arg4 harg4) K := by
  simp only [cc1__bias_relu_matmul_kernel_eq_skeleton]; unfold cc1__bias_relu_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of this pipeline on core `c`: the arrays as the region finds them; after the body at point `t` each
    input's buffer at its block and the output's at `out1_3` of the three; the scoped rest and the generator register untouched. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the rest passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.Kernel.Reg2.lean ====
/-
  The third pallas_call (ten row blocks of 10000): its half of the frame, at a parameter `V` — the buffers'
  contents when the region is entered. A row block of the input (window 0), the bias as a single row (window 1)
  and the whole weight matrix (window 2) are found in their staging buffers at every grid point; the body stores
  one value into the output block (window 3): the input block plus the bias, clamped below at zero, times the
  weights; so the output buffer after the body is a function `out2_3` of the three input blocks, and the proof
  data `dat2` say so point by point.
-/
import proofs.«408481_j1683627180174_2_alg».proof.Proof.Gen.Kernel.Launch
import proofs.«408481_j1683627180174_2_alg».proof.Proof.Gen.Kernel.Skeleton
import proofs.«408481_j1683627180174_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input row block's staging buffer holds its block at every point, for any proof data over `V` whose body leaves it in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The bias window's staging buffer holds the whole bias row at every point (fetched once; its block index never moves). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The weights window's staging buffer holds the whole weight matrix at every point (fetched once; its block index never moves). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_s : Rect S10000x128 := Rect.unit (s := S10000x128) ![0, 0] S10000x128.size inb_S10000x128_S10000x128_0_0
abbrev r2_b : Rect S1x128 := Rect.unit (s := S1x128) ![0, 0] S1x128.size inb_S1x128_S1x128_0_0
abbrev r2_w : Rect S128x128 := Rect.unit (s := S128x128) ![0, 0] S128x128.size inb_S128x128_S128x128_0_0
abbrev r2_o : Rect S10000x128 := Rect.unit (s := S10000x128) ![0, 0] S10000x128.size inb_S10000x128_S10000x128_0_0

/-- The output block after the body: its one store, read back whole. The stored value is the row block plus the bias row
    (broadcast down the rows), clamped below at zero, times the weights. -/
def out2_3 (x0 : Vec F S10000x128 .f32) (x1 : Vec F S1x128 .f32) (x2 : Vec F S128x128 .f32) : Vec F S10000x128 .f32 :=
  View.canon [⟨r2_o, k2_pay1 (View.ld x0 r2_s) (View.ld x1 r2_b) (View.ld x2 r2_w)⟩]

/-- The one store covers the output block. -/
theorem cover2_3 (p0 : Vec F S10000x128 .f32) (y : S10000x128.Idx) :
    ∃ pc ∈ ([⟨r2_o, p0⟩] : List (View.Piece (Elt F) S10000x128 .f32)), y ∈ pc.1.set :=
  View.cover_of_tiled [⟨r2_o, p0⟩] S10000x128.size (by rfl) y

set_option maxHeartbeats 1000000 in
/-- The body on whole staging memrefs: the three inputs stay, the output buffer ends at `out2_3` of the inputs. -/
theorem sound_kernel2 (c : Dev nD) (E : Set ℕ) (i : grid2.Coords) (arg1 : Memref sig .tc .vmem S10000x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S10000x128 .f32) (harg4 : arg4.IsWhole)
    (x0 : Vec F S10000x128 .f32) (x1 : Vec F S1x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__bias_relu_matmul_kernel i arg1 harg1 arg2 harg2 arg3 harg3 arg4 harg4) K := by
  simp only [cc2__bias_relu_matmul_kernel_eq_skeleton]; unfold cc2__bias_relu_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of this pipeline on core `c`: the arrays as the region finds them; after the body at point `t` each
    input's buffer at its block and the output's at `out2_3` of the three; the scoped rest and the generator register untouched. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the rest passes through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.Kernel.Reg3.lean ====
/-
  The fourth pallas_call (a bias row added to every row of s3, ten row blocks of 10000): its half of the frame,
  at a parameter `V` — the buffers' contents when the region is entered. A block of s3 (window 0) and the whole
  bias row (window 1) are found in their staging buffers at every grid point; the body stores one value into the
  output block (window 2), the loaded block plus the bias row broadcast down its rows; so the output buffer after
  the body is a function `out3_2` of the two input blocks, and the proof data `dat3` say so point by point.
-/
import proofs.«408481_j1683627180174_2_alg».proof.Proof.Gen.Kernel.Launch
import proofs.«408481_j1683627180174_2_alg».proof.Proof.Gen.Kernel.Skeleton
import proofs.«408481_j1683627180174_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The s3 window's staging buffer holds its block at every point, for any proof data over `V` whose body leaves it in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The bias window's staging buffer holds the whole bias row at every point (fetched once; its block index never moves). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_s : Rect S10000x128 := Rect.unit (s := S10000x128) ![0, 0] S10000x128.size inb_S10000x128_S10000x128_0_0
abbrev r3_b : Rect S1x128 := Rect.unit (s := S1x128) ![0, 0] S1x128.size inb_S1x128_S1x128_0_0
abbrev r3_o : Rect S10000x128 := Rect.unit (s := S10000x128) ![0, 0] S10000x128.size inb_S10000x128_S10000x128_0_0

/-- The output block after the body: its one store, of the loaded s3 block plus the bias row, read back whole. -/
def out3_2 (x0 : Vec F S10000x128 .f32) (x1 : Vec F S1x128 .f32) : Vec F S10000x128 .f32 :=
  View.canon [⟨r3_o, k3_pay1 (View.ld x0 r3_s) (View.ld x1 r3_b)⟩]

/-- The one store covers the output block. -/
theorem cover3_2 (p0 : Vec F S10000x128 .f32) (y : S10000x128.Idx) :
    ∃ pc ∈ ([⟨r3_o, p0⟩] : List (View.Piece (Elt F) S10000x128 .f32)), y ∈ pc.1.set :=
  View.cover_of_tiled [⟨r3_o, p0⟩] S10000x128.size (by rfl) y

set_option maxHeartbeats 1000000 in
/-- The body on whole staging memrefs: the inputs stay, the output buffer ends at `out3_2` of the inputs. -/
theorem sound_kernel3 (c : Dev nD) (E : Set ℕ) (i : grid3.Coords) (arg1 : Memref sig .tc .vmem S10000x128 .f32) (harg1 : arg1.IsWhole) (arg2 : Memref sig .tc .vmem S1x128 .f32) (harg2 : arg2.IsWhole) (arg3 : Memref sig .tc .vmem S10000x128 .f32) (harg3 : arg3.IsWhole)
    (x0 : Vec F S10000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__bias_add_kernel i arg1 harg1 arg2 harg2 arg3 harg3) K := by
  simp only [cc3__bias_add_kernel_eq_skeleton]; unfold cc3__bias_add_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of this pipeline on core `c`: the arrays as the region finds them; after the body at point `t` each
    input's buffer at its block and the output's at `out3_2` of the two; the scoped rest and the generator register untouched. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so `sound_kernel3` applies; the rest passes through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.Kernel.Reg4Defs.lean ====
/-
  The last pallas_call (the pooling sum: for each of ten row blocks of 10000, a 0/1 matrix built from the block's graph ids,
  transposed, times the block's rows of node features, added into a 128 × 128 accumulator kept in a scratch buffer across
  the grid points and copied to the output block at every point): the DEFINITIONS its frame and its value are stated over,
  at a parameter `V` — the buffers' contents when the region is entered.
-/
import proofs.«408481_j1683627180174_2_alg».proof.Proof.Gen.Kernel.Launch
import proofs.«408481_j1683627180174_2_alg».proof.Proof.Gen.Kernel.Skeleton
import proofs.«408481_j1683627180174_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it
    (window 0: a block of node features; window 1: the block's graph ids; window 2: the output). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- THE ACCUMULATION. What the scratch accumulator (and the output block) holds after the body at grid position `n`:
    at the first point the body first clears the accumulator, so the sum starts from the cleared value `k4_pay1`;
    at a later point from what the point before left. -/
def acc4 (c : Dev nD) : (n : ℕ) → n < cfg4.N → Vec F S128x128 .f32
  | 0, h => k4_pay2 (grid4.coords ⟨0, h⟩) (iblk4 V c 1 ⟨0, h⟩) (iblk4 V c 0 ⟨0, h⟩) (k4_pay1 (F := F))
  | n + 1, h => k4_pay2 (grid4.coords ⟨n + 1, h⟩) (iblk4 V c 1 ⟨n + 1, h⟩) (iblk4 V c 0 ⟨n + 1, h⟩) (acc4 c n (Nat.lt_of_succ_lt h))

theorem acc4_zero (c : Dev nD) (h : 0 < cfg4.N) :
    acc4 V c 0 h = k4_pay2 (grid4.coords ⟨0, h⟩) (iblk4 V c 1 ⟨0, h⟩) (iblk4 V c 0 ⟨0, h⟩) (k4_pay1 (F := F)) := rfl
theorem acc4_succ (c : Dev nD) (n : ℕ) (h : n + 1 < cfg4.N) :
    acc4 V c (n + 1) h = k4_pay2 (grid4.coords ⟨n + 1, h⟩) (iblk4 V c 1 ⟨n + 1, h⟩) (iblk4 V c 0 ⟨n + 1, h⟩) (acc4 V c n (Nat.lt_of_succ_lt h)) := rfl

/-- The scratch accumulator as a whole memref. -/
abbrev scM4 : Memref sig .tc .vmem S128x128 .f32 := Memref.whole cc4_scratch0

/-- The region's invariant before grid position `n`: before the first point whatever the launch hands the kernel
    (the scoped rest — every scoped buffer no window of this region stages, the accumulator among them, at anything — and
    the generator register); afterwards the accumulator at what the point before left in it, the other scoped buffers of
    that rest still unopened, and the generator register at some state. -/
def PhiS4 (c : Dev nD) : (n : ℕ) → n ≤ cfg4.N → sProp 𝕄
  | 0, _ => Pipeline.ΦA spec4 c
  | n + 1, hn => iprop(iprop(owns (c : Thread nD τ) scM4 fullShare (acc4 V c n hn) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(owns (c : Thread nD τ) scM4 fullShare (acc4 V c n hn) ∗ Pipeline.scopedRestBut (Ix := Unit) (Name := ℕ) (U := UR sig nD τ) (Lvl := ℕ) (Val := Elt F) spec4 c [cc4_scratch0]) ∗ (∃ r, prngReg c r)) := rfl
theorem PhiS4_pos (c : Dev nD) (n : ℕ) (h : n ≤ cfg4.N) (hz : n ≠ 0) :
    PhiS4 V c n h = iprop(iprop(owns (c : Thread nD τ) scM4 fullShare (acc4 V c (n - 1) (by omega)) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-- The proof data of this pipeline on core `c`: the arrays as the region finds them; after the body at point `t` each
    input's buffer at its block and the output's at the accumulated sum `acc4`; the invariant `PhiS4`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => acc4 V c t.val t.isLt
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = acc4 V c t.val t.isLt := by dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]

end Cert.Kernel.Fr

end
-- ==== Proof.Kernel.Fold.lean ====
/-
  The contents of the TensorCore's unscoped buffers at every boundary between two items of @main, as a fold from the
  launch memory `m`: a stretch of host operations applies those operations (`StableHlo.after`); a pallas_call leaves its
  windows' arrays at what its write-backs leave (`Dat.arrAt … N` of that region's proof data, taken at the contents the
  region was entered from) and every other buffer as it was. `W0` is the launch; `W12` is what @main returns from.
  Then: what each item leaves untouched, so that an argument array reads back through the whole fold to its launch
  contents.
-/
import proofs.«408481_j1683627180174_2_alg».proof.Proof.Kernel.Reg0
import proofs.«408481_j1683627180174_2_alg».proof.Proof.Kernel.Reg1
import proofs.«408481_j1683627180174_2_alg».proof.Proof.Kernel.Reg2
import proofs.«408481_j1683627180174_2_alg».proof.Proof.Kernel.Reg3
import proofs.«408481_j1683627180174_2_alg».proof.Proof.Kernel.Reg4Defs
import proofs.«408481_j1683627180174_2_alg».proof.Proof.Gen.Kernel.Regions
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Fr

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-- Core `c`'s unscoped buffers at launch. -/
abbrev W0 (c : Dev nD) : Valuation τ sig (Elt F) := fun b => m (c, b)
/-- After the host stretch `hostOps0`. -/
abbrev W1 (c : Dev nD) : Valuation τ sig (Elt F) := StableHlo.after hostOps0 (W0 m c)
/-- The stretch `hostOps0` leaves every buffer it does not write as it was. -/
theorem W1_of (c : Dev nD) (r : Ref sig .tc) (h : r ∉ hostOps0_W) : W1 m c r = W0 m c r :=
  StableHlo.after_of_writes_sub hostOps0 _ hostOps0_writes h
/-- After the host stretch `hostOps0_1`. -/
abbrev W2 (c : Dev nD) : Valuation τ sig (Elt F) := StableHlo.after hostOps0_1 (W1 m c)
/-- The stretch `hostOps0_1` leaves every buffer it does not write as it was. -/
theorem W2_of (c : Dev nD) (r : Ref sig .tc) (h : r ∉ hostOps0_1_W) : W2 m c r = W1 m c r :=
  StableHlo.after_of_writes_sub hostOps0_1 _ hostOps0_1_writes h
/-- The same contents read at the TensorCore's references: what pallas_call 0 is entered from. -/
abbrev E2 : (c : Dev nD) → (b : Ref sig .tc) → Buf (Elt F) ((c : Thread nD τ).loc b) := fun c b => W2 m c b
/-- After pallas_call 0: its windows' arrays at what the pipeline leaves, every other buffer as entered. -/
def W3 (c : Dev nD) : Valuation τ sig (Elt F) :=
  Pipeline.withArrays spec0 c (W2 m c) fun w => (dat0 (E2 m) c).arrAt w cfg0.N
theorem W3_arr (c : Dev nD) (w : Fin cfg0.W) :
    W3 m c (Proc.devRef .tc (Pipeline.arrRef spec0 w)) = (dat0 (E2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
/-- The same read at the TensorCore's references (pallas_call 0's exit contents). -/
abbrev X3 : (c : Dev nD) → (b : Ref sig .tc) → Buf (Elt F) ((c : Thread nD τ).loc b) := fun c b => W3 m c b
theorem hF0 (c : Dev nD) (w : Fin cfg0.W) : (dat0 (E2 m) c).arrAt w cfg0.N = X3 m c (Pipeline.arrRef spec0 w) :=
  (W3_arr m c w).symm
theorem hrest0 (c : Dev nD) : ∀ b, b ∉ Finset.univ.image (Pipeline.arrRef spec0) → X3 m c b = E2 m c b :=
  fun b hb => W3_of_ne m c b fun w e => hb (Finset.mem_image.mpr ⟨w, Finset.mem_univ _, e⟩)
/-- pallas_call 0 changes only its output array `main_v15`: an input window's array ends as entered, and a buffer that
    is no window's array is not touched. -/
theorem W3_keep (c : Dev nD) (b : Ref sig .tc) (hb : b ≠ main_v15) : W3 m c (Proc.devRef .tc b) = W2 m c (Proc.devRef .tc b) := by
  by_cases hw : ∃ w, Pipeline.arrRef spec0 w = b
  · obtain ⟨w, rfl⟩ := hw
    rw [W3_arr]
    match w, hb with
    | ⟨0, _⟩, _ => exact ((dat0 (E2 m) c).arrAt_in 0 rfl _).trans (A_eq0 (E2 m) c 0)
    | ⟨1, _⟩, _ => exact ((dat0 (E2 m) c).arrAt_in 1 rfl _).trans (A_eq0 (E2 m) c 1)
    | ⟨2, _⟩, hb => exact absurd rfl hb
  · exact W3_of_ne m c b fun w e => hw ⟨w, e⟩
/-- After the host stretch `hostOps1`. -/
abbrev W4 (c : Dev nD) : Valuation τ sig (Elt F) := StableHlo.after hostOps1 (W3 m c)
/-- The stretch `hostOps1` leaves every buffer it does not write as it was. -/
theorem W4_of (c : Dev nD) (r : Ref sig .tc) (h : r ∉ hostOps1_W) : W4 m c r = W3 m c r :=
  StableHlo.after_of_writes_sub hostOps1 _ hostOps1_writes h
/-- The same contents read at the TensorCore's references: what pallas_call 1 is entered from. -/
abbrev E4 : (c : Dev nD) → (b : Ref sig .tc) → Buf (Elt F) ((c : Thread nD τ).loc b) := fun c b => W4 m c b
/-- After pallas_call 1: its windows' arrays at what the pipeline leaves, every other buffer as entered. -/
def W5 (c : Dev nD) : Valuation τ sig (Elt F) :=
  Pipeline.withArrays spec1 c (W4 m c) fun w => (dat1 (E4 m) c).arrAt w cfg1.N
theorem W5_arr (c : Dev nD) (w : Fin cfg1.W) :
    W5 m c (Proc.devRef .tc (Pipeline.arrRef spec1 w)) = (dat1 (E4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
/-- The same read at the TensorCore's references (pallas_call 1's exit contents). -/
abbrev X5 : (c : Dev nD) → (b : Ref sig .tc) → Buf (Elt F) ((c : Thread nD τ).loc b) := fun c b => W5 m c b
theorem hF1 (c : Dev nD) (w : Fin cfg1.W) : (dat1 (E4 m) c).arrAt w cfg1.N = X5 m c (Pipeline.arrRef spec1 w) :=
  (W5_arr m c w).symm
theorem hrest1 (c : Dev nD) : ∀ b, b ∉ Finset.univ.image (Pipeline.arrRef spec1) → X5 m c b = E4 m c b :=
  fun b hb => W5_of_ne m c b fun w e => hb (Finset.mem_image.mpr ⟨w, Finset.mem_univ _, e⟩)
/-- pallas_call 1 changes only its output array `main_v45`: an input window's array ends as entered, and a buffer that
    is no window's array is not touched. -/
theorem W5_keep (c : Dev nD) (b : Ref sig .tc) (hb : b ≠ main_v45) : W5 m c (Proc.devRef .tc b) = W4 m c (Proc.devRef .tc b) := by
  by_cases hw : ∃ w, Pipeline.arrRef spec1 w = b
  · obtain ⟨w, rfl⟩ := hw
    rw [W5_arr]
    match w, hb with
    | ⟨0, _⟩, _ => exact ((dat1 (E4 m) c).arrAt_in 0 rfl _).trans (A_eq1 (E4 m) c 0)
    | ⟨1, _⟩, _ => exact ((dat1 (E4 m) c).arrAt_in 1 rfl _).trans (A_eq1 (E4 m) c 1)
    | ⟨2, _⟩, _ => exact ((dat1 (E4 m) c).arrAt_in 2 rfl _).trans (A_eq1 (E4 m) c 2)
    | ⟨3, _⟩, hb => exact absurd rfl hb
  · exact W5_of_ne m c b fun w e => hw ⟨w, e⟩
/-- After the host stretch `hostOps2`. -/
abbrev W6 (c : Dev nD) : Valuation τ sig (Elt F) := StableHlo.after hostOps2 (W5 m c)
/-- The stretch `hostOps2` leaves every buffer it does not write as it was. -/
theorem W6_of (c : Dev nD) (r : Ref sig .tc) (h : r ∉ hostOps2_W) : W6 m c r = W5 m c r :=
  StableHlo.after_of_writes_sub hostOps2 _ hostOps2_writes h
/-- The same contents read at the TensorCore's references: what pallas_call 2 is entered from. -/
abbrev E6 : (c : Dev nD) → (b : Ref sig .tc) → Buf (Elt F) ((c : Thread nD τ).loc b) := fun c b => W6 m c b
/-- After pallas_call 2: its windows' arrays at what the pipeline leaves, every other buffer as entered. -/
def W7 (c : Dev nD) : Valuation τ sig (Elt F) :=
  Pipeline.withArrays spec2 c (W6 m c) fun w => (dat2 (E6 m) c).arrAt w cfg2.N
theorem W7_arr (c : Dev nD) (w : Fin cfg2.W) :
    W7 m c (Proc.devRef .tc (Pipeline.arrRef spec2 w)) = (dat2 (E6 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
/-- The same read at the TensorCore's references (pallas_call 2's exit contents). -/
abbrev X7 : (c : Dev nD) → (b : Ref sig .tc) → Buf (Elt F) ((c : Thread nD τ).loc b) := fun c b => W7 m c b
theorem hF2 (c : Dev nD) (w : Fin cfg2.W) : (dat2 (E6 m) c).arrAt w cfg2.N = X7 m c (Pipeline.arrRef spec2 w) :=
  (W7_arr m c w).symm
theorem hrest2 (c : Dev nD) : ∀ b, b ∉ Finset.univ.image (Pipeline.arrRef spec2) → X7 m c b = E6 m c b :=
  fun b hb => W7_of_ne m c b fun w e => hb (Finset.mem_image.mpr ⟨w, Finset.mem_univ _, e⟩)
/-- pallas_call 2 changes only its output array `main_v75`: an input window's array ends as entered, and a buffer that
    is no window's array is not touched. -/
theorem W7_keep (c : Dev nD) (b : Ref sig .tc) (hb : b ≠ main_v75) : W7 m c (Proc.devRef .tc b) = W6 m c (Proc.devRef .tc b) := by
  by_cases hw : ∃ w, Pipeline.arrRef spec2 w = b
  · obtain ⟨w, rfl⟩ := hw
    rw [W7_arr]
    match w, hb with
    | ⟨0, _⟩, _ => exact ((dat2 (E6 m) c).arrAt_in 0 rfl _).trans (A_eq2 (E6 m) c 0)
    | ⟨1, _⟩, _ => exact ((dat2 (E6 m) c).arrAt_in 1 rfl _).trans (A_eq2 (E6 m) c 1)
    | ⟨2, _⟩, _ => exact ((dat2 (E6 m) c).arrAt_in 2 rfl _).trans (A_eq2 (E6 m) c 2)
    | ⟨3, _⟩, hb => exact absurd rfl hb
  · exact W7_of_ne m c b fun w e => hw ⟨w, e⟩
/-- After the host stretch `hostOps3`. -/
abbrev W8 (c : Dev nD) : Valuation τ sig (Elt F) := StableHlo.after hostOps3 (W7 m c)
/-- The stretch `hostOps3` leaves every buffer it does not write as it was. -/
theorem W8_of (c : Dev nD) (r : Ref sig .tc) (h : r ∉ hostOps3_W) : W8 m c r = W7 m c r :=
  StableHlo.after_of_writes_sub hostOps3 _ hostOps3_writes h
/-- The same contents read at the TensorCore's references: what pallas_call 3 is entered from. -/
abbrev E8 : (c : Dev nD) → (b : Ref sig .tc) → Buf (Elt F) ((c : Thread nD τ).loc b) := fun c b => W8 m c b
/-- After pallas_call 3: its windows' arrays at what the pipeline leaves, every other buffer as entered. -/
def W9 (c : Dev nD) : Valuation τ sig (Elt F) :=
  Pipeline.withArrays spec3 c (W8 m c) fun w => (dat3 (E8 m) c).arrAt w cfg3.N
theorem W9_arr (c : Dev nD) (w : Fin cfg3.W) :
    W9 m c (Proc.devRef .tc (Pipeline.arrRef spec3 w)) = (dat3 (E8 m) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m c (Proc.devRef .tc b) = W8 m c (Proc.devRef .tc b) := by
  unfold W9; exact Pipeline.withArrays_of_ne spec3 c _ _ b hb
/-- The same read at the TensorCore's references (pallas_call 3's exit contents). -/
abbrev X9 : (c : Dev nD) → (b : Ref sig .tc) → Buf (Elt F) ((c : Thread nD τ).loc b) := fun c b => W9 m c b
theorem hF3 (c : Dev nD) (w : Fin cfg3.W) : (dat3 (E8 m) c).arrAt w cfg3.N = X9 m c (Pipeline.arrRef spec3 w) :=
  (W9_arr m c w).symm
theorem hrest3 (c : Dev nD) : ∀ b, b ∉ Finset.univ.image (Pipeline.arrRef spec3) → X9 m c b = E8 m c b :=
  fun b hb => W9_of_ne m c b fun w e => hb (Finset.mem_image.mpr ⟨w, Finset.mem_univ _, e⟩)
/-- pallas_call 3 changes only its output array `main_v105`: an input window's array ends as entered, and a buffer that
    is no window's array is not touched. -/
theorem W9_keep (c : Dev nD) (b : Ref sig .tc) (hb : b ≠ main_v105) : W9 m c (Proc.devRef .tc b) = W8 m c (Proc.devRef .tc b) := by
  by_cases hw : ∃ w, Pipeline.arrRef spec3 w = b
  · obtain ⟨w, rfl⟩ := hw
    rw [W9_arr]
    match w, hb with
    | ⟨0, _⟩, _ => exact ((dat3 (E8 m) c).arrAt_in 0 rfl _).trans (A_eq3 (E8 m) c 0)
    | ⟨1, _⟩, _ => exact ((dat3 (E8 m) c).arrAt_in 1 rfl _).trans (A_eq3 (E8 m) c 1)
    | ⟨2, _⟩, hb => exact absurd rfl hb
  · exact W9_of_ne m c b fun w e => hw ⟨w, e⟩
/-- After the host stretch `hostOps4`. -/
abbrev W10 (c : Dev nD) : Valuation τ sig (Elt F) := StableHlo.after hostOps4 (W9 m c)
/-- The stretch `hostOps4` leaves every buffer it does not write as it was. -/
theorem W10_of (c : Dev nD) (r : Ref sig .tc) (h : r ∉ hostOps4_W) : W10 m c r = W9 m c r :=
  StableHlo.after_of_writes_sub hostOps4 _ hostOps4_writes h
/-- The same contents read at the TensorCore's references: what pallas_call 4 is entered from. -/
abbrev E10 : (c : Dev nD) → (b : Ref sig .tc) → Buf (Elt F) ((c : Thread nD τ).loc b) := fun c b => W10 m c b
/-- After pallas_call 4: its windows' arrays at what the pipeline leaves, every other buffer as entered. -/
def W11 (c : Dev nD) : Valuation τ sig (Elt F) :=
  Pipeline.withArrays spec4 c (W10 m c) fun w => (dat4 (E10 m) c).arrAt w cfg4.N
theorem W11_arr (c : Dev nD) (w : Fin cfg4.W) :
    W11 m c (Proc.devRef .tc (Pipeline.arrRef spec4 w)) = (dat4 (E10 m) c).arrAt w cfg4.N := by
  unfold W11; exact Pipeline.withArrays_arr spec4 launch4.win.arr_inj c _ _ w
theorem W11_of_ne (c : Dev nD) (b : Ref sig .tc) (hb : ∀ w, Pipeline.arrRef spec4 w ≠ b) :
    W11 m c (Proc.devRef .tc b) = W10 m c (Proc.devRef .tc b) := by
  unfold W11; exact Pipeline.withArrays_of_ne spec4 c _ _ b hb
/-- The same read at the TensorCore's references (pallas_call 4's exit contents). -/
abbrev X11 : (c : Dev nD) → (b : Ref sig .tc) → Buf (Elt F) ((c : Thread nD τ).loc b) := fun c b => W11 m c b
theorem hF4 (c : Dev nD) (w : Fin cfg4.W) : (dat4 (E10 m) c).arrAt w cfg4.N = X11 m c (Pipeline.arrRef spec4 w) :=
  (W11_arr m c w).symm
theorem hrest4 (c : Dev nD) : ∀ b, b ∉ Finset.univ.image (Pipeline.arrRef spec4) → X11 m c b = E10 m c b :=
  fun b hb => W11_of_ne m c b fun w e => hb (Finset.mem_image.mpr ⟨w, Finset.mem_univ _, e⟩)
/-- pallas_call 4 changes only its output array `main_v107`: an input window's array ends as entered, and a buffer that
    is no window's array is not touched. -/
theorem W11_keep (c : Dev nD) (b : Ref sig .tc) (hb : b ≠ main_v107) : W11 m c (Proc.devRef .tc b) = W10 m c (Proc.devRef .tc b) := by
  by_cases hw : ∃ w, Pipeline.arrRef spec4 w = b
  · obtain ⟨w, rfl⟩ := hw
    rw [W11_arr]
    match w, hb with
    | ⟨0, _⟩, _ => exact ((dat4 (E10 m) c).arrAt_in 0 rfl _).trans (A_eq4 (E10 m) c 0)
    | ⟨1, _⟩, _ => exact ((dat4 (E10 m) c).arrAt_in 1 rfl _).trans (A_eq4 (E10 m) c 1)
    | ⟨2, _⟩, hb => exact absurd rfl hb
  · exact W11_of_ne m c b fun w e => hw ⟨w, e⟩
/-- After the host stretch `hostOps5`. -/
abbrev W12 (c : Dev nD) : Valuation τ sig (Elt F) := StableHlo.after hostOps5 (W11 m c)
/-- The stretch `hostOps5` leaves every buffer it does not write as it was. -/
theorem W12_of (c : Dev nD) (r : Ref sig .tc) (h : r ∉ hostOps5_W) : W12 m c r = W11 m c r :=
  StableHlo.after_of_writes_sub hostOps5 _ hostOps5_writes h

/-- A buffer that no host stretch writes and that is no pallas_call's output reaches the end as launched. -/
theorem W12_launch (c : Dev nD) (r : Ref sig .tc)
    (h0 : r ∉ hostOps0_W) (h01 : r ∉ hostOps0_1_W) (h1 : r ∉ hostOps1_W) (h2 : r ∉ hostOps2_W) (h3 : r ∉ hostOps3_W)
    (h4 : r ∉ hostOps4_W) (h5 : r ∉ hostOps5_W)
    (o0 : r ≠ main_v15) (o1 : r ≠ main_v45) (o2 : r ≠ main_v75) (o3 : r ≠ main_v105) (o4 : r ≠ main_v107) :
    W12 m c r = m ((c : Thread nD τ).loc r) :=
  (W12_of m c r h5).trans <| (W11_keep m c r o4).trans <| (W10_of m c r h4).trans <| (W9_keep m c r o3).trans <|
    (W8_of m c r h3).trans <| (W7_keep m c r o2).trans <| (W6_of m c r h2).trans <| (W5_keep m c r o1).trans <|
    (W4_of m c r h1).trans <| (W3_keep m c r o0).trans <| (W2_of m c r h01).trans <| (W1_of m c r h0).trans rfl

theorem W12_main_arg0 (c : Dev nD) : W12 m c main_arg0 = m ((c : Thread nD τ).loc main_arg0) :=
  W12_launch m c main_arg0 (by decide) (by decide) (by decide) (by decide) (by decide) (by decide) (by decide) (by decide) (by decide) (by decide) (by decide) (by decide)
theorem W12_main_arg1 (c : Dev nD) : W12 m c main_arg1 = m ((c : Thread nD τ).loc main_arg1) :=
  W12_launch m c main_arg1 (by decide) (by decide) (by decide) (by decide) (by decide) (by decide) (by decide) (by decide) (by decide) (by decide) (by decide) (by decide)
theorem W12_main_arg2 (c : Dev nD) : W12 m c main_arg2 = m ((c : Thread nD τ).loc main_arg2) :=
  W12_launch m c main_arg2 (by decide) (by decide) (by decide) (by decide) (by decide) (by decide) (by decide) (by decide) (by decide) (by decide) (by decide) (by decide)
theorem W12_main_arg3 (c : Dev nD) : W12 m c main_arg3 = m ((c : Thread nD τ).loc main_arg3) :=
  W12_launch m c main_arg3 (by decide) (by decide) (by decide) (by decide) (by decide) (by decide) (by decide) (by decide) (by decide) (by decide) (by decide) (by decide)
theorem W12_main_arg4 (c : Dev nD) : W12 m c main_arg4 = m ((c : Thread nD τ).loc main_arg4) :=
  W12_launch m c main_arg4 (by decide) (by decide) (by decide) (by decide) (by decide) (by decide) (by decide) (by decide) (by decide) (by decide) (by decide) (by decide)
theorem W12_main_arg5 (c : Dev nD) : W12 m c main_arg5 = m ((c : Thread nD τ).loc main_arg5) :=
  W12_launch m c main_arg5 (by decide) (by decide) (by decide) (by decide) (by decide) (by decide) (by decide) (by decide) (by decide) (by decide) (by decide) (by decide)
theorem W12_main_arg6 (c : Dev nD) : W12 m c main_arg6 = m ((c : Thread nD τ).loc main_arg6) :=
  W12_launch m c main_arg6 (by decide) (by decide) (by decide) (by decide) (by decide) (by decide) (by decide) (by decide) (by decide) (by decide) (by decide) (by decide)
theorem W12_main_arg7 (c : Dev nD) : W12 m c main_arg7 = m ((c : Thread nD τ).loc main_arg7) :=
  W12_launch m c main_arg7 (by decide) (by decide) (by decide) (by decide) (by decide) (by decide) (by decide) (by decide) (by decide) (by decide) (by decide) (by decide)
theorem W12_main_arg8 (c : Dev nD) : W12 m c main_arg8 = m ((c : Thread nD τ).loc main_arg8) :=
  W12_launch m c main_arg8 (by decide) (by decide) (by decide) (by decide) (by decide) (by decide) (by decide) (by decide) (by decide) (by decide) (by decide) (by decide)
theorem W12_main_arg9 (c : Dev nD) : W12 m c main_arg9 = m ((c : Thread nD τ).loc main_arg9) :=
  W12_launch m c main_arg9 (by decide) (by decide) (by decide) (by decide) (by decide) (by decide) (by decide) (by decide) (by decide) (by decide) (by decide) (by decide)
theorem W12_main_arg10 (c : Dev nD) : W12 m c main_arg10 = m ((c : Thread nD τ).loc main_arg10) :=
  W12_launch m c main_arg10 (by decide) (by decide) (by decide) (by decide) (by decide) (by decide) (by decide) (by decide) (by decide) (by decide) (by decide) (by decide)

end Cert.Kernel.Fr

end
-- ==== Proof.Kernel.Reg4.lean ====
/-
  The last pallas_call (the pooling sum: for each of ten row blocks of 10000, a 0/1 matrix built from the block's graph ids,
  transposed, times the block's rows of node features, added into a 128 × 128 accumulator kept in a scratch buffer across
  the grid points and copied to the output block at every point): its half of the frame, at a parameter `V` — the buffers'
  contents when the region is entered. A block of node features (window 0) and the block's graph ids (window 1) are found in
  their staging buffers at every grid point. The body branches on the grid coordinate: at coordinate 0 it first stores the
  cleared value into the accumulator; then, at every point, it loads the two input blocks and the accumulator, stores the
  block's sum added to what it loaded back into the accumulator, loads that and stores it into the output buffer (window 2).
  So after the body at a point both the accumulator and the output buffer hold `acc4` of the point: the block's sum over the
  cleared value at the first point, over what the point before left at a later one. The region's invariant carries the
  accumulator at that named value from one point to the next, beside the scoped buffers of the other regions, which the body
  never opens.
-/
import proofs.«408481_j1683627180174_2_alg».proof.Proof.Gen.Kernel.Launch
import proofs.«408481_j1683627180174_2_alg».proof.Proof.Gen.Kernel.Skeleton
import proofs.«408481_j1683627180174_2_alg».proof.Proof.Gen.Kernel.Points
import proofs.«408481_j1683627180174_2_alg».proof.Proof.Kernel.Reg4Defs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The branch condition of the body, in closed form: the body's comparison chain on the grid coordinate holds exactly at coordinate 0. -/
theorem cond4_iff : ∀ n : Fin 10,
    (Scalar.cmpi .ne (Scalar.extui (Scalar.cmpi .eq (BitVec.ofNat 32 n.val) 0#32)) 0#32 = 1#1) ↔ n.val = 0 := by
  decide

/-- The offsets of the body's loads and stores are all zero: each goes through the whole of its buffer. -/
theorem hz4_acc : (![0, 0] : Fin S128x128.rank → Nat) = fun _ => 0 := by
  funext a; fin_cases a <;> rfl
theorem hz4_ids : (![0, 0] : Fin S10000x1.rank → Nat) = fun _ => 0 := by
  funext a; fin_cases a <;> rfl
theorem hz4_feat : (![0, 0] : Fin S10000x128.rank → Nat) = fun _ => 0 := by
  funext a; fin_cases a <;> rfl

/-- The whole of a 128 × 128 buffer as a rectangle: what every load and store of the accumulator and of the output goes through. -/
abbrev r4_acc : Rect S128x128 := Rect.unit (s := S128x128) ![0, 0] S128x128.size inb_S128x128_S128x128_0_0

/-- A list of stores whose last goes through the whole buffer covers it. -/
theorem cover4 (p0 : Vec F S128x128 .f32) (L : List (View.Piece (Elt F) S128x128 .f32)) (y : S128x128.Idx) :
    ∃ pc ∈ ((⟨r4_acc, p0⟩ : View.Piece (Elt F) S128x128 .f32) :: L), y ∈ pc.1.set :=
  ⟨_, List.mem_cons_self, View.mem_set_unit_zero hz4_acc inb_S128x128_S128x128_0_0 y⟩

set_option maxHeartbeats 1000000 in
/-- The body at the first grid point, on whole memrefs: the branch is taken, so the accumulator is cleared before the block's
    sum is added; the inputs stay, and the accumulator and the output buffer both end at the block's sum over the cleared value. -/
theorem sound_kernel4_first (c : Dev nD) (E : Set ℕ) (i : grid4.Coords) (hi : (i 0).val = 0)
    (arg1 : Memref sig .tc .vmem S10000x128 .f32) (harg1 : arg1.IsWhole) (arg2 : Memref sig .tc .vmem S10000x1 .i32) (harg2 : arg2.IsWhole)
    (arg3 : Memref sig .tc .vmem S128x128 .f32) (harg3 : arg3.IsWhole) (arg4 : Memref sig .tc .vmem S128x128 .f32) (harg4 : arg4.IsWhole)
    (x0 : Vec F S10000x128 .f32) (x1 : Vec F S10000x1 .i32) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d)
        ∗ (iprop(owns (c : Thread nD τ) arg1 fullShare x0 ∗ owns (c : Thread nD τ) arg2 fullShare x1
            ∗ owns (c : Thread nD τ) arg3 fullShare (k4_pay2 i x1 x0 (k4_pay1 (F := F)))
            ∗ owns (c : Thread nD τ) arg4 fullShare (k4_pay2 i x1 x0 (k4_pay1 (F := F)))) -∗ K ⟨⟩))
      ⊢ wp frame (wpE (defs₀ (F := F)) Variants.none c none) E (cc4__pool_kernel i arg1 harg1 arg2 harg2 arg3 harg3 arg4 harg4) K := by
  have hc : (Scalar.cmpi .ne (Scalar.extui (Scalar.cmpi .eq (BitVec.ofNat 32 (i 0).val) 0#32)) 0#32 = 1#1) := by
    rw [hi]; decide
  simp only [cc4__pool_kernel_eq_skeleton]; unfold cc4__pool_kernel_skel
  unfold owns
  iintro ⟨⟨%f0, %hf0, H0⟩, ⟨%f1, %hf1, H1⟩, ⟨%d2, %f2, -, H2⟩, ⟨%d3, %f3, -, H3⟩, Hk⟩
  subst hf0 hf1
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (cover4 _ _), View.canon_unit_zero hz4_acc,
      View.readCov_eq_canon_ld _ _ _ (cover4 _ _), View.canon_cons_unit_zero (S := S128x128) hz4_acc, View.ld_unit_zero (S := S128x128) hz4_acc]
    simp only [View.readAt_eq_ld, View.ld_unit_zero (S := S10000x1) hz4_ids, View.ld_unit_zero (S := S10000x128) hz4_feat,
      View.readCov_unit_zero (S := S128x128) _ hz4_acc]
  · iexists _; isplitr
    swap; · iexact H3
    ipureintro
    sl_unfold_words
    rw [View.read_writes_eq_canon _ _ _ (cover4 _ _), View.canon_cons_unit_zero (S := S128x128) hz4_acc]
    simp only [View.readAt_eq_ld, View.ld_unit_zero (S := S10000x1) hz4_ids, View.ld_unit_zero (S := S10000x128) hz4_feat,
      View.readCov_unit_zero (S := S128x128) _ hz4_acc]

set_option maxHeartbeats 1000000 in
/-- The body at a later grid point, on whole memrefs, the accumulator holding `s`: the branch is not taken; the inputs stay, and
    the accumulator and the output buffer both end at the block's sum over `s`. -/
theorem sound_kernel4_later (c : Dev nD) (E : Set ℕ) (i : grid4.Coords) (hi : (i 0).val ≠ 0) (hlt : (i 0).val < 10)
    (arg1 : Memref sig .tc .vmem S10000x128 .f32) (harg1 : arg1.IsWhole) (arg2 : Memref sig .tc .vmem S10000x1 .i32) (harg2 : arg2.IsWhole)
    (arg3 : Memref sig .tc .vmem S128x128 .f32) (harg3 : arg3.IsWhole) (arg4 : Memref sig .tc .vmem S128x128 .f32) (harg4 : arg4.IsWhole)
    (x0 : Vec F S10000x128 .f32) (x1 : Vec F S10000x1 .i32) (s : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare s
        ∗ (iprop(owns (c : Thread nD τ) arg1 fullShare x0 ∗ owns (c : Thread nD τ) arg2 fullShare x1
            ∗ owns (c : Thread nD τ) arg3 fullShare (k4_pay2 i x1 x0 s)
            ∗ owns (c : Thread nD τ) arg4 fullShare (k4_pay2 i x1 x0 s)) -∗ K ⟨⟩))
      ⊢ wp frame (wpE (defs₀ (F := F)) Variants.none c none) E (cc4__pool_kernel i arg1 harg1 arg2 harg2 arg3 harg3 arg4 harg4) K := by
  have hc : ¬ (Scalar.cmpi .ne (Scalar.extui (Scalar.cmpi .eq (BitVec.ofNat 32 (i 0).val) 0#32)) 0#32 = 1#1) :=
    fun h => hi ((cond4_iff ⟨(i 0).val, hlt⟩).mp h)
  simp only [cc4__pool_kernel_eq_skeleton]; unfold cc4__pool_kernel_skel
  unfold owns
  iintro ⟨⟨%f0, %hf0, H0⟩, ⟨%f1, %hf1, H1⟩, ⟨%d2, %f2, -, H2⟩, ⟨%f3, %hf3, H3⟩, Hk⟩
  subst hf0 hf1 hf3
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (cover4 _ _), View.canon_unit_zero hz4_acc]
    simp only [View.readAt_eq_ld, View.ld_unit_zero (S := S10000x1) hz4_ids, View.ld_unit_zero (S := S10000x128) hz4_feat,
      View.ld_unit_zero (S := S128x128) hz4_acc, View.readCov_unit_zero (S := S128x128) _ hz4_acc]
  · iexists _; isplitr
    swap; · iexact H3
    ipureintro
    sl_unfold_words
    rw [View.read_writes_eq_canon _ _ _ (cover4 _ _), View.canon_unit_zero hz4_acc]
    simp only [View.readAt_eq_ld, View.ld_unit_zero (S := S10000x1) hz4_ids, View.ld_unit_zero (S := S10000x128) hz4_feat,
      View.ld_unit_zero (S := S128x128) hz4_acc]

/-- The feature window's staging buffer holds its block at every point, for any proof data over `V` whose body leaves it in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The graph-id window's staging buffer holds its block at every point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the launch hands the region, opened at the accumulator: the accumulator as a whole memref owned at some contents,
    the other scoped buffers no window of this region stages left unopened, and the generator register at some state. -/
theorem PhiA4_eq (c : Dev nD) :
    (Pipeline.ΦA spec4 c : sProp 𝕄)
      = iprop(iprop((∃ d, owns (c : Thread nD τ) scM4 fullShare d) ∗ Pipeline.scopedRestBut (Ix := Unit) (Name := ℕ) (U := UR sig nD τ) (Lvl := ℕ) (Val := Elt F) spec4 c [cc4_scratch0]) ∗ (∃ r, prngReg c r)) := by
  unfold Pipeline.ΦA
  rw [Pipeline.scopedRest_split_of_list spec4 c [cc4_scratch0] (by decide) (by decide)]
  simp only [bigSepL_singleton, scM4, owns_whole]; try rfl

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The grid coordinate of a point is its position (the grid has one axis of ten points). -/
theorem coord4_val : ∀ t : Fin cfg4.N, ((grid4.coords t) 0).val = t.val :=
  (by decide +kernel : ∀ t : Fin grid4.N, ((grid4.coords t) 0).val = t.val)

set_option maxHeartbeats 1000000 in
/-- The body at any point: the inputs' memrefs hold their blocks. At the first point the invariant is what the launch hands
    the region, opened at the accumulator (at anything), and the body clears it before adding; at a later point the invariant
    names what the point before left in the accumulator, and the body adds to that. Either way the accumulator and the output
    buffer end at `acc4` of the point, the other scoped buffers and the generator register pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl,
    show (dat4 V c).Φ t.succ = PhiS4 V c (t.val + 1) t.isLt from rfl, PhiS4_succ,
    after4_0, after4_1, after4_2]
  have hN : t.val < 10 := lt_of_lt_of_eq t.isLt (show cfg4.N = 10 from N_4)
  by_cases hz : t.val = 0
  · rw [PhiS4_castSucc V c t, PhiS4_zero V c _ _ hz, PhiA4_eq]
    obtain ⟨n, hn⟩ := t
    obtain rfl : n = 0 := hz
    rw [show acc4 V c (⟨0, hn⟩ : Fin cfg4.N).val (⟨0, hn⟩ : Fin cfg4.N).isLt = k4_pay2 (grid4.coords ⟨0, hn⟩) (iblk4 V c 1 ⟨0, hn⟩) (iblk4 V c 0 ⟨0, hn⟩) (k4_pay1 (F := F)) from acc4_zero V c hn]
    iintro ⟨⟨⟨HS, HR⟩, Hg⟩, Ho, ⟨%d0, H0⟩, ⟨%d1, H1⟩, ⟨%d2, H2⟩⟩
    iapply (sound_kernel4_first c Set.univ (grid4.coords ⟨0, hn⟩) ((coord4_val ⟨0, hn⟩).trans rfl) _ _ _ _ _ _ _ _ (iblk4 V c 0 ⟨0, hn⟩) (iblk4 V c 1 ⟨0, hn⟩) _)
    isplitl [H0]; · iexact H0
    isplitl [H1]; · iexact H1
    isplitl [H2]; · iexists _; iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2
  · rw [PhiS4_castSucc V c t, PhiS4_pos V c _ _ hz]
    obtain ⟨n, hn⟩ := t
    obtain ⟨k, rfl⟩ : ∃ k, n = k + 1 := ⟨n - 1, by have : n ≠ 0 := hz; omega⟩
    rw [show acc4 V c (⟨k + 1, hn⟩ : Fin cfg4.N).val (⟨k + 1, hn⟩ : Fin cfg4.N).isLt = k4_pay2 (grid4.coords ⟨k + 1, hn⟩) (iblk4 V c 1 ⟨k + 1, hn⟩) (iblk4 V c 0 ⟨k + 1, hn⟩) (acc4 V c k (Nat.lt_of_succ_lt hn)) from acc4_succ V c k hn]
    iintro ⟨⟨⟨HS, HR⟩, Hg⟩, Ho, ⟨%d0, H0⟩, ⟨%d1, H1⟩, ⟨%d2, H2⟩⟩
    iapply (sound_kernel4_later c Set.univ (grid4.coords ⟨k + 1, hn⟩) (by rw [coord4_val]; exact Nat.succ_ne_zero k) (by rw [coord4_val]; exact hN) _ _ _ _ _ _ _ _ (iblk4 V c 0 ⟨k + 1, hn⟩) (iblk4 V c 1 ⟨k + 1, hn⟩) (acc4 V c k (Nat.lt_of_succ_lt hn)) _)
    isplitl [H0]; · iexact H0
    isplitl [H1]; · iexact H1
    isplitl [H2]; · iexists _; iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 (F := F) V c).Φ 0 := by
  rw [show (dat4 V c).Φ 0 = PhiS4 V c 0 (Nat.zero_le _) from rfl, PhiS4_zero V c 0 _ rfl]
  try exact Idealize.SL.BI.Entails.refl _

/-- After any point but the first the invariant gives back what the launch handed the region: the accumulator's named
    contents are forgotten. -/
theorem Phi_out4 (c : Dev nD) (t : Fin (cfg4.N + 1)) (ht : t.val ≠ 0) : (dat4 (F := F) V c).Φ t ⊢ Pipeline.ΦA spec4 c := by
  rw [show (dat4 V c).Φ t = PhiS4 V c t.val (Nat.le_of_lt_succ t.isLt) from rfl, PhiS4_pos V c _ _ ht, PhiA4_eq]
  iintro ⟨⟨HS, HR⟩, Hg⟩
  isplitl [HS HR]
  · isplitl [HS]; · iexists _; iexact HS
    iexact HR
  iexact Hg

/-- The same after the last point. -/
theorem hout4 (c : Dev nD) : (dat4 (F := F) V c).Φ (Fin.last cfg4.N) ⊢ Pipeline.ΦA spec4 c :=
  Phi_out4 V c _ (by rw [Fin.val_last]; have : cfg4.N = 10 := N_4; omega)

end Cert.Kernel.Fr

end
-- ==== Proof.Kernel.Run.lean ====
/-
  THE RUN of the kernel program: @main as a list of segments — a host segment per stretch of host operations, entered
  from the fold's contents before it; a region per pallas_call, entered from every unscoped buffer at the fold's
  contents before it and left at the contents after it — launched by the several-regions launch theorem. Every weakly
  fair execution terminates, and every final memory holds every unscoped buffer at the fold's last contents `W12`.
  Read at the argument arrays this is the frame; read at the result buffer it names the program's result.
-/
import proofs.«408481_j1683627180174_2_alg».proof.Proof.Kernel.Fold
import proofs.«408481_j1683627180174_2_alg».proof.Proof.Kernel.Reg4
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, each at the contents its region is entered from. -/
def pdats : (p : Fin 5) → (c : Dev nD) → Dat τ (Elt F) Unit ℕ (UR sig nD τ) ℕ (Pipeline.pin (pcfgs (F := F)) adm p) c
  | ⟨0, _⟩ => fun c => dat0 (E2 m) c
  | ⟨1, _⟩ => fun c => dat1 (E4 m) c
  | ⟨2, _⟩ => fun c => dat2 (E6 m) c
  | ⟨3, _⟩ => fun c => dat3 (E8 m) c
  | ⟨4, _⟩ => fun c => dat4 (E10 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents, the generator register at some state. -/
abbrev Tₙ (c : Dev nD) : sProp 𝕄 := iprop(StableHlo.held (c : Thread nD τ) (Pipeline.ucRefs τ sig) (W12 m c) ∗ ∃ r, prngReg c r)

-- a library lemma stated over the pinned configuration unifies only when unification may unfold plain definitions in a metavariable's type
set_option backward.isDefEq.respectTransparency.types false in
/-- pallas_call 0 as a segment: entered from every unscoped buffer at `W2`, left at `W3`. Its windows' arrays are
    split out of the unscoped buffers at entry and put back at the exit contents; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E2 m) c).loose
  hwaits := Pipeline.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (E2 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (by rw [show (pdats m 0 c).Φ 0 = Pipeline.ΦA spec0 c from rfl])
    unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from by rw [show (pdats m 0 c).Φ (Fin.last _) = Pipeline.ΦA spec0 c from rfl]).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E2 m c) (X3 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies only when unification may unfold plain definitions in a metavariable's type
set_option backward.isDefEq.respectTransparency.types false in
/-- pallas_call 1 as a segment: entered from every unscoped buffer at `W4`, left at `W5`. Its windows' arrays are
    split out of the unscoped buffers at entry and put back at the exit contents; the generator register goes into the
    region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (E4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (by rw [show (pdats m 1 c).Φ 0 = Pipeline.ΦA spec1 c from rfl])
    unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from by rw [show (pdats m 1 c).Φ (Fin.last _) = Pipeline.ΦA spec1 c from rfl]).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E4 m c) (X5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies only when unification may unfold plain definitions in a metavariable's type
set_option backward.isDefEq.respectTransparency.types false in
/-- pallas_call 2 as a segment: entered from every unscoped buffer at `W6`, left at `W7`. Its windows' arrays are
    split out of the unscoped buffers at entry and put back at the exit contents; the generator register goes into the
    region's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E6 m) c).loose
  hwaits := Pipeline.hwaits_of_owed_zero _ _ _ _ L lv 2 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec2 c (E6 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec2 c from ?_).trans (by rw [show (pdats m 2 c).Φ 0 = Pipeline.ΦA spec2 c from rfl])
    unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA spec2 c from by rw [show (pdats m 2 c).Φ (Fin.last _) = Pipeline.ΦA spec2 c from rfl]).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E6 m c) (X7 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies only when unification may unfold plain definitions in a metavariable's type
set_option backward.isDefEq.respectTransparency.types false in
/-- pallas_call 3 as a segment: entered from every unscoped buffer at `W8`, left at `W9`. Its windows' arrays are
    split out of the unscoped buffers at entry and put back at the exit contents; the generator register goes into the
    region's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E8 m) c).loose
  hwaits := Pipeline.hwaits_of_owed_zero _ _ _ _ L lv 3 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec3 c (E8 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec3 c from ?_).trans (by rw [show (pdats m 3 c).Φ 0 = Pipeline.ΦA spec3 c from rfl])
    unfold Pipeline.ΦA
    iintro ⟨Hp, -, Hr⟩
    isplitl [Hr]; · iexact Hr
    iexact Hp
  hout c := by
    rw [Pipeline.ownSems0_none]
    refine (show (pdats m 3 c).Φ (Fin.last _) ⊢ Pipeline.ΦA spec3 c from by rw [show (pdats m 3 c).Φ (Fin.last _) = Pipeline.ΦA spec3 c from rfl]).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E8 m c) (X9 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies only when unification may unfold plain definitions in a metavariable's type
set_option backward.isDefEq.respectTransparency.types false in
/-- pallas_call 4 as a segment: entered from every unscoped buffer at `W10`, left at `W11`. Its windows' arrays are
    split out of the unscoped buffers at entry and put back at the exit contents; the generator register goes into the
    region's invariant and comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E10 m) c).loose
  hwaits := Pipeline.hwaits_of_owed_zero _ _ _ _ L lv 4 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec4 c (E10 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (E10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec4 c from ?_).trans (hin4 (E10 m) c)
    unfold Pipeline.ΦA
    iintro ⟨Hp, -, Hr⟩
    isplitl [Hr]; · iexact Hr
    iexact Hp
  hout c := by
    rw [Pipeline.ownSems0_none]
    refine (show (pdats m 4 c).Φ (Fin.last _) ⊢ Pipeline.ΦA spec4 c from hout4 (E10 m) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (E10 m c) (X11 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's twelve segments in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .region (reg0 m),
    .host (hseg hostOps1 hostOps1_sub hostOps1_fresh (W3 m)),
    .region (reg1 m),
    .host (hseg hostOps2 hostOps2_sub hostOps2_fresh (W5 m)),
    .region (reg2 m),
    .host (hseg hostOps3 hostOps3_sub hostOps3_fresh (W7 m)),
    .region (reg3 m),
    .host (hseg hostOps4 hostOps4_sub hostOps4_fresh (W9 m)),
    .region (reg4 m),
    .host (hseg hostOps5 hostOps5_sub hostOps5_fresh (W11 m)) ]

-- the launch theorem's implicit arguments are found by unifying its conclusion with this one
set_option backward.isDefEq.respectTransparency.types false in
/-- THE RUN: from any memory `m` with zero counters, every weakly fair execution of @main on the TensorCores terminates,
    nothing faulting, and every final memory holds every unscoped buffer of every core at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
        show iprop(StableHlo.held (c : Thread nD τ) (Pipeline.ucRefs τ sig) (W12 m c) ∗ R c)
          ⊢ iprop(Tₙ m c ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h => h)

/-- THE FRAME at any `F`: the run, read at the eleven argument arrays, each of which reaches the end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c _ (mem_uc main_arg0 (by decide))).trans (W12_main_arg0 m c),
     (h c _ (mem_uc main_arg1 (by decide))).trans (W12_main_arg1 m c),
     (h c _ (mem_uc main_arg2 (by decide))).trans (W12_main_arg2 m c),
     (h c _ (mem_uc main_arg3 (by decide))).trans (W12_main_arg3 m c),
     (h c _ (mem_uc main_arg4 (by decide))).trans (W12_main_arg4 m c),
     (h c _ (mem_uc main_arg5 (by decide))).trans (W12_main_arg5 m c),
     (h c _ (mem_uc main_arg6 (by decide))).trans (W12_main_arg6 m c),
     (h c _ (mem_uc main_arg7 (by decide))).trans (W12_main_arg7 m c),
     (h c _ (mem_uc main_arg8 (by decide))).trans (W12_main_arg8 m c),
     (h c _ (mem_uc main_arg9 (by decide))).trans (W12_main_arg9 m c),
     (h c _ (mem_uc main_arg10 (by decide))).trans (W12_main_arg10 m c)⟩) (run_all m ρ)

/-- The run read at the result buffer and at the arguments: the result ends at the fold's last contents there. -/
theorem run_result : θ_run defs (onTc (τ := τ) (main (F := F))) ⟨m, fun _ => 0, ρ⟩ (fun r => ∀ c : Dev nD,
      r.2.mem ((c.tc : Thread nD τ).loc main_v120) = W12 m c main_v120
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨h c _ (mem_uc main_v120 (by decide)),
     (h c _ (mem_uc main_arg0 (by decide))).trans (W12_main_arg0 m c),
     (h c _ (mem_uc main_arg1 (by decide))).trans (W12_main_arg1 m c),
     (h c _ (mem_uc main_arg2 (by decide))).trans (W12_main_arg2 m c),
     (h c _ (mem_uc main_arg3 (by decide))).trans (W12_main_arg3 m c),
     (h c _ (mem_uc main_arg4 (by decide))).trans (W12_main_arg4 m c),
     (h c _ (mem_uc main_arg5 (by decide))).trans (W12_main_arg5 m c),
     (h c _ (mem_uc main_arg6 (by decide))).trans (W12_main_arg6 m c),
     (h c _ (mem_uc main_arg7 (by decide))).trans (W12_main_arg7 m c),
     (h c _ (mem_uc main_arg8 (by decide))).trans (W12_main_arg8 m c),
     (h c _ (mem_uc main_arg9 (by decide))).trans (W12_main_arg9 m c),
     (h c _ (mem_uc main_arg10 (by decide))).trans (W12_main_arg10 m c)⟩) (run_all m ρ)

end Cert.Kernel.Fr

end
-- ==== Proof.Value.Val0.lean ====
/-
  The first matrix product's output array after its region's run, as ONE function of the arrays the region finds.
  The region multiplies each of ten blocks of 10000 rows of x by the whole of W1 and writes the product into the
  same rows of its output; so entry (n, j) of the output is the sum over k < 32 of x[n, k] · W1[k, j] — the
  reference's first product, read at the same index. The point that writes row n is n / 10000, at row n mod 10000
  of its block; the accumulator the product starts from is zero and adds nothing.
-/
import proofs.«408481_j1683627180174_2_alg».proof.Proof.KernelIdeal.Reg0
import proofs.«408481_j1683627180174_2_alg».proof.Proof.RefReadP
import Idealize.ShloMosaic.Lib.Pipeline.Value
import Idealize.ShloMosaic.Lib.ValueIdx
import Idealize.ShloMosaic.PureOps.Ideal.Laws

set_option maxRecDepth 16384

noncomputable section

namespace Cert.Value

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The block product at an index -/

/-- The left operand of the block product is read at the output's row, -/
theorem lhs_blk0_0 (i : S10000x64.Idx) (q : dot_S10000x32_S32x64_S10000x64_1_0_0_1_n_n.contr.Idx) :
    (dot_S10000x32_S32x64_S10000x64_1_0_0_1_n_n.lhsIdx i q 0).val = (i 0).val := by
  unfold DotDims.lhsIdx
  rw [dif_neg (show ¬(0 : Fin S10000x32.rank) ∈ dot_S10000x32_S32x64_S10000x64_1_0_0_1_n_n.lhsBatch by decide), dif_pos (show (0 : Fin S10000x32.rank) ∈ dot_S10000x32_S32x64_S10000x64_1_0_0_1_n_n.lhsNonContracting by decide)]
  rfl
/-- and at the contracted coordinate on its columns; -/
theorem lhs_blk0_1 (i : S10000x64.Idx) (q : dot_S10000x32_S32x64_S10000x64_1_0_0_1_n_n.contr.Idx) :
    (dot_S10000x32_S32x64_S10000x64_1_0_0_1_n_n.lhsIdx i q 1).val = (q ⟨0, by decide⟩).val :=
  dot_S10000x32_S32x64_S10000x64_1_0_0_1_n_n.lhsIdx_val_of_single rfl i q
/-- the right operand at the contracted coordinate on its rows, -/
theorem rhs_blk0_0 (i : S10000x64.Idx) (q : dot_S10000x32_S32x64_S10000x64_1_0_0_1_n_n.contr.Idx) :
    (dot_S10000x32_S32x64_S10000x64_1_0_0_1_n_n.rhsIdx i q 0).val = (q ⟨0, by decide⟩).val :=
  dot_S10000x32_S32x64_S10000x64_1_0_0_1_n_n.rhsIdx_val_of_single rfl i q
/-- and at the output's column. -/
theorem rhs_blk0_1 (i : S10000x64.Idx) (q : dot_S10000x32_S32x64_S10000x64_1_0_0_1_n_n.contr.Idx) :
    (dot_S10000x32_S32x64_S10000x64_1_0_0_1_n_n.rhsIdx i q 1).val = (i 1).val := by
  unfold DotDims.rhsIdx
  rw [dif_neg (show ¬(1 : Fin S32x64.rank) ∈ dot_S10000x32_S32x64_S10000x64_1_0_0_1_n_n.rhsBatch by decide), dif_pos (show (1 : Fin S32x64.rank) ∈ dot_S10000x32_S32x64_S10000x64_1_0_0_1_n_n.rhsNonContracting by decide)]
  rfl

/-- Entry (p, q) of the body's product of a block of x and W1: the sum over k < 32 of x[p, k] · W1[k, q]
    (the roundings of the operands are the identity on extended reals, and the zero accumulator adds 0). -/
theorem blkprod0_apply (x0 : Vec Ideal S10000x32 .f32) (x1 : Vec Ideal S32x64 .f32) (p : Fin 10000) (q : Fin 64) :
    k0_pay1 x0 x1 (ix2 p q) = ∑ k : Fin 32, x0 (ix2 p k) * x1 (ix2 k q) := by
  unfold k0_pay1
  refine (Ideal.matmul_constant_zero_apply dot_S10000x32_S32x64_S10000x64_1_0_0_1_n_n none _ _ (ix2 p q)).trans ?_
  rw [← Equiv.sum_comp (contrEquiv1 dot_S10000x32_S32x64_S10000x64_1_0_0_1_n_n 32 rfl rfl).symm]
  refine Finset.sum_congr rfl fun k _ => ?_
  have hk := contrEquiv1_symm_val dot_S10000x32_S32x64_S10000x64_1_0_0_1_n_n 32 rfl rfl k
  have el : dot_S10000x32_S32x64_S10000x64_1_0_0_1_n_n.lhsIdx (ix2 p q) ((contrEquiv1 dot_S10000x32_S32x64_S10000x64_1_0_0_1_n_n 32 rfl rfl).symm k) = ix2 p k := funext fun a => Fin.ext (by
    match a with
    | ⟨0, _⟩ => exact lhs_blk0_0 _ _
    | ⟨1, _⟩ => exact (lhs_blk0_1 _ _).trans hk)
  have er : dot_S10000x32_S32x64_S10000x64_1_0_0_1_n_n.rhsIdx (ix2 p q) ((contrEquiv1 dot_S10000x32_S32x64_S10000x64_1_0_0_1_n_n 32 rfl rfl).symm k) = ix2 k q := funext fun a => Fin.ext (by
    match a with
    | ⟨0, _⟩ => exact (rhs_blk0_0 _ _).trans hk
    | ⟨1, _⟩ => exact rhs_blk0_1 _ _)
  show x0 _ * x1 _ = _
  rw [el, er]

/-- The same, at any index of the block. -/
theorem blkprod0_apply' (x0 : Vec Ideal S10000x32 .f32) (x1 : Vec Ideal S32x64 .f32) (j : S10000x64.Idx) :
    k0_pay1 x0 x1 j = ∑ k : Fin 32, x0 (ix2 (j 0) k) * x1 (ix2 k (j 1)) :=
  (congrArg (k0_pay1 x0 x1) (eq_ix2 j)).trans (blkprod0_apply x0 x1 (j 0) (j 1))

/-! ## From the blocks to the array -/

theorem zero_off : (![0, 0] : Fin 2 → Nat) = fun _ => 0 := funext fun a => by fin_cases a <;> rfl

/-- The block indices, decided over the ten points: point t takes block t of x's rows and of the output's rows,
    all of x's columns, and the one block that is the whole of W1. -/
theorem blk_idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK is block t of the whole product x · W1 of the arrays as the region finds them. -/
theorem flushed0_eq (c : Dev nD) (t : Fin cfg0.N) :
    (dat0 V c).flushed 2 t = ((cfg0.win 2).blk t).view.read (Elt Ideal)
      (Cert.ReferenceIdeal.ReadP.val_main_v15 (F := Ideal) (V c main_arg0) (V c main_arg3)) := by
  show (cfg0.win 2).cut (grid0.coords t) ((dat0 V c).after 2 t) = _
  rw [after0_2]
  unfold out0_2
  rw [View.canon_unit_zero zero_off]
  simp only [View.ld_unit_zero (S := S10000x32) zero_off, View.ld_unit_zero (S := S32x64) zero_off]
  obtain ⟨e00, e01, e10, e11, e20, e21⟩ := blk_idx0 t
  funext j
  refine (blkprod0_apply' _ _ j).trans ?_
  show _ = Cert.ReferenceIdeal.ReadP.val_main_v15 (F := Ideal) (V c main_arg0) (V c main_arg3) (((cfg0.win 2).blk t).view.emb j)
  rw [Cert.ReferenceIdeal.ReadP.val_main_v15_apply]
  refine Finset.sum_congr rfl fun k _ => ?_
  have hx : iblk0 V c 0 t (ix2 (j 0) k) = V c main_arg0 (Cert.ReferenceIdeal.ReadP.lidx_main_v15 (((cfg0.win 2).blk t).view.emb j) k) := by
    show V c main_arg0 (((cfg0.win 0).blk t).view.emb (ix2 (j 0) k)) = _
    refine congrArg (V c main_arg0) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 32 + 1 * k.val = k.val; omega
  have hw : iblk0 V c 1 t (ix2 k (j 1)) = V c main_arg3 (Cert.ReferenceIdeal.ReadP.ridx_main_v15 (((cfg0.win 2).blk t).view.emb j) k) := by
    show V c main_arg3 (((cfg0.win 1).blk t).view.emb (ix2 k (j 1))) = _
    refine congrArg (V c main_arg3) (funext fun a => Fin.ext ?_)
    match a with
    | ⟨0, _⟩ => show win0_1.index t (0 : Fin 2) * 32 + 1 * k.val = k.val; omega
    | ⟨1, _⟩ => show win0_1.index t (1 : Fin 2) * 64 + 1 * (j 1).val = win0_2.index t (1 : Fin 2) * 64 + 1 * (j 1).val; omega
  rw [hx, hw]

/-- An index of the output array is in point t's block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v15).slice (win0_2.rect t)).set ↔ _
  rw [View.set_slice_whole, Rect.mem_set_unit]
  exact Iff.rfl

/-- Every row is in some point's block: row n in that of point n / 10000. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  let t : Fin cfg0.N := ⟨(i 0).val / 10000, by show (i 0).val / 10000 < 10; omega⟩
  obtain ⟨e00, e01, e10, e11, e20, e21⟩ := blk_idx0 t
  have ht : t.val = (i 0).val / 10000 := rfl
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- THE ARRAY after the region's run is the whole product x · W1, as the reference computes it. -/
theorem final0 (c : Dev nD) :
    (dat0 V c).arrAt 2 cfg0.N
      = Cert.ReferenceIdeal.ReadP.val_main_v15 (F := Ideal) (V c main_arg0) (V c main_arg3) :=
  (dat0 V c).arrAt_eq_of_cover 2 _ (fun t _ => flushed0_eq V c t) cover0

end Cert.Value

end
-- ==== Proof.Value.Val1.lean ====
/-
  The second dense stage, read as mathematics at the exact extended-real values: the array the region leaves in
  its output window is, entry (n, j), the sum over k of max(s[n,k] + b[0,k], 0) · w[k,j], where s is the region's
  input array (100000 × 64), b the bias row and w the weights; and that is what the reference's bias-add, clamp at
  zero and matrix product compute from the same three arrays.
-/
import proofs.«408481_j1683627180174_2_alg».proof.Proof.KernelIdeal.Reg1
import proofs.«408481_j1683627180174_2_alg».proof.Proof.RefReadP
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Value

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The body's stored value at an entry -/

theorem lhs_k1_0 (i : S10000x128.Idx) (q : dot_S10000x64_S64x128_S10000x128_1_0_0_1_n_n.contr.Idx) :
    (dot_S10000x64_S64x128_S10000x128_1_0_0_1_n_n.lhsIdx i q 0).val = (i 0).val := by
  unfold DotDims.lhsIdx
  rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
  rfl
theorem lhs_k1_1 (i : S10000x128.Idx) (q : dot_S10000x64_S64x128_S10000x128_1_0_0_1_n_n.contr.Idx) :
    (dot_S10000x64_S64x128_S10000x128_1_0_0_1_n_n.lhsIdx i q 1).val = (q ⟨0, by decide⟩).val :=
  dot_S10000x64_S64x128_S10000x128_1_0_0_1_n_n.lhsIdx_val_of_single rfl i q
theorem rhs_k1_0 (i : S10000x128.Idx) (q : dot_S10000x64_S64x128_S10000x128_1_0_0_1_n_n.contr.Idx) :
    (dot_S10000x64_S64x128_S10000x128_1_0_0_1_n_n.rhsIdx i q 0).val = (q ⟨0, by decide⟩).val :=
  dot_S10000x64_S64x128_S10000x128_1_0_0_1_n_n.rhsIdx_val_of_single rfl i q
theorem rhs_k1_1 (i : S10000x128.Idx) (q : dot_S10000x64_S64x128_S10000x128_1_0_0_1_n_n.contr.Idx) :
    (dot_S10000x64_S64x128_S10000x128_1_0_0_1_n_n.rhsIdx i q 1).val = (i 1).val := by
  unfold DotDims.rhsIdx
  rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
  rfl

/-- The bias row broadcast down the rows, read at (p, k), is the row's entry k. -/
theorem bias1_apply (x1 : Vec Ideal S1x64 .f32) (p : Fin 10000) (k : Fin 64) :
    broadcastTo S10000x64 x1 broadcasts_S1x64_S10000x64 (ix2 p k) = x1 (ix2 0 k) :=
  broadcastTo_apply x1 broadcasts_S1x64_S10000x64 (ix2 p k) (ix2 0 k) (fun a => match a with
    | ⟨0, _⟩ => by show (0 : Nat) = if (1 : Nat) = 1 then 0 else _; rw [if_pos rfl]
    | ⟨1, _⟩ => by show k.val = if (64 : Nat) = 1 then 0 else k.val; rw [if_neg (by decide)])

/-- Entry (p, q) of the value the body stores: the sum over k of the clamped biased input at (p, k) times the weight at (k, q). -/
theorem pay1_apply (x0 : Vec Ideal S10000x64 .f32) (x1 : Vec Ideal S1x64 .f32) (x2 : Vec Ideal S64x128 .f32) (p : Fin 10000) (q : Fin 128) :
    k1_pay1 (F := Ideal) x0 x1 x2 (ix2 p q) = ∑ k : Fin 64, max (x0 (ix2 p k) + x1 (ix2 0 k)) 0 * x2 (ix2 k q) := by
  unfold k1_pay1
  refine (Ideal.matmul_constant_zero_apply dot_S10000x64_S64x128_S10000x128_1_0_0_1_n_n none _ _ (ix2 p q)).trans ?_
  rw [← Equiv.sum_comp (contrEquiv1 dot_S10000x64_S64x128_S10000x128_1_0_0_1_n_n 64 rfl rfl).symm]
  refine Finset.sum_congr rfl fun k _ => ?_
  have hk := contrEquiv1_symm_val dot_S10000x64_S64x128_S10000x128_1_0_0_1_n_n 64 rfl rfl k
  have el : dot_S10000x64_S64x128_S10000x128_1_0_0_1_n_n.lhsIdx (ix2 p q) ((contrEquiv1 dot_S10000x64_S64x128_S10000x128_1_0_0_1_n_n 64 rfl rfl).symm k) = ix2 p k := funext fun a => Fin.ext (by
    match a with
    | ⟨0, _⟩ => exact lhs_k1_0 _ _
    | ⟨1, _⟩ => exact (lhs_k1_1 _ _).trans hk)
  have er : dot_S10000x64_S64x128_S10000x128_1_0_0_1_n_n.rhsIdx (ix2 p q) ((contrEquiv1 dot_S10000x64_S64x128_S10000x128_1_0_0_1_n_n 64 rfl rfl).symm k) = ix2 k q := funext fun a => Fin.ext (by
    match a with
    | ⟨0, _⟩ => exact (rhs_k1_0 _ _).trans hk
    | ⟨1, _⟩ => exact rhs_k1_1 _ _)
  rw [el, er]
  show max (shapeCast S10000x64 x0 shapeCasts_S10000x64_S10000x64 (ix2 p k) + broadcastTo S10000x64 (shapeCast S1x64 x1 shapeCasts_S1x64_S1x64) broadcasts_S1x64_S10000x64 (ix2 p k)) (Ideal.ofBits .f32 0x00000000#32) * x2 (ix2 k q) = _
  rw [shapeCast_self, shapeCast_self, bias1_apply, Ideal.ofBits_zero_f32]

/-! ## The stage as one function of the three arrays -/

theorem zero_off1 : (![0, 0] : Fin 2 → Nat) = fun _ => 0 := funext fun a => by fin_cases a <;> rfl

/-- Entry (n, j) of the dense stage on whole arrays: the sum over k of max(s[n,k] + b[0,k], 0) · w[k,j]. -/
def dense1 (s : FVec Ideal S100000x64 .f32) (b : FVec Ideal S1x64 .f32) (w : FVec Ideal S64x128 .f32) :
    FVec Ideal S100000x128 .f32 :=
  fun i => ∑ k : Fin 64, max (s (ix2 (i 0) k) + b (ix2 0 k)) 0 * w (ix2 k (i 1))

theorem idx_facts1 : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem flushed1_eq (c : Dev nD) (t : Fin cfg1.N) :
    (dat1 V c).flushed 3 t = ((cfg1.win 3).blk t).view.read (Elt Ideal) (dense1 (V c main_v43) (V c main_v44) (V c main_arg5)) := by
  show (cfg1.win 3).cut (grid1.coords t) ((dat1 V c).after 3 t) = _
  rw [after1_3]
  unfold out1_3
  rw [View.canon_unit_zero zero_off1]
  simp only [View.ld_unit_zero (S := S10000x64) zero_off1, View.ld_unit_zero (S := S1x64) zero_off1, View.ld_unit_zero (S := S64x128) zero_off1]
  funext y
  obtain ⟨p, q, rfl⟩ : ∃ (p : Fin 10000) (q : Fin 128), y = ix2 p q := ⟨y 0, y 1, eq_ix2 y⟩
  refine (pay1_apply (iblk1 V c 0 t) (iblk1 V c 1 t) (iblk1 V c 2 t) p q).trans ?_
  show _ = dense1 (V c main_v43) (V c main_v44) (V c main_arg5) (((cfg1.win 3).blk t).view.emb (ix2 p q))
  unfold dense1
  obtain ⟨e0, e1, e2, e3, e4, e5, e6, e7⟩ := idx_facts1 t
  refine Finset.sum_congr rfl fun k _ => ?_
  have h0 : iblk1 V c 0 t (ix2 p k) = V c main_v43 (ix2 ((((cfg1.win 3).blk t).view.emb (ix2 p q)) 0) k) := by
    show V c main_v43 (((cfg1.win 0).blk t).view.emb (ix2 p k)) = _
    refine congrArg (V c main_v43) (funext fun a => Fin.ext ?_)
    match a with
    | ⟨0, _⟩ => show win1_0.index t (0 : Fin 2) * 10000 + 1 * p.val = win1_3.index t (0 : Fin 2) * 10000 + 1 * p.val; omega
    | ⟨1, _⟩ => show win1_0.index t (1 : Fin 2) * 64 + 1 * k.val = k.val; omega
  have h1 : iblk1 V c 1 t (ix2 0 k) = V c main_v44 (ix2 0 k) := by
    show V c main_v44 (((cfg1.win 1).blk t).view.emb (ix2 0 k)) = _
    refine congrArg (V c main_v44) (funext fun a => Fin.ext ?_)
    match a with
    | ⟨0, _⟩ => show win1_1.index t (0 : Fin 2) * 1 + 1 * 0 = 0; omega
    | ⟨1, _⟩ => show win1_1.index t (1 : Fin 2) * 64 + 1 * k.val = k.val; omega
  have h2 : iblk1 V c 2 t (ix2 k q) = V c main_arg5 (ix2 k ((((cfg1.win 3).blk t).view.emb (ix2 p q)) 1)) := by
    show V c main_arg5 (((cfg1.win 2).blk t).view.emb (ix2 k q)) = _
    refine congrArg (V c main_arg5) (funext fun a => Fin.ext ?_)
    match a with
    | ⟨0, _⟩ => show win1_2.index t (0 : Fin 2) * 64 + 1 * k.val = k.val; omega
    | ⟨1, _⟩ => show win1_2.index t (1 : Fin 2) * 128 + 1 * q.val = win1_3.index t (1 : Fin 2) * 128 + 1 * q.val; omega
  rw [h0, h1, h2]

/-- An index of the output array is in point `t`'s block iff each coordinate is in the block's range on its axis. -/
theorem mem_blk1 (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v45).slice (win1_3.rect t)).set ↔ _
  rw [View.set_slice_whole, Rect.mem_set_unit]
  exact Iff.rfl

/-- Every row of the output array lies in the block of the point numbered by the row's block of ten thousand. -/
theorem cover1 (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ : ∃ t : Fin cfg1.N, t.val = (i 0).val / 10000 := ⟨⟨(i 0).val / 10000, by rw [show cfg1.N = 10 from N_1]; omega⟩, rfl⟩
  obtain ⟨e0, e1, e2, e3, e4, e5, e6, e7⟩ := idx_facts1 t
  refine ⟨t, flush1_3 t, ?_⟩
  rw [mem_blk1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 128 ≤ (i 1).val ∧ (i 1).val < win1_3.index t (1 : Fin 2) * 128 + 128; omega

/-- The output array after the region's run is the dense stage of the three arrays the region found. -/
theorem final1_dense (c : Dev nD) : (dat1 V c).arrAt 3 cfg1.N = dense1 (V c main_v43) (V c main_v44) (V c main_arg5) :=
  (dat1 V c).arrAt_eq_of_cover 3 (dense1 (V c main_v43) (V c main_v44) (V c main_arg5)) (fun t _ => flushed1_eq V c t) cover1

/-! ## The reference's stage is the same function -/

/-- The reference's second dense stage as a function of its three operands: relu (s + bias row) times the weights. -/
def ref1 (s : FVec Ideal Cert.ReferenceIdeal.S100000x64 .f32) (b : FVec Ideal Cert.ReferenceIdeal.S1x64 .f32) (w : FVec Ideal Cert.ReferenceIdeal.S64x128 .f32) :
    FVec Ideal Cert.ReferenceIdeal.S100000x128 .f32 :=
  Host.dotGeneral Cert.ReferenceIdeal.dot_S100000x64_S64x128_S100000x128_1_0_0_1_n_n none
    (maximumf (addf s (broadcastInDim Cert.ReferenceIdeal.S100000x64 ![0, 1] Cert.ReferenceIdeal.Facts₀.bcast_S1x64_S100000x64_0_1 b))
      (Cert.ReferenceIdeal.ReadP.val_main_call1_v0 (F := Ideal))) w

/-- The bias row broadcast to the whole array, read at (n, k), is the row's entry k. -/
theorem refbias1_apply (b : FVec Ideal Cert.ReferenceIdeal.S1x64 .f32) (n : Fin 100000) (k : Fin 64) :
    broadcastInDim Cert.ReferenceIdeal.S100000x64 ![0, 1] Cert.ReferenceIdeal.Facts₀.bcast_S1x64_S100000x64_0_1 b (ix2 n k) = b (ix2 0 k) :=
  broadcastInDim_apply _ Cert.ReferenceIdeal.Facts₀.bcast_S1x64_S100000x64_0_1 b (ix2 n k) (ix2 0 k) (fun a => match a with
    | ⟨0, _⟩ => by show (0 : Nat) = if (1 : Nat) = 1 then 0 else n.val; rw [if_pos rfl]
    | ⟨1, _⟩ => by show k.val = if (64 : Nat) = 1 then 0 else k.val; rw [if_neg (by decide)])

theorem ref1_eq_dense (s : FVec Ideal Cert.ReferenceIdeal.S100000x64 .f32) (b : FVec Ideal Cert.ReferenceIdeal.S1x64 .f32) (w : FVec Ideal Cert.ReferenceIdeal.S64x128 .f32) :
    ref1 s b w = dense1 s b w := by
  funext i
  obtain ⟨n, j, rfl⟩ : ∃ (n : Fin 100000) (j : Fin 128), i = ix2 n j := ⟨i 0, i 1, eq_ix2 i⟩
  unfold ref1 dense1
  simp only [Host.dotGeneral]
  rw [Ideal.dotGeneral_apply, ← Equiv.sum_comp (contrEquiv1 Cert.ReferenceIdeal.dot_S100000x64_S64x128_S100000x128_1_0_0_1_n_n 64 rfl rfl).symm]
  refine Finset.sum_congr rfl fun k _ => ?_
  have hk := contrEquiv1_symm_val Cert.ReferenceIdeal.dot_S100000x64_S64x128_S100000x128_1_0_0_1_n_n 64 rfl rfl k
  have el : Cert.ReferenceIdeal.dot_S100000x64_S64x128_S100000x128_1_0_0_1_n_n.lhsIdx (ix2 n j) ((contrEquiv1 Cert.ReferenceIdeal.dot_S100000x64_S64x128_S100000x128_1_0_0_1_n_n 64 rfl rfl).symm k) = ix2 n k := funext fun a => Fin.ext (by
    match a with
    | ⟨0, _⟩ => exact Cert.ReferenceIdeal.ReadP.lhs_main_v48_0 _ _
    | ⟨1, _⟩ => exact (Cert.ReferenceIdeal.ReadP.lhs_main_v48_1 _ _).trans hk)
  have er : Cert.ReferenceIdeal.dot_S100000x64_S64x128_S100000x128_1_0_0_1_n_n.rhsIdx (ix2 n j) ((contrEquiv1 Cert.ReferenceIdeal.dot_S100000x64_S64x128_S100000x128_1_0_0_1_n_n 64 rfl rfl).symm k) = ix2 k j := funext fun a => Fin.ext (by
    match a with
    | ⟨0, _⟩ => exact (Cert.ReferenceIdeal.ReadP.rhs_main_v48_0 _ _).trans hk
    | ⟨1, _⟩ => exact Cert.ReferenceIdeal.ReadP.rhs_main_v48_1 _ _)
  rw [el, er]
  show max (s (ix2 n k) + broadcastInDim Cert.ReferenceIdeal.S100000x64 ![0, 1] Cert.ReferenceIdeal.Facts₀.bcast_S1x64_S100000x64_0_1 b (ix2 n k)) (Cert.ReferenceIdeal.ReadP.val_main_call1_v0 (F := Ideal) (ix2 n k)) * w (ix2 k j) = _
  rw [refbias1_apply, Cert.ReferenceIdeal.ReadP.val_main_call1_v0_apply, Cert.ReferenceIdeal.ReadP.val_main_call1_cst_apply]
  show max _ (Ideal.ofBits .f32 0x00000000#32) * _ = _
  rw [Ideal.ofBits_zero_f32]

/-- The region's output array after its run is the reference's stage of the arrays the region found. -/
theorem final1 (c : Dev nD) : (dat1 V c).arrAt 3 cfg1.N = ref1 (V c main_v43) (V c main_v44) (V c main_arg5) :=
  (final1_dense V c).trans (ref1_eq_dense _ _ _).symm

end Cert.Value

end
-- ==== Proof.Value.Val2.lean ====
/-
  The third dense stage, read as mathematics at the exact extended-real values: the array the region leaves in
  its output window is, entry (n, j), the sum over k of max(s[n,k] + b[0,k], 0) · w[k,j], where s is the region's
  input array (100000 × 128), b the bias row and w the weights; and that is what the reference's bias-add, clamp at
  zero and matrix product compute from the same three arrays.
-/
import proofs.«408481_j1683627180174_2_alg».proof.Proof.KernelIdeal.Reg2
import proofs.«408481_j1683627180174_2_alg».proof.Proof.RefReadP
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Value

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The body's stored value at an entry -/

theorem lhs_k2_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_k2_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_k2_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_k2_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The bias row broadcast down the rows, read at (p, k), is the row's entry k. -/
theorem bias2_apply (x1 : Vec Ideal S1x128 .f32) (p : Fin 10000) (k : Fin 128) :
    broadcastTo S10000x128 x1 broadcasts_S1x128_S10000x128 (ix2 p k) = x1 (ix2 0 k) :=
  broadcastTo_apply x1 broadcasts_S1x128_S10000x128 (ix2 p k) (ix2 0 k) (fun a => match a with
    | ⟨0, _⟩ => by show (0 : Nat) = if (1 : Nat) = 1 then 0 else _; rw [if_pos rfl]
    | ⟨1, _⟩ => by show k.val = if (128 : Nat) = 1 then 0 else k.val; rw [if_neg (by decide)])

/-- Entry (p, q) of the value the body stores: the sum over k of the clamped biased input at (p, k) times the weight at (k, q). -/
theorem pay2_apply (x0 : Vec Ideal S10000x128 .f32) (x1 : Vec Ideal S1x128 .f32) (x2 : Vec Ideal S128x128 .f32) (p : Fin 10000) (q : Fin 128) :
    k2_pay1 (F := Ideal) x0 x1 x2 (ix2 p q) = ∑ k : Fin 128, max (x0 (ix2 p k) + x1 (ix2 0 k)) 0 * x2 (ix2 k q) := by
  unfold k2_pay1
  refine (Ideal.matmul_constant_zero_apply dot_S10000x128_S128x128_S10000x128_1_0_0_1_n_n none _ _ (ix2 p q)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_k2_0 _ _
    | ⟨1, _⟩ => exact (lhs_k2_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs_k2_0 _ _).trans hk
    | ⟨1, _⟩ => exact rhs_k2_1 _ _)
  rw [el, er]
  show max (shapeCast S10000x128 x0 shapeCasts_S10000x128_S10000x128 (ix2 p k) + broadcastTo S10000x128 (shapeCast S1x128 x1 shapeCasts_S1x128_S1x128) broadcasts_S1x128_S10000x128 (ix2 p k)) (Ideal.ofBits .f32 0x00000000#32) * x2 (ix2 k q) = _
  rw [shapeCast_self, shapeCast_self, bias2_apply, Ideal.ofBits_zero_f32]

/-! ## The stage as one function of the three arrays -/

theorem zero_off2 : (![0, 0] : Fin 2 → Nat) = fun _ => 0 := funext fun a => by fin_cases a <;> rfl

/-- Entry (n, j) of the dense stage on whole arrays: the sum over k of max(s[n,k] + b[0,k], 0) · w[k,j]. -/
def dense2 (s : FVec Ideal S100000x128 .f32) (b : FVec Ideal S1x128 .f32) (w : FVec Ideal S128x128 .f32) :
    FVec Ideal S100000x128 .f32 :=
  fun i => ∑ k : Fin 128, max (s (ix2 (i 0) k) + b (ix2 0 k)) 0 * w (ix2 k (i 1))

theorem idx_facts2 : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem flushed2_eq (c : Dev nD) (t : Fin cfg2.N) :
    (dat2 V c).flushed 3 t = ((cfg2.win 3).blk t).view.read (Elt Ideal) (dense2 (V c main_v73) (V c main_v74) (V c main_arg7)) := by
  show (cfg2.win 3).cut (grid2.coords t) ((dat2 V c).after 3 t) = _
  rw [after2_3]
  unfold out2_3
  rw [View.canon_unit_zero zero_off2]
  simp only [View.ld_unit_zero (S := S10000x128) zero_off2, View.ld_unit_zero (S := S1x128) zero_off2, View.ld_unit_zero (S := S128x128) zero_off2]
  funext y
  obtain ⟨p, q, rfl⟩ : ∃ (p : Fin 10000) (q : Fin 128), y = ix2 p q := ⟨y 0, y 1, eq_ix2 y⟩
  refine (pay2_apply (iblk2 V c 0 t) (iblk2 V c 1 t) (iblk2 V c 2 t) p q).trans ?_
  show _ = dense2 (V c main_v73) (V c main_v74) (V c main_arg7) (((cfg2.win 3).blk t).view.emb (ix2 p q))
  unfold dense2
  obtain ⟨e0, e1, e2, e3, e4, e5, e6, e7⟩ := idx_facts2 t
  refine Finset.sum_congr rfl fun k _ => ?_
  have h0 : iblk2 V c 0 t (ix2 p k) = V c main_v73 (ix2 ((((cfg2.win 3).blk t).view.emb (ix2 p q)) 0) k) := by
    show V c main_v73 (((cfg2.win 0).blk t).view.emb (ix2 p k)) = _
    refine congrArg (V c main_v73) (funext fun a => Fin.ext ?_)
    match a with
    | ⟨0, _⟩ => show win2_0.index t (0 : Fin 2) * 10000 + 1 * p.val = win2_3.index t (0 : Fin 2) * 10000 + 1 * p.val; omega
    | ⟨1, _⟩ => show win2_0.index t (1 : Fin 2) * 128 + 1 * k.val = k.val; omega
  have h1 : iblk2 V c 1 t (ix2 0 k) = V c main_v74 (ix2 0 k) := by
    show V c main_v74 (((cfg2.win 1).blk t).view.emb (ix2 0 k)) = _
    refine congrArg (V c main_v74) (funext fun a => Fin.ext ?_)
    match a with
    | ⟨0, _⟩ => show win2_1.index t (0 : Fin 2) * 1 + 1 * 0 = 0; omega
    | ⟨1, _⟩ => show win2_1.index t (1 : Fin 2) * 128 + 1 * k.val = k.val; omega
  have h2 : iblk2 V c 2 t (ix2 k q) = V c main_arg7 (ix2 k ((((cfg2.win 3).blk t).view.emb (ix2 p q)) 1)) := by
    show V c main_arg7 (((cfg2.win 2).blk t).view.emb (ix2 k q)) = _
    refine congrArg (V c main_arg7) (funext fun a => Fin.ext ?_)
    match a with
    | ⟨0, _⟩ => show win2_2.index t (0 : Fin 2) * 128 + 1 * k.val = k.val; omega
    | ⟨1, _⟩ => show win2_2.index t (1 : Fin 2) * 128 + 1 * q.val = win2_3.index t (1 : Fin 2) * 128 + 1 * q.val; omega
  rw [h0, h1, h2]

/-- An index of the output array is in point `t`'s block iff each coordinate is in the block's range on its axis. -/
theorem mem_blk2 (t : Fin cfg2.N) (i : S100000x128.Idx) :
    i ∈ ((cfg2.win 3).blk t).view.set ↔ ∀ a : Fin 2, win2_3.index t a * S10000x128.size a ≤ (i a).val ∧ (i a).val < win2_3.index t a * S10000x128.size a + S10000x128.size a := by
  show i ∈ ((View.whole main_v75).slice (win2_3.rect t)).set ↔ _
  rw [View.set_slice_whole, Rect.mem_set_unit]
  exact Iff.rfl

/-- Every row of the output array lies in the block of the point numbered by the row's block of ten thousand. -/
theorem cover2 (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ : ∃ t : Fin cfg2.N, t.val = (i 0).val / 10000 := ⟨⟨(i 0).val / 10000, by rw [show cfg2.N = 10 from N_2]; omega⟩, rfl⟩
  obtain ⟨e0, e1, e2, e3, e4, e5, e6, e7⟩ := idx_facts2 t
  refine ⟨t, flush2_3 t, ?_⟩
  rw [mem_blk2]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 128 ≤ (i 1).val ∧ (i 1).val < win2_3.index t (1 : Fin 2) * 128 + 128; omega

/-- The output array after the region's run is the dense stage of the three arrays the region found. -/
theorem final2_dense (c : Dev nD) : (dat2 V c).arrAt 3 cfg2.N = dense2 (V c main_v73) (V c main_v74) (V c main_arg7) :=
  (dat2 V c).arrAt_eq_of_cover 3 (dense2 (V c main_v73) (V c main_v74) (V c main_arg7)) (fun t _ => flushed2_eq V c t) cover2

/-! ## The reference's stage is the same function -/

/-- The reference's third dense stage as a function of its three operands: relu (s + bias row) times the weights. -/
def ref2 (s : FVec Ideal Cert.ReferenceIdeal.S100000x128 .f32) (b : FVec Ideal Cert.ReferenceIdeal.S1x128 .f32) (w : FVec Ideal Cert.ReferenceIdeal.S128x128 .f32) :
    FVec Ideal Cert.ReferenceIdeal.S100000x128 .f32 :=
  Host.dotGeneral Cert.ReferenceIdeal.dot_S100000x128_S128x128_S100000x128_1_0_0_1_n_n none
    (maximumf (addf s (broadcastInDim Cert.ReferenceIdeal.S100000x128 ![0, 1] Cert.ReferenceIdeal.Facts₀.bcast_S1x128_S100000x128_0_1 b))
      (Cert.ReferenceIdeal.ReadP.val_main_call2_v0 (F := Ideal))) w

/-- The bias row broadcast to the whole array, read at (n, k), is the row's entry k. -/
theorem refbias2_apply (b : FVec Ideal Cert.ReferenceIdeal.S1x128 .f32) (n : Fin 100000) (k : Fin 128) :
    broadcastInDim Cert.ReferenceIdeal.S100000x128 ![0, 1] Cert.ReferenceIdeal.Facts₀.bcast_S1x128_S100000x128_0_1 b (ix2 n k) = b (ix2 0 k) :=
  broadcastInDim_apply _ Cert.ReferenceIdeal.Facts₀.bcast_S1x128_S100000x128_0_1 b (ix2 n k) (ix2 0 k) (fun a => match a with
    | ⟨0, _⟩ => by show (0 : Nat) = if (1 : Nat) = 1 then 0 else n.val; rw [if_pos rfl]
    | ⟨1, _⟩ => by show k.val = if (128 : Nat) = 1 then 0 else k.val; rw [if_neg (by decide)])

theorem ref2_eq_dense (s : FVec Ideal Cert.ReferenceIdeal.S100000x128 .f32) (b : FVec Ideal Cert.ReferenceIdeal.S1x128 .f32) (w : FVec Ideal Cert.ReferenceIdeal.S128x128 .f32) :
    ref2 s b w = dense2 s b w := by
  funext i
  obtain ⟨n, j, rfl⟩ : ∃ (n : Fin 100000) (j : Fin 128), i = ix2 n j := ⟨i 0, i 1, eq_ix2 i⟩
  unfold ref2 dense2
  simp only [Host.dotGeneral]
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 n j) ((contrEquiv1 Cert.ReferenceIdeal.dot_S100000x128_S128x128_S100000x128_1_0_0_1_n_n 128 rfl rfl).symm k) = ix2 n k := funext fun a => Fin.ext (by
    match a with
    | ⟨0, _⟩ => exact Cert.ReferenceIdeal.ReadP.lhs_main_v81_0 _ _
    | ⟨1, _⟩ => exact (Cert.ReferenceIdeal.ReadP.lhs_main_v81_1 _ _).trans hk)
  have er : Cert.ReferenceIdeal.dot_S100000x128_S128x128_S100000x128_1_0_0_1_n_n.rhsIdx (ix2 n j) ((contrEquiv1 Cert.ReferenceIdeal.dot_S100000x128_S128x128_S100000x128_1_0_0_1_n_n 128 rfl rfl).symm k) = ix2 k j := funext fun a => Fin.ext (by
    match a with
    | ⟨0, _⟩ => exact (Cert.ReferenceIdeal.ReadP.rhs_main_v81_0 _ _).trans hk
    | ⟨1, _⟩ => exact Cert.ReferenceIdeal.ReadP.rhs_main_v81_1 _ _)
  rw [el, er]
  show max (s (ix2 n k) + broadcastInDim Cert.ReferenceIdeal.S100000x128 ![0, 1] Cert.ReferenceIdeal.Facts₀.bcast_S1x128_S100000x128_0_1 b (ix2 n k)) (Cert.ReferenceIdeal.ReadP.val_main_call2_v0 (F := Ideal) (ix2 n k)) * w (ix2 k j) = _
  rw [refbias2_apply, Cert.ReferenceIdeal.ReadP.val_main_call2_v0_apply, Cert.ReferenceIdeal.ReadP.val_main_call2_cst_apply]
  show max _ (Ideal.ofBits .f32 0x00000000#32) * _ = _
  rw [Ideal.ofBits_zero_f32]

/-- The region's output array after its run is the reference's stage of the arrays the region found. -/
theorem final2 (c : Dev nD) : (dat2 V c).arrAt 3 cfg2.N = ref2 (V c main_v73) (V c main_v74) (V c main_arg7) :=
  (final2_dense V c).trans (ref2_eq_dense _ _ _).symm

end Cert.Value

end
-- ==== Proof.Value.Val3.lean ====
/-
  The value of the fourth pallas_call's output array at the exact instance (a float is an extended real): after the
  region's run the array holds at every entry (n, j) the input entry s3[n, j] plus the bias entry b[0, j], which is the
  reference's bias addition `ref3` of the two arrays as the region finds them. Row n is computed in row block n / 10000,
  at row n mod 10000 of that block; the ten row blocks tile the array, so every entry is written once.
-/
import proofs.«408481_j1683627180174_2_alg».proof.Proof.KernelIdeal.Reg3
import proofs.«408481_j1683627180174_2_alg».proof.Proof.RefReadP
import Idealize.ShloMosaic.Lib.Pipeline.Value
import Idealize.ShloMosaic.Lib.ValueIdx
import Idealize.ShloMosaic.Lib.ValueLayout

set_option maxRecDepth 16384
noncomputable section
namespace Cert.Value
open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)
variable (V : (c : Dev nD) → (b : Ref sig .tc) → Buf (Elt Ideal) ((c : Thread nD τ).loc b))

/-- The reference's bias addition as a function of its two operands: the 1×128 row added to every row. -/
def ref3 (s : FVec Ideal Cert.ReferenceIdeal.S100000x128 .f32) (b : FVec Ideal Cert.ReferenceIdeal.S1x128 .f32) :
    FVec Ideal Cert.ReferenceIdeal.S100000x128 .f32 :=
  addf s (broadcastInDim Cert.ReferenceIdeal.S100000x128 ![0, 1] Cert.ReferenceIdeal.Facts₀.bcast_S1x128_S100000x128_0_1 b)

/-- The bias entry that is added at entry `i` of the whole array: row 0, the column of `i`. -/
abbrev biasAt3 (i : Cert.ReferenceIdeal.S100000x128.Idx) : Cert.ReferenceIdeal.S1x128.Idx := fun a => match a with
  | ⟨0, _⟩ => ⟨0, Nat.one_pos⟩
  | ⟨1, _⟩ => ⟨(i 1).val, (i 1).isLt⟩

/-- The bias entry that is added at entry `j` of a row block: row 0, the column of `j`. -/
abbrev biasAtBlk3 (j : S10000x128.Idx) : S1x128.Idx := fun a => match a with
  | ⟨0, _⟩ => ⟨0, Nat.one_pos⟩
  | ⟨1, _⟩ => ⟨(j 1).val, (j 1).isLt⟩

/-- Entry `i` of the reference's bias addition: the operand's entry plus the bias entry of the same column. -/
theorem ref3_apply (s : FVec Ideal Cert.ReferenceIdeal.S100000x128 .f32) (b : FVec Ideal Cert.ReferenceIdeal.S1x128 .f32)
    (i : Cert.ReferenceIdeal.S100000x128.Idx) : ref3 s b i = s i + b (biasAt3 i) := by
  unfold ref3
  show s i + broadcastInDim Cert.ReferenceIdeal.S100000x128 ![0, 1] Cert.ReferenceIdeal.Facts₀.bcast_S1x128_S100000x128_0_1 b i = _
  exact congrArg (s i + ·) (broadcastInDim_apply _ Cert.ReferenceIdeal.Facts₀.bcast_S1x128_S100000x128_0_1 b i (biasAt3 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)]))

/-- Entry `j` of what the body stores: the loaded block's entry plus the bias entry of the same column (the two shape
    casts are to the same shape; the broadcast repeats the one bias row down the block's rows). -/
theorem pay3_apply (x0 : Vec Ideal S10000x128 .f32) (x1 : Vec Ideal S1x128 .f32) (j : S10000x128.Idx) :
    k3_pay1 x0 x1 j = x0 j + x1 (biasAtBlk3 j) := by
  unfold k3_pay1
  show shapeCast S10000x128 x0 shapeCasts_S10000x128_S10000x128 j
      + broadcastTo S10000x128 (shapeCast S1x128 x1 shapeCasts_S1x128_S1x128) broadcasts_S1x128_S10000x128 j = _
  rw [shapeCast_self x0, shapeCast_self x1]
  exact congrArg (x0 j + ·) (broadcastTo_apply x1 broadcasts_S1x128_S10000x128 j (biasAtBlk3 j) (fun a => match a with
    | ⟨0, _⟩ => by show 0 = if (1 : Nat) = 1 then 0 else _; rw [if_pos rfl]
    | ⟨1, _⟩ => by show (j 1).val = if (128 : Nat) = 1 then 0 else _; rw [if_neg (by decide)]; rfl))

/-- One entry of a block against one entry of the array: when the loaded block's entry `j` is the operand's entry `i`
    and the two bias entries agree, the body's stored entry is the reference's. -/
theorem block_entry3 (s : FVec Ideal Cert.ReferenceIdeal.S100000x128 .f32) (b : FVec Ideal Cert.ReferenceIdeal.S1x128 .f32)
    (x0 : Vec Ideal S10000x128 .f32) (x1 : Vec Ideal S1x128 .f32) (j : S10000x128.Idx) (i : Cert.ReferenceIdeal.S100000x128.Idx)
    (h0 : x0 j = s i) (h1 : x1 (biasAtBlk3 j) = b (biasAt3 i)) : k3_pay1 x0 x1 j = ref3 s b i := by
  rw [pay3_apply, ref3_apply, h0, h1]

theorem zero_off3 : (![0, 0] : Fin 2 → Nat) = fun _ => 0 := funext fun a => by fin_cases a <;> rfl

/-- The block indices over the ten grid points: the input's row block moves with the output's, the bias block stays
    at the origin, and the output's row-block index is at most 9 with column-block index 0. -/
theorem idx_facts3 : ∀ t : Fin cfg3.N, win3_0.index t (0 : Fin 2) = win3_2.index t (0 : Fin 2)
    ∧ win3_0.index t (1 : Fin 2) = win3_2.index t (1 : Fin 2)
    ∧ win3_1.index t (0 : Fin 2) = 0
    ∧ win3_1.index t (1 : Fin 2) = 0
    ∧ win3_2.index t (0 : Fin 2) ≤ 9
    ∧ win3_2.index t (1 : Fin 2) = 0 :=
  (by decide +kernel : ∀ t : Fin grid3.N, _)

/-- Every one of the ten row blocks is some grid point's. -/
theorem idx_onto3 : ∀ q : Fin 10, ∃ t : Fin cfg3.N, win3_2.index t = ![q.val, 0] :=
  (by decide +kernel : ∀ q : Fin 10, ∃ t : Fin grid3.N, win3_2.index t = ![q.val, 0])

/-- What grid point `t` writes back is row block `t` of the reference's bias addition of the two arrays. -/
theorem flushed3_eq (c : Dev nD) (t : Fin cfg3.N) :
    (dat3 V c).flushed 2 t = ((cfg3.win 2).blk t).view.read (Elt Ideal) (ref3 (V c main_v103) (V c main_v104)) := by
  show (cfg3.win 2).cut (grid3.coords t) ((dat3 V c).after 2 t) = _
  rw [after3_2]
  unfold out3_2
  rw [View.canon_unit_zero zero_off3]
  simp only [View.ld_unit_zero (S := S10000x128) zero_off3, View.ld_unit_zero (S := S1x128) zero_off3]
  obtain ⟨e0, e1, e2, e3, e4, e5⟩ := idx_facts3 t
  funext j
  show k3_pay1 (iblk3 V c 0 t) (iblk3 V c 1 t) j = ref3 (V c main_v103) (V c main_v104) (((cfg3.win 2).blk t).view.emb j)
  refine block_entry3 (V c main_v103) (V c main_v104) (iblk3 V c 0 t) (iblk3 V c 1 t) j (((cfg3.win 2).blk t).view.emb j) ?_ ?_
  · show V c main_v103 (((cfg3.win 0).blk t).view.emb j) = V c main_v103 (((cfg3.win 2).blk t).view.emb j)
    refine congrArg _ (funext fun a => Fin.ext ?_)
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 128 + 1 * (j 1).val = win3_2.index t (1 : Fin 2) * 128 + 1 * (j 1).val; omega
  · show V c main_v104 (((cfg3.win 1).blk t).view.emb (biasAtBlk3 j)) = V c main_v104 (biasAt3 (((cfg3.win 2).blk t).view.emb j))
    refine congrArg _ (funext fun a => Fin.ext ?_)
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega

/-- An entry of the array is in grid point `t`'s block iff each coordinate is in the block's range on its axis. -/
theorem mem_blk3 (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v105).slice (win3_2.rect t)).set ↔ _
  rw [View.set_slice_whole, Rect.mem_set_unit]
  exact Iff.rfl

/-- Every entry (n, j) of the array is in the block of the grid point whose row block is n / 10000, and that point writes back. -/
theorem cover3 (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := idx_onto3 ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 128 ≤ (i 1).val ∧ (i 1).val < win3_2.index t (1 : Fin 2) * 128 + 128; omega

/-- The output array after the region's run is the reference's bias addition of the two arrays the region finds. -/
theorem final3 (c : Dev nD) : (dat3 V c).arrAt 2 cfg3.N = ref3 (V c main_v103) (V c main_v104) :=
  (dat3 V c).arrAt_eq_of_cover 2 (ref3 (V c main_v103) (V c main_v104)) (fun t _ => flushed3_eq V c t) cover3

end Cert.Value

end
-- ==== Proof.LibRowOps.lean ====
/-
  Host row operations read at an index, over the extended reals and arbitrary sizes: a scatter-add of E scalars
  into a vector of length N, a scatter-add of E rows into an N x C table, a gather of E rows out of an N x C table,
  and a one-row dynamic slice of an N x C table. A scatter index is read signed and not clamped (an update whose
  index is outside 0..N-1 lands nowhere); a gather or slice start is read signed and clamped into 0..N-1.
-/
import Idealize.ShloMosaic.PureOps.Ideal
import Idealize.ShloMosaic.Lib.ValueIdx

noncomputable section

namespace Cert.LibRowOps

open Idealize.ShloMosaic Idealize.ShloMosaic.ValueIdx

/-- The row a clamped signed start z selects in a table of N rows. -/
def clampRow (N : Nat) (hN : 0 < N) (z : Int) : Fin N := ⟨(min (max z 0) ((N - 1 : Nat) : Int)).toNat, by omega⟩

/-- A rank-1 index set is its coordinate range, so a sum over it is the sum over the coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, ix1, fun i => (eq_ix1 i).symm, fun _ => rfl⟩ _ _ fun i => ?_
  exact congrArg f (eq_ix1 i)

/-- An update lands at operand index i exactly when, on every operand axis, its signed start plus its window
    coordinate is i's coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hh a
      rw [← hh]
      exact (Int.toNat_of_nonneg (h a).1).symm
    · intro hh
      funext a
      refine Fin.ext ?_
      show (d.start j idx a + (d.window j a : ℤ)).toNat = (i a).val
      rw [hh a]; rfl
  · rename_i h
    constructor
    · intro hh; cases hh
    · intro hh
      refine absurd (fun a => ?_) h
      rw [hh a]
      exact ⟨Int.natCast_nonneg _, by exact_mod_cast (i a).isLt⟩

/-- Rank 1, one scatter axis and no window: an update lands at n exactly when its signed index is n. -/
theorem vec_resultIdx?_iff {N E w : Nat} (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1) (idx : IVec ⟨2, ![E, 1]⟩ w) (e : Fin E) (n : Fin N) :
    d.resultIdx? (ix1 e) idx = some (ix1 n) ↔ (idx (ix2 e 0)).toInt = (n.val : ℤ) := by
  obtain ⟨uw, iw, sd, iv, wf⟩ := d
  simp only at hu hi hs hv
  subst hu hi hs hv
  rw [resultIdx?_eq_some_iff, Fin.forall_fin_one]
  have hstart : (ScatterDims.mk (s := ⟨1, ![N]⟩) (si := ⟨2, ![E, 1]⟩) (u := ⟨1, ![E]⟩) [] [0] [0] 1 wf).start (ix1 e) idx 0
      = (idx (ix2 e 0)).toInt := by
    unfold ScatterDims.start
    rw [dif_pos (List.mem_singleton.mpr rfl)]
    congr 2
    funext b
    refine Fin.ext ?_
    match b with
    | ⟨0, _⟩ => rfl
    | ⟨1, _⟩ => rfl
  have hwin : (ScatterDims.mk (s := ⟨1, ![N]⟩) (si := ⟨2, ![E, 1]⟩) (u := ⟨1, ![E]⟩) [] [0] [0] 1 wf).window (ix1 e) 0 = 0 := by
    unfold ScatterDims.window
    rw [dif_neg (by simp [Shape.kept])]
  rw [hstart, hwin]
  simp

/-- E scalars added into a vector of length N at signed, unclamped indices: entry n ends at its old value plus
    the updates whose index is n. -/
theorem scatterAdd_vec_apply {N E w : Nat} (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1)
    (x : (⟨1, ![N]⟩ : Shape).Idx → EReal) (idx : IVec ⟨2, ![E, 1]⟩ w) (upd : (⟨1, ![E]⟩ : Shape).Idx → EReal) (n : Fin N) :
    Ideal.hostScatterAdd d x idx upd (ix1 n)
      = x (ix1 n) + ∑ e : Fin E, (if (idx (ix2 e 0)).toInt = (n.val : ℤ) then upd (ix1 e) else 0) := by
  unfold Ideal.hostScatterAdd
  congr 1
  rw [Finset.sum_filter, sum_idx1]
  refine Finset.sum_congr rfl fun e _ => ?_
  simp only [vec_resultIdx?_iff d hu hi hs hv idx e n]

/-- Rank 2, one scatter axis (the rows) and one window axis (the columns): the update at row e, column f' lands
    at (n, f) exactly when f' = f and row e's signed index is n. -/
theorem rows_resultIdx?_iff {N C E w : Nat} (d : ScatterDims ⟨2, ![N, C]⟩ ⟨2, ![E, 1]⟩ ⟨2, ![E, C]⟩)
    (hu : d.updateWindowDims = [1]) (hi : d.insertedWindowDims = [0]) (hs : d.scatterDimsToOperandDims = [0])
    (hv : d.indexVectorDim = 1) (idx : IVec ⟨2, ![E, 1]⟩ w) (e : Fin E) (f' f : Fin C) (n : Fin N) :
    d.resultIdx? (ix2 e f') idx = some (ix2 n f) ↔ f' = f ∧ (idx (ix2 e 0)).toInt = (n.val : ℤ) := by
  obtain ⟨uw, iw, sd, iv, wf⟩ := d
  simp only at hu hi hs hv
  subst hu hi hs hv
  rw [resultIdx?_eq_some_iff, Fin.forall_fin_two]
  have hstart0 : (ScatterDims.mk (s := ⟨2, ![N, C]⟩) (si := ⟨2, ![E, 1]⟩) (u := ⟨2, ![E, C]⟩) [1] [0] [0] 1 wf).start
      (ix2 e f') idx 0 = (idx (ix2 e 0)).toInt := by
    unfold ScatterDims.start
    rw [dif_pos (List.mem_singleton.mpr rfl)]
    congr 2
    funext b
    refine Fin.ext ?_
    match b with
    | ⟨0, _⟩ => rfl
    | ⟨1, _⟩ => rfl
  have hwin0 : (ScatterDims.mk (s := ⟨2, ![N, C]⟩) (si := ⟨2, ![E, 1]⟩) (u := ⟨2, ![E, C]⟩) [1] [0] [0] 1 wf).window
      (ix2 e f') 0 = 0 := by
    unfold ScatterDims.window
    rw [dif_neg (by simp [Shape.kept])]
  have hstart1 : (ScatterDims.mk (s := ⟨2, ![N, C]⟩) (si := ⟨2, ![E, 1]⟩) (u := ⟨2, ![E, C]⟩) [1] [0] [0] 1 wf).start
      (ix2 e f') idx 1 = 0 := by
    unfold ScatterDims.start
    rw [dif_neg (by simp)]
  have hwin1 : (ScatterDims.mk (s := ⟨2, ![N, C]⟩) (si := ⟨2, ![E, 1]⟩) (u := ⟨2, ![E, C]⟩) [1] [0] [0] 1 wf).window
      (ix2 e f') 1 = f'.val := by
    unfold ScatterDims.window
    rw [dif_pos (by simp [Shape.kept, List.finRange])]
    rfl
  rw [hstart0, hwin0, hstart1, hwin1]
  show (idx (ix2 e 0)).toInt + ((0 : ℕ) : ℤ) = (n.val : ℤ) ∧ (0 : ℤ) + (f'.val : ℤ) = (f.val : ℤ) ↔ _
  rw [Fin.ext_iff]
  constructor
  · rintro ⟨h1, h2⟩; exact ⟨by omega, by omega⟩
  · rintro ⟨h1, h2⟩; exact ⟨by omega, by omega⟩

/-- E rows added into an N x C table at signed, unclamped row indices. -/
theorem scatterAdd_rows_apply {N C E w : Nat} (d : ScatterDims ⟨2, ![N, C]⟩ ⟨2, ![E, 1]⟩ ⟨2, ![E, C]⟩)
    (hu : d.updateWindowDims = [1]) (hi : d.insertedWindowDims = [0]) (hs : d.scatterDimsToOperandDims = [0])
    (hv : d.indexVectorDim = 1)
    (x : (⟨2, ![N, C]⟩ : Shape).Idx → EReal) (idx : IVec ⟨2, ![E, 1]⟩ w) (upd : (⟨2, ![E, C]⟩ : Shape).Idx → EReal)
    (n : Fin N) (f : Fin C) :
    Ideal.hostScatterAdd d x idx upd (ix2 n f)
      = x (ix2 n f) + ∑ e : Fin E, (if (idx (ix2 e 0)).toInt = (n.val : ℤ) then upd (ix2 e f) else 0) := by
  unfold Ideal.hostScatterAdd
  congr 1
  rw [Finset.sum_filter, sum_idx2]
  refine Finset.sum_congr rfl fun e _ => ?_
  simp only [rows_resultIdx?_iff d hu hi hs hv idx e _ f n]
  rw [Finset.sum_eq_single f]
  · simp
  · intro f' _ hne
    rw [if_neg (fun h => hne h.1)]
  · intro h; exact absurd (Finset.mem_univ f) h

/-- E rows gathered out of an N x C table: row e of the result is the table's row at the clamped signed index. -/
theorem gather_rows_apply {α : Type} {N C E w : Nat} (hN : 0 < N) (d : GatherDims ⟨2, ![N, C]⟩ ⟨2, ![E, 1]⟩ ⟨2, ![E, C]⟩)
    (ho : d.offsetDims = [1]) (hc : d.collapsedSliceDims = [0]) (hb : d.operandBatchingDims = [])
    (hsb : d.startIndicesBatchingDims = []) (hm : d.startIndexMap = [0]) (hv : d.indexVectorDim = 1)
    (hsz : d.sliceSizes = ![1, C])
    (x : (⟨2, ![N, C]⟩ : Shape).Idx → α) (idx : IVec ⟨2, ![E, 1]⟩ w) (e : Fin E) (f : Fin C) :
    Host.gather d x idx (ix2 e f) = x (ix2 (clampRow N hN (idx (ix2 e 0)).toInt) f) := by
  obtain ⟨od, cd, ob, sb, sm, iv, ss, wf⟩ := d
  simp only at ho hc hb hsb hm hv hsz
  subst ho hc hb hsb hm hv hsz
  unfold Host.gather
  congr 1
  funext a
  refine Fin.ext ?_
  show GatherDims.start _ (ix2 e f) idx a + GatherDims.batchCoord _ (ix2 e f) a + GatherDims.offCoord _ (ix2 e f) a = _
  rw [GatherDims.batchCoord_eq_zero _ _ _ List.not_mem_nil, Nat.add_zero]
  revert a
  rw [Fin.forall_fin_two]
  refine ⟨?_, ?_⟩
  · rw [GatherDims.offCoord_eq_zero _ _ _ (fun h => ((GatherDims.mem_sKept _ _).mp h).1 (List.mem_singleton.mpr rfl)),
      Nat.add_zero]
    unfold GatherDims.start
    rw [dif_pos (List.mem_singleton.mpr rfl)]
    have hsi : ∀ c, GatherDims.siIdx (s := ⟨2, ![N, C]⟩) (si := ⟨2, ![E, 1]⟩) (t := ⟨2, ![E, C]⟩)
        ⟨[1], [0], [], [], [0], 1, ![1, C], wf⟩ (ix2 e f) c = ix2 e 0 := by
      intro c
      funext b; refine Fin.ext ?_
      match b with
      | ⟨0, _⟩ => rfl
      | ⟨1, _⟩ => exact Nat.lt_one_iff.mp c.isLt
    rw [hsi]
    show min (idx (ix2 e 0)).toInt.toNat (N - 1) = (min (max (idx (ix2 e 0)).toInt 0) ((N - 1 : Nat) : Int)).toNat
    omega
  · unfold GatherDims.start
    rw [dif_neg (by simp), Nat.zero_add]
    rfl

/-- A one-row dynamic slice of an N x C table whose column start is 0: the row at the clamped signed start. -/
theorem dynamicSlice_row_apply {α : Type} {N C : Nat} (hN : 0 < N) (x : (⟨2, ![N, C]⟩ : Shape).Idx → α) (start : Fin 2 → Int)
    (h0 : start 1 = 0) (h : (⟨2, ![N, C]⟩ : Shape).Slices (fun _ => 0) ⟨2, ![1, C]⟩) (f : Fin C) :
    Host.dynamicSlice (s := ⟨2, ![N, C]⟩) ⟨2, ![1, C]⟩ x start h (ix2 0 f) = x (ix2 (clampRow N hN (start 0)) f) := by
  show x _ = x _
  congr 1
  funext a
  refine Fin.ext ?_
  match a with
  | ⟨0, _⟩ =>
    show (min (max (start 0) 0) ((N - 1 : Nat) : Int)).toNat + 0 = (min (max (start 0) 0) ((N - 1 : Nat) : Int)).toNat
    rfl
  | ⟨1, _⟩ =>
    show (min (max (start 1) 0) ((C - C : Nat) : Int)).toNat + f.val = f.val
    rw [h0]; simp

end Cert.LibRowOps

end
-- ==== Proof.Value.Val4.lean ====
/-
  The value of the pooling region's output. The region runs over ten row blocks of 10000 nodes. At each block it
  builds the 0/1 matrix whose entry (r, g) says whether node r of the block belongs to graph g, multiplies its
  transpose with the block's node features, and adds the product into a 128 × 128 accumulator that is cleared before
  the first block; the accumulator is copied to the output after the last block. So entry (g, k) of the output is the
  sum, over all 100000 nodes whose graph id is g, of the node's feature k, which is what the reference's scatter-add
  of the feature rows into a zero table at the graph ids computes. On the extended reals 1 · x = x and 0 · x = 0 for
  every x, so no finiteness of the features is needed. A graph id outside 0 … 127 matches no column of the 0/1 matrix
  and lands nowhere in the scatter-add.
-/
import proofs.«408481_j1683627180174_2_alg».proof.Proof.KernelIdeal.Reg4Defs
import proofs.«408481_j1683627180174_2_alg».proof.Proof.RefReadP
import proofs.«408481_j1683627180174_2_alg».proof.Proof.LibRowOps
import Idealize.ShloMosaic.Lib.Pipeline.Value
import Idealize.ShloMosaic.Lib.ValueIdx
import Idealize.ShloMosaic.Lib.ValueLayout
import Idealize.ShloMosaic.PureOps.Ideal.Laws
import Idealize.ShloMosaic.Lib.WordArith

set_option maxRecDepth 16384
noncomputable section
namespace Cert.Value
open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)
variable (V : (c : Dev nD) → (b : Ref sig .tc) → Buf (Elt Ideal) ((c : Thread nD τ).loc b))

/-! ## The pooling product read at an index

The product contracts the ROW axis of both operands: entry (g, k) of the result is the sum over the 10000 rows r of
the left operand at (r, g) times the right operand at (r, k). -/

theorem lhs_pool_0 (i : S128x128.Idx) (q : dot_S10000x128_S10000x128_S128x128_0_0_1_1_n_n.contr.Idx) :
    (dot_S10000x128_S10000x128_S128x128_0_0_1_1_n_n.lhsIdx i q 0).val = (q ⟨0, by decide⟩).val :=
  dot_S10000x128_S10000x128_S128x128_0_0_1_1_n_n.lhsIdx_val_of_single rfl i q
theorem lhs_pool_1 (i : S128x128.Idx) (q : dot_S10000x128_S10000x128_S128x128_0_0_1_1_n_n.contr.Idx) :
    (dot_S10000x128_S10000x128_S128x128_0_0_1_1_n_n.lhsIdx i q 1).val = (i 0).val := by
  unfold DotDims.lhsIdx
  rw [dif_neg (show ¬(1 : Fin S10000x128.rank) ∈ dot_S10000x128_S10000x128_S128x128_0_0_1_1_n_n.lhsBatch by decide), dif_pos (show (1 : Fin S10000x128.rank) ∈ dot_S10000x128_S10000x128_S128x128_0_0_1_1_n_n.lhsNonContracting by decide)]
  rfl
theorem rhs_pool_0 (i : S128x128.Idx) (q : dot_S10000x128_S10000x128_S128x128_0_0_1_1_n_n.contr.Idx) :
    (dot_S10000x128_S10000x128_S128x128_0_0_1_1_n_n.rhsIdx i q 0).val = (q ⟨0, by decide⟩).val :=
  dot_S10000x128_S10000x128_S128x128_0_0_1_1_n_n.rhsIdx_val_of_single rfl i q
theorem rhs_pool_1 (i : S128x128.Idx) (q : dot_S10000x128_S10000x128_S128x128_0_0_1_1_n_n.contr.Idx) :
    (dot_S10000x128_S10000x128_S128x128_0_0_1_1_n_n.rhsIdx i q 1).val = (i 1).val := by
  unfold DotDims.rhsIdx
  rw [dif_neg (show ¬(1 : Fin S10000x128.rank) ∈ dot_S10000x128_S10000x128_S128x128_0_0_1_1_n_n.rhsBatch by decide), dif_pos (show (1 : Fin S10000x128.rank) ∈ dot_S10000x128_S10000x128_S128x128_0_0_1_1_n_n.rhsNonContracting by decide)]
  rfl

/-- The product into the zero accumulator, at (g, k): the sum over the rows. -/
theorem pool_matmul_apply (L : FVec Ideal S10000x128 .bf16) (R : FVec Ideal S10000x128 .bf16) (g k : Fin 128) :
    matmul dot_S10000x128_S10000x128_S128x128_0_0_1_1_n_n none L R (constant (F := Ideal) S128x128 .f32 0x00000000#32) (ix2 g k)
      = ∑ r : Fin 10000, L (ix2 r g) * R (ix2 r k) := by
  simp only [matmul]
  rw [Ideal.matmul_constant_zero_apply, ← Equiv.sum_comp (ValueIdx.contrEquiv1 dot_S10000x128_S10000x128_S128x128_0_0_1_1_n_n 10000 rfl rfl).symm]
  refine Finset.sum_congr rfl fun r _ => ?_
  have hk := ValueIdx.contrEquiv1_symm_val dot_S10000x128_S10000x128_S128x128_0_0_1_1_n_n 10000 rfl rfl r
  have el : dot_S10000x128_S10000x128_S128x128_0_0_1_1_n_n.lhsIdx (ix2 g k) ((ValueIdx.contrEquiv1 dot_S10000x128_S10000x128_S128x128_0_0_1_1_n_n 10000 rfl rfl).symm r) = ix2 r g := funext fun a => Fin.ext (by
    match a with
    | ⟨0, _⟩ => exact (lhs_pool_0 _ _).trans hk
    | ⟨1, _⟩ => exact lhs_pool_1 _ _)
  have er : dot_S10000x128_S10000x128_S128x128_0_0_1_1_n_n.rhsIdx (ix2 g k) ((ValueIdx.contrEquiv1 dot_S10000x128_S10000x128_S128x128_0_0_1_1_n_n 10000 rfl rfl).symm r) = ix2 r k := funext fun a => Fin.ext (by
    match a with
    | ⟨0, _⟩ => exact (rhs_pool_0 _ _).trans hk
    | ⟨1, _⟩ => exact rhs_pool_1 _ _)
  rw [el, er]

/-! ## The 0/1 matrix of a block -/

/-- The word the body selects at row r of block a and column g is 1 exactly when the row's graph id, read signed, is g:
    the row's number in the whole array, 10000 a + r, is below 100000 at every block, so the range test always passes,
    and a word equals the word of g (below 128) exactly when its signed value is g. -/
theorem onehot_word (a r g : ℕ) (ha : a < 10) (hr : r < 10000) (hg : g < 128) (x : BitVec 32) :
    Scalar.select (IntOp.andi (IntOp.cmpi .eq x (BitVec.ofNat 32 g))
        (IntOp.cmpi .slt (IntOp.addi (Scalar.muli (BitVec.ofNat 32 a) 10000#32) (BitVec.ofNat 32 r)) 100000#32)) (1#32) (0#32)
      = if x.toInt = (g : ℤ) then 1#32 else 0#32 := by
  have h1 : IntOp.cmpi .slt (IntOp.addi (Scalar.muli (BitVec.ofNat 32 a) 10000#32) (BitVec.ofNat 32 r)) 100000#32 = 1#1 := by
    have e : IntOp.addi (Scalar.muli (BitVec.ofNat 32 a) 10000#32) (BitVec.ofNat 32 r) = BitVec.ofNat 32 (a * 10000 + r) := by
      show BitVec.ofNat 32 a * BitVec.ofNat 32 10000 + BitVec.ofNat 32 r = _
      rw [← BitVec.ofNat_mul, ← BitVec.ofNat_add]
    rw [e]
    show BitVec.ofBool (BitVec.slt (BitVec.ofNat 32 (a * 10000 + r)) (BitVec.ofNat 32 100000)) = 1#1
    rw [WordArith.ofBool_eq_one_iff, BitVec.slt, decide_eq_true_eq, WordArith.toInt_ofNat_small _ (by omega), WordArith.toInt_ofNat_small _ (by omega)]
    omega
  rw [h1]
  by_cases hx : x = BitVec.ofNat 32 g
  · subst hx
    rw [if_pos (WordArith.toInt_ofNat_small g (by omega))]
    show Scalar.select (IntOp.andi (BitVec.ofBool (BitVec.ofNat 32 g == BitVec.ofNat 32 g)) 1#1) 1#32 0#32 = 1#32
    rw [beq_self_eq_true]; rfl
  · have hne : ¬ x.toInt = (g : ℤ) := fun h => hx (BitVec.eq_of_toInt_eq (h.trans (WordArith.toInt_ofNat_small g (by omega)).symm))
    rw [if_neg hne]
    show Scalar.select (IntOp.andi (BitVec.ofBool (x == BitVec.ofNat 32 g)) 1#1) 1#32 0#32 = 0#32
    rw [beq_eq_false_iff_ne.mpr hx]; rfl

/-- Converted to a float, the selected word is the extended real 1 or 0. -/
theorem onehot_real (p : Prop) [Decidable p] :
    (FloatOps.sitofp (F := Ideal) .bf16 (if p then 1#32 else 0#32) : EReal) = if p then 1 else 0 := by
  by_cases h : p
  · rw [if_pos h, if_pos h]; show (((1#32 : BitVec 32).toInt : ℝ) : EReal) = 1; simp
  · rw [if_neg h, if_neg h]; show (((0#32 : BitVec 32).toInt : ℝ) : EReal) = 0; simp

/-- A bitwise and, a comparison and a sum of integer vectors read at an index. -/
theorem andi_apply {s : Shape} {w : Nat} (x y : IVec s w) (i : s.Idx) : andi x y i = IntOp.andi (x i) (y i) := rfl
theorem cmpi_apply {s : Shape} {w : Nat} (p : CmpIPredicate) (x y : IVec s w) (i : s.Idx) : cmpi p x y i = IntOp.cmpi p (x i) (y i) := rfl
theorem addi_apply {s : Shape} {w : Nat} (x y : IVec s w) (i : s.Idx) : addi x y i = IntOp.addi (x i) (y i) := rfl

/-- THE 0/1 MATRIX of a block at (r, g): 1 if row r's graph id, read signed, is g, else 0. -/
theorem onehot_apply (i : grid4.Coords) (b : IVec S10000x1 32) (r : Fin 10000) (g : Fin 128) :
    (sitofp .bf16 (select (andi (cmpi .eq (broadcastTo S10000x128 (shapeCast S10000x1 b shapeCasts_S10000x1_S10000x1) broadcasts_S10000x1_S10000x128) (iota .tc S10000x128 32 [1] iota_S10000x128_d1_w32))
          (cmpi .slt (addi (broadcast S10000x128 (Scalar.muli (BitVec.ofNat 32 (i 0).val) 10000#32)) (iota .tc S10000x128 32 [0] iota_S10000x128_d0_w32)) (broadcast S10000x128 100000#32)))
        (broadcast S10000x128 1#32) (broadcast S10000x128 0#32)) : FVec Ideal S10000x128 .bf16) (ix2 r g)
      = if (b (ix2 r 0)).toInt = (g.val : ℤ) then 1 else 0 := by
  have ha : (i 0).val < 10 := (i 0).isLt
  have e1 : iota .tc S10000x128 32 [1] iota_S10000x128_d1_w32 (ix2 r g) = BitVec.ofNat 32 g.val := iota_single_apply _ _ _ _ _ _
  have e0 : iota .tc S10000x128 32 [0] iota_S10000x128_d0_w32 (ix2 r g) = BitVec.ofNat 32 r.val := iota_single_apply _ _ _ _ _ _
  have eb : broadcastTo S10000x128 (shapeCast S10000x1 b shapeCasts_S10000x1_S10000x1) broadcasts_S10000x1_S10000x128 (ix2 r g) = b (ix2 r 0) := by
    rw [shapeCast_self]
    exact broadcastTo_apply b _ (ix2 r g) (ix2 r 0) (fun a => match a with
      | ⟨0, _⟩ => by show r.val = if (10000 : ℕ) = 1 then 0 else r.val; rw [if_neg (by decide)]
      | ⟨1, _⟩ => by show (0 : ℕ) = if (1 : ℕ) = 1 then 0 else _; rw [if_pos rfl])
  rw [sitofp_apply, select_apply, andi_apply, cmpi_apply, cmpi_apply, addi_apply, e1, e0, eb]
  simp only [broadcast_apply]
  rw [onehot_word _ _ _ ha r.isLt g.isLt, onehot_real]

/-- THE BODY'S RESULT at (g, k): what the accumulator held there plus the sum, over the block's rows whose graph id
    is g, of the row's feature k (one times a value is the value and zero times a value is zero on the extended
    reals, whatever the value). -/
theorem pool_pay_apply (i : grid4.Coords) (b : Vec Ideal S10000x1 .i32) (h : Vec Ideal S10000x128 .f32) (s : Vec Ideal S128x128 .f32)
    (g k : Fin 128) :
    k4_pay2 i b h s (ix2 g k)
      = s (ix2 g k) + ∑ r : Fin 10000, (if (b (ix2 r 0)).toInt = (g.val : ℤ) then h (ix2 r k) else 0) := by
  unfold k4_pay2
  dsimp only
  refine (congrFun (shapeCast_self _ _) _).trans ?_
  refine (addf_apply _ _ _).trans ?_
  refine congrArg (s (ix2 g k) + ·) ?_
  refine (pool_matmul_apply _ _ g k).trans ?_
  refine Finset.sum_congr rfl fun r _ => ?_
  have eR : (truncf .bf16 (shapeCast S10000x128 h shapeCasts_S10000x128_S10000x128) bitsLt_bf16_f32 : FVec Ideal S10000x128 .bf16) (ix2 r k) = h (ix2 r k) :=
    congrFun (shapeCast_self h _) (ix2 r k)
  refine (congrArg₂ (· * ·) (onehot_apply i b r g) eR).trans ?_
  by_cases hc : (b (ix2 r 0)).toInt = (g.val : ℤ)
  · rw [if_pos hc, if_pos hc]; exact one_mul _
  · rw [if_neg hc, if_neg hc]; exact zero_mul _

/-- The cleared accumulator is zero everywhere. -/
theorem pool_clear_apply (j : S128x128.Idx) : k4_pay1 (F := Ideal) j = 0 := by
  unfold k4_pay1
  refine (congrFun (shapeCast_self _ _) _).trans ?_
  exact Ideal.ofBits_zero_f32

/-! ## The blocks of a grid point

At grid point t the node-feature block and the graph-id block are rows 10000 t … 10000 t + 9999 of their arrays; the
output block is the whole 128 × 128 array at every point. -/

/-- The printed index maps, decided over the ten grid points: the two input windows' row-block index is the point's
    number and their column-block index is 0; the output's block index is (0, 0). -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0 :=
  (by decide +kernel : ∀ t : Fin grid4.N, _)

theorem lt_ten (t : Fin cfg4.N) : t.val < 10 := lt_of_lt_of_eq t.isLt N_4

/-- Row r of the graph-id block at point t is row 10000 t + r of the graph ids. -/
theorem ids_block (c : Dev nD) (t : Fin cfg4.N) (r : Fin 10000) (hr : 10000 * t.val + r.val < 100000) :
    iblk4 V c 1 t (ix2 r 0) = V c main_v106 (ix2 ⟨10000 * t.val + r.val, hr⟩ 0) := by
  obtain ⟨e0, e1, e2, e3, e4, e5⟩ := idx_facts4 t
  show V c main_v106 (((cfg4.win 1).blk t).view.emb (ix2 r 0)) = V c main_v106 (ix2 ⟨10000 * t.val + r.val, hr⟩ 0)
  refine congrArg (V c main_v106) (funext fun a => Fin.ext ?_)
  match a with
  | ⟨0, _⟩ => show win4_1.index t (0 : Fin 2) * 10000 + 1 * r.val = 10000 * t.val + r.val; omega
  | ⟨1, _⟩ => show win4_1.index t (1 : Fin 2) * 1 + 1 * 0 = 0; omega

/-- Entry (r, k) of the node-feature block at point t is entry (10000 t + r, k) of the node features. -/
theorem feat_block (c : Dev nD) (t : Fin cfg4.N) (r : Fin 10000) (k : Fin 128) (hr : 10000 * t.val + r.val < 100000) :
    iblk4 V c 0 t (ix2 r k) = V c main_v105 (ix2 ⟨10000 * t.val + r.val, hr⟩ k) := by
  obtain ⟨e0, e1, e2, e3, e4, e5⟩ := idx_facts4 t
  show V c main_v105 (((cfg4.win 0).blk t).view.emb (ix2 r k)) = V c main_v105 (ix2 ⟨10000 * t.val + r.val, hr⟩ k)
  refine congrArg (V c main_v105) (funext fun a => Fin.ext ?_)
  match a with
  | ⟨0, _⟩ => show win4_0.index t (0 : Fin 2) * 10000 + 1 * r.val = 10000 * t.val + r.val; omega
  | ⟨1, _⟩ => show win4_0.index t (1 : Fin 2) * 128 + 1 * k.val = k.val; omega

/-! ## The accumulation

`poolTerm ids h g k e` is what row e of the whole array contributes to entry (g, k) of the pooled sum: feature k of the
row if the row's graph id, read signed, is g, else nothing (and nothing for a number e that is not a row). The
accumulator after point n holds, at (g, k), the contributions of the rows below 10000 (n + 1). -/

def poolTerm (ids : IVec S100000x1 32) (h : FVec Ideal S100000x128 .f32) (g k : Fin 128) (e : ℕ) : EReal :=
  if he : e < 100000 then (if (ids (ix2 ⟨e, he⟩ 0)).toInt = (g.val : ℤ) then h (ix2 ⟨e, he⟩ k) else 0) else 0

/-- The rows of block t, summed: the contributions of rows 10000 t … 10000 t + 9999. -/
theorem block_sum (c : Dev nD) (t : Fin cfg4.N) (g k : Fin 128) :
    ∑ r : Fin 10000, (if ((iblk4 V c 1 t : Vec Ideal S10000x1 .i32) (ix2 r 0)).toInt = (g.val : ℤ) then iblk4 V c 0 t (ix2 r k) else 0 : EReal)
      = ∑ x ∈ Finset.range 10000, poolTerm (V c main_v106) (V c main_v105) g k (10000 * t.val + x) := by
  have ht := lt_ten t
  rw [← Fin.sum_univ_eq_sum_range (fun x => poolTerm (V c main_v106) (V c main_v105) g k (10000 * t.val + x)) 10000]
  refine Finset.sum_congr rfl fun r _ => ?_
  have hr : 10000 * t.val + r.val < 100000 := by have := r.isLt; omega
  unfold poolTerm
  rw [dif_pos hr, ids_block V c t r hr, feat_block V c t r k hr]

/-- THE ACCUMULATOR after grid point n, at (g, k): the contributions of the rows below 10000 (n + 1). -/
theorem acc4_apply (c : Dev nD) : ∀ (n : ℕ) (hn : n < cfg4.N) (g k : Fin 128),
    acc4 V c n hn (ix2 g k) = ∑ e ∈ Finset.range (10000 * (n + 1)), poolTerm (V c main_v106) (V c main_v105) g k e
  | 0, hn, g, k => by
    rw [acc4_zero]
    refine (pool_pay_apply _ _ _ _ g k).trans ?_
    rw [pool_clear_apply, zero_add]
    refine (block_sum V c ⟨0, hn⟩ g k).trans ?_
    refine Finset.sum_congr rfl fun x _ => ?_
    show poolTerm _ _ g k (10000 * 0 + x) = _
    rw [Nat.mul_zero, Nat.zero_add]
  | n + 1, hn, g, k => by
    rw [acc4_succ]
    refine (pool_pay_apply _ _ _ _ g k).trans ?_
    rw [acc4_apply c n (Nat.lt_of_succ_lt hn) g k, show 10000 * (n + 1 + 1) = 10000 * (n + 1) + 10000 by ring, Finset.sum_range_add]
    exact congrArg _ (block_sum V c ⟨n + 1, hn⟩ g k)

/-! ## The reference's scatter-add, and the output array -/

/-- The reference's pooled sum at (g, k): the zero table plus every row's contribution. -/
theorem ref_apply (ids : IVec S100000x1 32) (h : FVec Ideal S100000x128 .f32) (g k : Fin 128) :
    Host.scatterAdd (F := Ideal) (φ := .f32) Cert.ReferenceIdeal.scatter_S128x128_S100000x1_S100000x128_1_0_0_1
        (Cert.ReferenceIdeal.ReadP.val_main_v113 (F := Ideal)) ids h (ix2 g k)
      = ∑ e ∈ Finset.range 100000, poolTerm ids h g k e := by
  show Ideal.hostScatterAdd Cert.ReferenceIdeal.scatter_S128x128_S100000x1_S100000x128_1_0_0_1
        (Cert.ReferenceIdeal.ReadP.val_main_v113 (F := Ideal)) ids h (ix2 g k) = _
  rw [Cert.LibRowOps.scatterAdd_rows_apply _ rfl rfl rfl rfl, Cert.ReferenceIdeal.ReadP.val_main_v113_apply,
    Cert.ReferenceIdeal.ReadP.val_main_cst_23_apply]
  show Ideal.ofBits .f32 0x00000000#32 + _ = _
  rw [Ideal.ofBits_zero_f32, zero_add, ← Fin.sum_univ_eq_sum_range (fun e => poolTerm ids h g k e) 100000]
  refine Finset.sum_congr rfl fun e _ => ?_
  unfold poolTerm
  rw [dif_pos e.isLt]

/-- What the last grid point leaves in the accumulator is the reference's pooled sum. -/
theorem acc4_last (c : Dev nD) (hn : 9 < cfg4.N) (j : S128x128.Idx) :
    acc4 V c 9 hn j
      = Host.scatterAdd (F := Ideal) (φ := .f32) Cert.ReferenceIdeal.scatter_S128x128_S100000x1_S100000x128_1_0_0_1
          (Cert.ReferenceIdeal.ReadP.val_main_v113 (F := Ideal)) (V c main_v106) (V c main_v105) j := by
  obtain ⟨g, k, rfl⟩ : ∃ (g : Fin 128) (k : Fin 128), j = ix2 g k := ⟨j 0, j 1, eq_ix2 j⟩
  rw [acc4_apply V c 9 hn g k]
  exact (ref_apply (V c main_v106) (V c main_v105) g k).symm

/-- An index of the output array is in point t's block iff each coordinate is in the block's range on its axis. -/
theorem mem_blk4_2 (t : Fin cfg4.N) (i : S128x128.Idx) :
    i ∈ ((cfg4.win 2).blk t).view.set ↔ ∀ a : Fin 2, win4_2.index t a * S128x128.size a ≤ (i a).val ∧ (i a).val < win4_2.index t a * S128x128.size a + S128x128.size a := by
  show i ∈ ((View.whole main_v107).slice (win4_2.rect t)).set ↔ _
  rw [View.set_slice_whole, Rect.mem_set_unit]
  exact Iff.rfl

/-- The last grid point, the one that writes the output back, covers the whole output array. -/
theorem cover4 (i : S128x128.Idx) : ∃ t : Fin cfg4.N, (cfg4.win 2).flush t = true ∧ i ∈ ((cfg4.win 2).blk t).view.set := by
  have h9 : 9 < cfg4.N := lt_of_lt_of_eq (by decide) N_4.symm
  obtain ⟨e0, e1, e2, e3, e4, e5⟩ := idx_facts4 ⟨9, h9⟩
  refine ⟨⟨9, h9⟩, (flush4_2 _).mpr rfl, ?_⟩
  rw [mem_blk4_2]
  intro a
  match a with
  | ⟨0, _⟩ =>
    show win4_2.index ⟨9, h9⟩ (0 : Fin 2) * 128 ≤ (i 0).val ∧ (i 0).val < win4_2.index ⟨9, h9⟩ (0 : Fin 2) * 128 + 128
    have hi : (i 0).val < 128 := (i 0).isLt
    omega
  | ⟨1, _⟩ =>
    show win4_2.index ⟨9, h9⟩ (1 : Fin 2) * 128 ≤ (i 1).val ∧ (i 1).val < win4_2.index ⟨9, h9⟩ (1 : Fin 2) * 128 + 128
    have hi : (i 1).val < 128 := (i 1).isLt
    omega

/-- THE OUTPUT ARRAY after the region: the reference's scatter-add of the node features into the zero table at the
    graph ids. Only the last grid point writes the output back, its block is the whole array, and what it writes is
    what the accumulation has reached there. -/
theorem final4 (c : Dev nD) :
    (dat4 V c).arrAt 2 cfg4.N
      = Host.scatterAdd (F := Ideal) (φ := .f32) Cert.ReferenceIdeal.scatter_S128x128_S100000x1_S100000x128_1_0_0_1
          (Cert.ReferenceIdeal.ReadP.val_main_v113 (F := Ideal)) (V c main_v106) (V c main_v105) := by
  refine (dat4 V c).arrAt_eq_of_cover 2 _ (fun t hf => ?_) cover4
  have ht : t.val = 9 := by have h1 := (flush4_2 t).mp hf; have h2 := lt_ten t; omega
  obtain ⟨e0, e1, e2, e3, e4, e5⟩ := idx_facts4 t
  show (cfg4.win 2).cut (grid4.coords t) ((dat4 V c).after 2 t) = _
  rw [after4_2]
  funext j
  show acc4 V c t.val t.isLt j
    = Host.scatterAdd (F := Ideal) (φ := .f32) Cert.ReferenceIdeal.scatter_S128x128_S100000x1_S100000x128_1_0_0_1
        (Cert.ReferenceIdeal.ReadP.val_main_v113 (F := Ideal)) (V c main_v106) (V c main_v105) (((cfg4.win 2).blk t).view.emb j)
  have hemb : ((cfg4.win 2).blk t).view.emb j = j := by
    funext a; apply Fin.ext
    match a with
    | ⟨0, _⟩ => show win4_2.index t (0 : Fin 2) * 128 + 1 * (j 0).val = (j 0).val; omega
    | ⟨1, _⟩ => show win4_2.index t (1 : Fin 2) * 128 + 1 * (j 1).val = (j 1).val; omega
  rw [hemb]
  have hlast : ∀ (n : ℕ) (hn : n < cfg4.N), n = 9 → acc4 V c n hn j
      = Host.scatterAdd (F := Ideal) (φ := .f32) Cert.ReferenceIdeal.scatter_S128x128_S100000x1_S100000x128_1_0_0_1
          (Cert.ReferenceIdeal.ReadP.val_main_v113 (F := Ideal)) (V c main_v106) (V c main_v105) j := by
    intro n hn e; subst e; exact acc4_last V c hn j
  exact hlast t.val t.isLt ht

end Cert.Value

end
-- ==== Proof.Value.Host.lean ====
/-
  The host stretches of the kernel program read against the reference's stages. Between two pallas_calls the kernel
  program runs the same host operations as the reference (index arithmetic, gathers along the edges, scatter-adds back
  to the nodes), so what a stretch writes is the reference's stage of the same operation, given that what the items
  before it left are the reference's stages too. The one difference in the host text: where the kernel program
  reshapes a vector to a single row or a single column, the reference broadcasts it there; the two read the same
  element at every index.
-/
import proofs.«408481_j1683627180174_2_alg».proof.Proof.KernelIdeal.Fold
import proofs.«408481_j1683627180174_2_alg».proof.Proof.RefReadP
import Idealize.ShloMosaic.Lib.StableHlo.Run
import Idealize.ShloMosaic.Lib.Pipeline.Value
import Idealize.ShloMosaic.Lib.ValueLayout

set_option maxRecDepth 16384

noncomputable section

namespace Cert.Value

open Cert.KernelIdeal Cert.KernelIdeal.Gen Cert.KernelIdeal.Fr
open Idealize.ShloMosaic Idealize.ShloMosaic.TcCoe Idealize.ShloMosaic.StableHlo
open Idealize.SL Idealize.SL.Sem

variable {F : FTy → Type} [FloatOps F]

/-! ## A vector reshaped to one column or one row is the vector broadcast there -/

section Layout

variable {α : Type}

/-- A vector of length `a` reshaped to `a × 1` reads, at `(i, 0)`, its element `i`: what broadcasting it along axis 0 reads. -/
theorem shapeCast_col_eq_broadcastInDim {a : ℕ} (x : (⟨1, ![a]⟩ : Shape).Idx → α)
    (h : (⟨1, ![a]⟩ : Shape).ShapeCasts ⟨2, ![a, 1]⟩)
    (hb : (⟨1, ![a]⟩ : Shape).BroadcastsInDim ⟨2, ![a, 1]⟩ (![0] : Fin 1 → Fin 2)) :
    shapeCast ⟨2, ![a, 1]⟩ x h = broadcastInDim ⟨2, ![a, 1]⟩ ![0] hb x := by
  funext j
  have h0 : (j 0).val < a := (j 0).isLt
  have h1 : (j 1).val < 1 := (j 1).isLt
  let k : (⟨1, ![a]⟩ : Shape).Idx := fun b => match b with
    | ⟨0, _⟩ => ⟨(j 0).val, h0⟩
  rw [shapeCast_apply x h j k (by
      rw [Shape.rowMajor_val_one, Shape.rowMajor_val_two]
      show (j 0).val = (j 0).val * 1 + (j 1).val
      omega),
    broadcastInDim_apply ![0] hb x j k (fun b => match b with
      | ⟨0, _⟩ => by
        show (j 0).val = if a = 1 then 0 else (j 0).val
        split
        · omega
        · rfl)]

/-- A vector of length `a` reshaped to `1 × a` reads, at `(0, i)`, its element `i`: what broadcasting it along axis 1 reads. -/
theorem shapeCast_row_eq_broadcastInDim {a : ℕ} (x : (⟨1, ![a]⟩ : Shape).Idx → α)
    (h : (⟨1, ![a]⟩ : Shape).ShapeCasts ⟨2, ![1, a]⟩)
    (hb : (⟨1, ![a]⟩ : Shape).BroadcastsInDim ⟨2, ![1, a]⟩ (![1] : Fin 1 → Fin 2)) :
    shapeCast ⟨2, ![1, a]⟩ x h = broadcastInDim ⟨2, ![1, a]⟩ ![1] hb x := by
  funext j
  have h0 : (j 0).val < 1 := (j 0).isLt
  have h1 : (j 1).val < a := (j 1).isLt
  let k : (⟨1, ![a]⟩ : Shape).Idx := fun b => match b with
    | ⟨0, _⟩ => ⟨(j 1).val, h1⟩
  rw [shapeCast_apply x h j k (by
      rw [Shape.rowMajor_val_one, Shape.rowMajor_val_two]
      show (j 1).val = (j 0).val * a + (j 1).val
      have e : (j 0).val = 0 := by omega
      rw [e, Nat.zero_mul, Nat.zero_add]),
    broadcastInDim_apply ![1] hb x j k (fun b => match b with
      | ⟨0, _⟩ => by
        show (j 1).val = if a = 1 then 0 else (j 1).val
        split
        · omega
        · rfl)]

end Layout

variable (m : (ℓ : Loc nD τ sig) → Buf (Elt F) ℓ) (c : Dev nD)

variable {x0 : (⟨Cert.ReferenceIdeal.S100000x32, .f32⟩ : BufTy).Contents (Elt F)}
  {x1 : (⟨Cert.ReferenceIdeal.S2x1600000, .i32⟩ : BufTy).Contents (Elt F)}
  {x2 : (⟨Cert.ReferenceIdeal.S100000, .i32⟩ : BufTy).Contents (Elt F)}
  {x3 : (⟨Cert.ReferenceIdeal.S32x64, .f32⟩ : BufTy).Contents (Elt F)}
  {x4 : (⟨Cert.ReferenceIdeal.S64, .f32⟩ : BufTy).Contents (Elt F)}
  {x5 : (⟨Cert.ReferenceIdeal.S64x128, .f32⟩ : BufTy).Contents (Elt F)}
  {x6 : (⟨Cert.ReferenceIdeal.S128, .f32⟩ : BufTy).Contents (Elt F)}
  {x7 : (⟨Cert.ReferenceIdeal.S128x128, .f32⟩ : BufTy).Contents (Elt F)}
  {x8 : (⟨Cert.ReferenceIdeal.S128, .f32⟩ : BufTy).Contents (Elt F)}
  {x9 : (⟨Cert.ReferenceIdeal.S128x8, .f32⟩ : BufTy).Contents (Elt F)}
  {x10 : (⟨Cert.ReferenceIdeal.S8, .f32⟩ : BufTy).Contents (Elt F)}

/-- The edge sources with the self-loops appended, after the first two host stretches. -/
theorem early_v3 (hx1 : m ((c : Thread nD τ).loc main_arg1) = x1) :
    W2 m c main_v3 = Cert.ReferenceIdeal.ReadP.val_main_v3 x1 := by
  have e : W0 m c (Proc.devRef .tc main_arg1) = x1 := hx1
  rw [W2_of m c main_v3 (by decide)]
  show StableHlo.after hostOps0 (W0 m c) (Proc.devRef .tc main_v3) = _
  after_results
  rw [e]
  rfl

/-- The edge targets with the self-loops appended. -/
theorem early_v6 (hx1 : m ((c : Thread nD τ).loc main_arg1) = x1) :
    W2 m c main_v6 = Cert.ReferenceIdeal.ReadP.val_main_v6 x1 := by
  have e : W0 m c (Proc.devRef .tc main_arg1) = x1 := hx1
  rw [W2_of m c main_v6 (by decide)]
  show StableHlo.after hostOps0 (W0 m c) (Proc.devRef .tc main_v6) = _
  after_results
  rw [e]
  rfl

/-- The inverse square root of the in-degrees (ones scatter-added at the targets), zero where the degree is zero. -/
theorem early_v14 (hx1 : m ((c : Thread nD τ).loc main_arg1) = x1) :
    W2 m c main_v14 = Cert.ReferenceIdeal.ReadP.val_main_v14 x1 := by
  have e : W0 m c (Proc.devRef .tc main_arg1) = x1 := hx1
  show StableHlo.after hostOps0_1 (StableHlo.after hostOps0 (W0 m c)) (Proc.devRef .tc main_v14) = _
  after_results
  rw [e]
  rfl

/-- The two host stretches before the first pallas_call leave the reference's stages in the three buffers later items read. -/
theorem early (hx1 : m ((c : Thread nD τ).loc main_arg1) = x1) :
    W2 m c main_v3 = Cert.ReferenceIdeal.ReadP.val_main_v3 x1
      ∧ W2 m c main_v6 = Cert.ReferenceIdeal.ReadP.val_main_v6 x1
      ∧ W2 m c main_v14 = Cert.ReferenceIdeal.ReadP.val_main_v14 x1 :=
  ⟨early_v3 m c hx1, early_v6 m c hx1, early_v14 m c hx1⟩

/-- The one host operation before the pooling call: the graph-id vector reshaped to a column. -/
theorem stretch4 (h2 : W9 m c main_arg2 = x2) :
    W10 m c main_v106 = Cert.ReferenceIdeal.ReadP.val_main_v114 x2 := by
  show StableHlo.after hostOps4 (W9 m c) (Proc.devRef .tc main_v106) = _
  after_results
  rw [h2]
  exact shapeCast_col_eq_broadcastInDim x2 _ _

/-- The host operations after the pooling call: the per-graph sums divided by the node counts (ones scatter-added at the
    graph ids, at least one), times the last weights, plus the last bias. -/
theorem stretch5
    (h107 : W11 m c main_v107 = Cert.ReferenceIdeal.ReadP.val_main_v115 x0 x1 x2 x3 x4 x5 x6 x7 x8)
    (h2 : W11 m c main_arg2 = x2) (h9 : W11 m c main_arg9 = x9) (h10 : W11 m c main_arg10 = x10) :
    W12 m c main_v120 = Cert.ReferenceIdeal.ReadP.val_main_v128 x0 x1 x2 x3 x4 x5 x6 x7 x8 x9 x10 := by
  show StableHlo.after hostOps5 (W11 m c) (Proc.devRef .tc main_v120) = _
  after_results
  rw [h107, h2, h9, h10]
  rfl

end Cert.Value

end
-- ==== Proof.Value.HostMid.lean ====
/-
  Three host stretches of the kernel program read against the reference's stages: the stretches between the first and the
  second, the second and the third, and the third and the fourth pallas_call. Each runs the same host operations as the
  reference does between its dense products — for every edge the product of the inverse-root degrees at its two ends, the
  rows of the layer's dense product gathered at the edges' sources, scaled by that product and added up at the edges'
  targets —, so what a stretch writes is the reference's stage of the same operation, given that what the stretch reads
  are the reference's stages too. The one difference in the host text: the kernel program reshapes the next layer's bias
  vector to a single row where the reference broadcasts it there; the two read the same element at every index.
-/
import proofs.«408481_j1683627180174_2_alg».proof.Proof.KernelIdeal.Fold
import proofs.«408481_j1683627180174_2_alg».proof.Proof.RefReadP
import Idealize.ShloMosaic.Lib.StableHlo.Run
import Idealize.ShloMosaic.Lib.Pipeline.Value
import Idealize.ShloMosaic.Lib.ValueLayout

set_option maxRecDepth 16384

noncomputable section

namespace Cert.Value

open Cert.KernelIdeal Cert.KernelIdeal.Gen Cert.KernelIdeal.Fr
open Idealize.ShloMosaic Idealize.ShloMosaic.TcCoe Idealize.ShloMosaic.StableHlo
open Idealize.SL Idealize.SL.Sem

variable {F : FTy → Type} [FloatOps F]

/-- A vector of length `a` reshaped to the single row `1 × a` reads, at `(0, i)`, its element `i`; so does the vector
    broadcast along axis 1 of `1 × a`. -/
private theorem reshape_row_eq_broadcast {α : Type} {a : ℕ} (x : (⟨1, ![a]⟩ : Shape).Idx → α)
    (h : (⟨1, ![a]⟩ : Shape).ShapeCasts ⟨2, ![1, a]⟩)
    (hb : (⟨1, ![a]⟩ : Shape).BroadcastsInDim ⟨2, ![1, a]⟩ (![1] : Fin 1 → Fin 2)) :
    shapeCast ⟨2, ![1, a]⟩ x h = broadcastInDim ⟨2, ![1, a]⟩ ![1] hb x := by
  funext j
  have hrow : (j 0).val = 0 := Nat.lt_one_iff.mp (j 0).isLt
  let k : (⟨1, ![a]⟩ : Shape).Idx := fun b => match b with
    | ⟨0, _⟩ => ⟨(j 1).val, (j 1).isLt⟩
  have e1 : shapeCast ⟨2, ![1, a]⟩ x h j = x k := shapeCast_apply x h j k (by
    rw [Shape.rowMajor_val_one, Shape.rowMajor_val_two]
    show (j 1).val = (j 0).val * a + (j 1).val
    rw [hrow, Nat.zero_mul, Nat.zero_add])
  have e2 : broadcastInDim ⟨2, ![1, a]⟩ ![1] hb x j = x k := broadcastInDim_apply ![1] hb x j k (fun b => match b with
    | ⟨0, _⟩ => by
      show (j 1).val = if a = 1 then 0 else (j 1).val
      split
      · have := (j 1).isLt; show (j 1).val = 0; have h1 : (j 1).val < a := (j 1).isLt; omega
      · rfl)
  rw [e1, e2]

variable (m : (ℓ : Loc nD τ sig) → Buf (Elt F) ℓ) (c : Dev nD)

variable {x0 : (⟨Cert.ReferenceIdeal.S100000x32, .f32⟩ : BufTy).Contents (Elt F)}
  {x1 : (⟨Cert.ReferenceIdeal.S2x1600000, .i32⟩ : BufTy).Contents (Elt F)}
  {x3 : (⟨Cert.ReferenceIdeal.S32x64, .f32⟩ : BufTy).Contents (Elt F)}
  {x4 : (⟨Cert.ReferenceIdeal.S64, .f32⟩ : BufTy).Contents (Elt F)}
  {x5 : (⟨Cert.ReferenceIdeal.S64x128, .f32⟩ : BufTy).Contents (Elt F)}
  {x6 : (⟨Cert.ReferenceIdeal.S128, .f32⟩ : BufTy).Contents (Elt F)}
  {x7 : (⟨Cert.ReferenceIdeal.S128x128, .f32⟩ : BufTy).Contents (Elt F)}
  {x8 : (⟨Cert.ReferenceIdeal.S128, .f32⟩ : BufTy).Contents (Elt F)}

set_option maxHeartbeats 2000000 in
/-- The host stretch between the first and the second pallas_call: the normalisation of each edge (the inverse-root degrees
    gathered at the edge's two ends and multiplied), the rows of the first dense product gathered at the edges' sources, scaled,
    and added up at the edges' targets; and the second layer's bias laid out as one row. Each is the reference's stage of the
    same operation, given that what the stretch reads are the reference's stages. -/
theorem stretch1 (h3 : W3 m c main_v3 = Cert.ReferenceIdeal.ReadP.val_main_v3 x1) (h6 : W3 m c main_v6 = Cert.ReferenceIdeal.ReadP.val_main_v6 x1)
    (h14 : W3 m c main_v14 = Cert.ReferenceIdeal.ReadP.val_main_v14 x1) (h15 : W3 m c main_v15 = Cert.ReferenceIdeal.ReadP.val_main_v15 x0 x3)
    (h4 : W3 m c main_arg4 = x4) :
    W4 m c main_v43 = Cert.ReferenceIdeal.ReadP.val_main_v43 x0 x1 x3 ∧ W4 m c main_v44 = Cert.ReferenceIdeal.ReadP.val_main_v44 x4 := by
  refine ⟨?_, ?_⟩
  · show StableHlo.after hostOps1 (W3 m c) (Proc.devRef .tc main_v43) = _
    after_results_simp
    rw [h3, h6, h14, h15]
    rfl
  · show StableHlo.after hostOps1 (W3 m c) (Proc.devRef .tc main_v44) = _
    after_results_simp
    rw [h4]
    exact reshape_row_eq_broadcast x4 _ _

set_option maxHeartbeats 2000000 in
/-- The host stretch between the second and the third pallas_call: the same operations on the second layer's dense product,
    and the third layer's bias laid out as one row. -/
theorem stretch2 (h3 : W5 m c main_v3 = Cert.ReferenceIdeal.ReadP.val_main_v3 x1) (h6 : W5 m c main_v6 = Cert.ReferenceIdeal.ReadP.val_main_v6 x1)
    (h14 : W5 m c main_v14 = Cert.ReferenceIdeal.ReadP.val_main_v14 x1) (h45 : W5 m c main_v45 = Cert.ReferenceIdeal.ReadP.val_main_v48 x0 x1 x3 x4 x5)
    (h6a : W5 m c main_arg6 = x6) :
    W6 m c main_v73 = Cert.ReferenceIdeal.ReadP.val_main_v76 x0 x1 x3 x4 x5 ∧ W6 m c main_v74 = Cert.ReferenceIdeal.ReadP.val_main_v77 x6 := by
  refine ⟨?_, ?_⟩
  · show StableHlo.after hostOps2 (W5 m c) (Proc.devRef .tc main_v73) = _
    after_results_simp
    rw [h3, h6, h14, h45]
    rfl
  · show StableHlo.after hostOps2 (W5 m c) (Proc.devRef .tc main_v74) = _
    after_results_simp
    rw [h6a]
    exact reshape_row_eq_broadcast x6 _ _

set_option maxHeartbeats 2000000 in
/-- The host stretch between the third and the fourth pallas_call: the same operations on the third layer's dense product,
    and the last bias laid out as one row. -/
theorem stretch3 (h3 : W7 m c main_v3 = Cert.ReferenceIdeal.ReadP.val_main_v3 x1) (h6 : W7 m c main_v6 = Cert.ReferenceIdeal.ReadP.val_main_v6 x1)
    (h14 : W7 m c main_v14 = Cert.ReferenceIdeal.ReadP.val_main_v14 x1) (h75 : W7 m c main_v75 = Cert.ReferenceIdeal.ReadP.val_main_v81 x0 x1 x3 x4 x5 x6 x7)
    (h8 : W7 m c main_arg8 = x8) :
    W8 m c main_v103 = Cert.ReferenceIdeal.ReadP.val_main_v109 x0 x1 x3 x4 x5 x6 x7 ∧ W8 m c main_v104 = Cert.ReferenceIdeal.ReadP.val_main_v110 x8 := by
  refine ⟨?_, ?_⟩
  · show StableHlo.after hostOps3 (W7 m c) (Proc.devRef .tc main_v103) = _
    after_results_simp
    rw [h3, h6, h14, h75]
    rfl
  · show StableHlo.after hostOps3 (W7 m c) (Proc.devRef .tc main_v104) = _
    after_results_simp
    rw [h8]
    exact reshape_row_eq_broadcast x8 _ _

end Cert.Value

end
-- ==== Proof.Value.Chain.lean ====
/-
  The kernel program's result is the reference's result. The program is a chain: host stretches (gathers, scatter-adds,
  scalings: the graph aggregation) alternate with five kernel regions (three dense products, a bias add, the pooling
  sum). Each host stretch computes the reference's stages between two dense stages from what it finds; each kernel
  region leaves in its output array the reference's dense stage of what it finds; the argument arrays are never
  written. Walking the chain once, from the launch memory to the last buffer, the result buffer holds the reference's
  last stage of the eleven arguments.
-/
import proofs.«408481_j1683627180174_2_alg».proof.Proof.KernelIdeal.Fold
import proofs.«408481_j1683627180174_2_alg».proof.Proof.Value.Val0
import proofs.«408481_j1683627180174_2_alg».proof.Proof.Value.Val1
import proofs.«408481_j1683627180174_2_alg».proof.Proof.Value.Val2
import proofs.«408481_j1683627180174_2_alg».proof.Proof.Value.Val3
import proofs.«408481_j1683627180174_2_alg».proof.Proof.Value.Val4
import proofs.«408481_j1683627180174_2_alg».proof.Proof.Value.Host
import proofs.«408481_j1683627180174_2_alg».proof.Proof.Value.HostMid
import proofs.«408481_j1683627180174_2_alg».proof.Proof.RefReadP

set_option maxRecDepth 16384

noncomputable section

namespace Cert.Value

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## What the items before a boundary leave untouched is still as launched -/

/-- A buffer neither of the two first host stretches writes is as launched when the first kernel region is entered, -/
theorem W2_launch (c : Dev nD) (r : Ref sig .tc) (h0 : r ∉ hostOps0_W) (h01 : r ∉ hostOps0_1_W) :
    W2 m c r = m ((c : Thread nD τ).loc r) :=
  (W2_of m c r h01).trans <| (W1_of m c r h0).trans rfl
/-- and, if it is not that region's output, when the region is left; -/
theorem W3_launch (c : Dev nD) (r : Ref sig .tc) (h0 : r ∉ hostOps0_W) (h01 : r ∉ hostOps0_1_W) (o0 : r ≠ main_v15) :
    W3 m c r = m ((c : Thread nD τ).loc r) :=
  (W3_keep m c r o0).trans (W2_launch m c r h0 h01)
/-- and so on through every later boundary: after the next host stretch, -/
theorem W4_launch (c : Dev nD) (r : Ref sig .tc) (h0 : r ∉ hostOps0_W) (h01 : r ∉ hostOps0_1_W) (h1 : r ∉ hostOps1_W)
    (o0 : r ≠ main_v15) : W4 m c r = m ((c : Thread nD τ).loc r) :=
  (W4_of m c r h1).trans (W3_launch m c r h0 h01 o0)
/-- after the second kernel region, -/
theorem W5_launch (c : Dev nD) (r : Ref sig .tc) (h0 : r ∉ hostOps0_W) (h01 : r ∉ hostOps0_1_W) (h1 : r ∉ hostOps1_W)
    (o0 : r ≠ main_v15) (o1 : r ≠ main_v45) : W5 m c r = m ((c : Thread nD τ).loc r) :=
  (W5_keep m c r o1).trans (W4_launch m c r h0 h01 h1 o0)
/-- after the host stretch that follows it, -/
theorem W6_launch (c : Dev nD) (r : Ref sig .tc) (h0 : r ∉ hostOps0_W) (h01 : r ∉ hostOps0_1_W) (h1 : r ∉ hostOps1_W)
    (h2 : r ∉ hostOps2_W) (o0 : r ≠ main_v15) (o1 : r ≠ main_v45) : W6 m c r = m ((c : Thread nD τ).loc r) :=
  (W6_of m c r h2).trans (W5_launch m c r h0 h01 h1 o0 o1)
/-- after the third kernel region, -/
theorem W7_launch (c : Dev nD) (r : Ref sig .tc) (h0 : r ∉ hostOps0_W) (h01 : r ∉ hostOps0_1_W) (h1 : r ∉ hostOps1_W)
    (h2 : r ∉ hostOps2_W) (o0 : r ≠ main_v15) (o1 : r ≠ main_v45) (o2 : r ≠ main_v75) :
    W7 m c r = m ((c : Thread nD τ).loc r) :=
  (W7_keep m c r o2).trans (W6_launch m c r h0 h01 h1 h2 o0 o1)
/-- after the host stretch that follows it, -/
theorem W8_launch (c : Dev nD) (r : Ref sig .tc) (h0 : r ∉ hostOps0_W) (h01 : r ∉ hostOps0_1_W) (h1 : r ∉ hostOps1_W)
    (h2 : r ∉ hostOps2_W) (h3 : r ∉ hostOps3_W) (o0 : r ≠ main_v15) (o1 : r ≠ main_v45) (o2 : r ≠ main_v75) :
    W8 m c r = m ((c : Thread nD τ).loc r) :=
  (W8_of m c r h3).trans (W7_launch m c r h0 h01 h1 h2 o0 o1 o2)
/-- after the fourth kernel region, -/
theorem W9_launch (c : Dev nD) (r : Ref sig .tc) (h0 : r ∉ hostOps0_W) (h01 : r ∉ hostOps0_1_W) (h1 : r ∉ hostOps1_W)
    (h2 : r ∉ hostOps2_W) (h3 : r ∉ hostOps3_W) (o0 : r ≠ main_v15) (o1 : r ≠ main_v45) (o2 : r ≠ main_v75)
    (o3 : r ≠ main_v105) : W9 m c r = m ((c : Thread nD τ).loc r) :=
  (W9_keep m c r o3).trans (W8_launch m c r h0 h01 h1 h2 h3 o0 o1 o2)
/-- after the reshape of the segment ids, -/
theorem W10_launch (c : Dev nD) (r : Ref sig .tc) (h0 : r ∉ hostOps0_W) (h01 : r ∉ hostOps0_1_W) (h1 : r ∉ hostOps1_W)
    (h2 : r ∉ hostOps2_W) (h3 : r ∉ hostOps3_W) (h4 : r ∉ hostOps4_W) (o0 : r ≠ main_v15) (o1 : r ≠ main_v45)
    (o2 : r ≠ main_v75) (o3 : r ≠ main_v105) : W10 m c r = m ((c : Thread nD τ).loc r) :=
  (W10_of m c r h4).trans (W9_launch m c r h0 h01 h1 h2 h3 o0 o1 o2 o3)
/-- and after the last kernel region. -/
theorem W11_launch (c : Dev nD) (r : Ref sig .tc) (h0 : r ∉ hostOps0_W) (h01 : r ∉ hostOps0_1_W) (h1 : r ∉ hostOps1_W)
    (h2 : r ∉ hostOps2_W) (h3 : r ∉ hostOps3_W) (h4 : r ∉ hostOps4_W) (o0 : r ≠ main_v15) (o1 : r ≠ main_v45)
    (o2 : r ≠ main_v75) (o3 : r ≠ main_v105) (o4 : r ≠ main_v107) : W11 m c r = m ((c : Thread nD τ).loc r) :=
  (W11_keep m c r o4).trans (W10_launch m c r h0 h01 h1 h2 h3 h4 o0 o1 o2 o3)

/-! ## The edge lists and the degree scale, made before the first kernel region, stay until the last gather -/

/-- A buffer the first kernel region does not write and the next host stretch does not write is, after the second
    kernel region, what it was when the first was entered (if it is not the second's output either), -/
theorem W5_early (c : Dev nD) (r : Ref sig .tc) (h1 : r ∉ hostOps1_W) (o0 : r ≠ main_v15) (o1 : r ≠ main_v45) :
    W5 m c r = W2 m c r :=
  (W5_keep m c r o1).trans <| (W4_of m c r h1).trans (W3_keep m c r o0)
/-- and likewise after the third. -/
theorem W7_early (c : Dev nD) (r : Ref sig .tc) (h1 : r ∉ hostOps1_W) (h2 : r ∉ hostOps2_W) (o0 : r ≠ main_v15)
    (o1 : r ≠ main_v45) (o2 : r ≠ main_v75) : W7 m c r = W2 m c r :=
  (W7_keep m c r o2).trans <| (W6_of m c r h2).trans (W5_early m c r h1 o0 o1)

/-! ## The kernel regions' outputs -/

/-- The first kernel region leaves x · W1 of the launch arrays. -/
theorem out0 (c : Dev nD) :
    W3 m c main_v15 = Cert.ReferenceIdeal.ReadP.val_main_v15 (F := Ideal)
      (m ((c : Thread nD τ).loc main_arg0)) (m ((c : Thread nD τ).loc main_arg3)) := by
  refine (W3_arr m c 2).trans ((final0 (E2 m) c).trans ?_)
  show Cert.ReferenceIdeal.ReadP.val_main_v15 (F := Ideal) (W2 m c main_arg0) (W2 m c main_arg3) = _
  rw [W2_launch m c main_arg0 (by decide) (by decide), W2_launch m c main_arg3 (by decide) (by decide)]

section Outputs
variable {x0 : (⟨Cert.ReferenceIdeal.S100000x32, .f32⟩ : BufTy).Contents (Elt Ideal)} {x1 : (⟨Cert.ReferenceIdeal.S2x1600000, .i32⟩ : BufTy).Contents (Elt Ideal)} {x2 : (⟨Cert.ReferenceIdeal.S100000, .i32⟩ : BufTy).Contents (Elt Ideal)} {x3 : (⟨Cert.ReferenceIdeal.S32x64, .f32⟩ : BufTy).Contents (Elt Ideal)} {x4 : (⟨Cert.ReferenceIdeal.S64, .f32⟩ : BufTy).Contents (Elt Ideal)} {x5 : (⟨Cert.ReferenceIdeal.S64x128, .f32⟩ : BufTy).Contents (Elt Ideal)} {x6 : (⟨Cert.ReferenceIdeal.S128, .f32⟩ : BufTy).Contents (Elt Ideal)} {x7 : (⟨Cert.ReferenceIdeal.S128x128, .f32⟩ : BufTy).Contents (Elt Ideal)} {x8 : (⟨Cert.ReferenceIdeal.S128, .f32⟩ : BufTy).Contents (Elt Ideal)} {x9 : (⟨Cert.ReferenceIdeal.S128x8, .f32⟩ : BufTy).Contents (Elt Ideal)} {x10 : (⟨Cert.ReferenceIdeal.S8, .f32⟩ : BufTy).Contents (Elt Ideal)}

/-- The second kernel region leaves the second layer's dense product relu(s + b) · W2, for s the first aggregation
    and b the first bias row as the host stretch before it left them. -/
theorem out1 (c : Dev nD) (h43 : W4 m c main_v43 = Cert.ReferenceIdeal.ReadP.val_main_v43 x0 x1 x3)
    (h44 : W4 m c main_v44 = Cert.ReferenceIdeal.ReadP.val_main_v44 x4) (h5 : W4 m c main_arg5 = x5) :
    W5 m c main_v45 = Cert.ReferenceIdeal.ReadP.val_main_v48 x0 x1 x3 x4 x5 := by
  refine (W5_arr m c 3).trans ((final1 (E4 m) c).trans ?_)
  show ref1 (W4 m c main_v43) (W4 m c main_v44) (W4 m c main_arg5) = _
  rw [h43, h44, h5]
  rfl

/-- The third kernel region leaves the third layer's dense product, likewise. -/
theorem out2 (c : Dev nD) (h73 : W6 m c main_v73 = Cert.ReferenceIdeal.ReadP.val_main_v76 x0 x1 x3 x4 x5)
    (h74 : W6 m c main_v74 = Cert.ReferenceIdeal.ReadP.val_main_v77 x6) (h7 : W6 m c main_arg7 = x7) :
    W7 m c main_v75 = Cert.ReferenceIdeal.ReadP.val_main_v81 x0 x1 x3 x4 x5 x6 x7 := by
  refine (W7_arr m c 3).trans ((final2 (E6 m) c).trans ?_)
  show ref2 (W6 m c main_v73) (W6 m c main_v74) (W6 m c main_arg7) = _
  rw [h73, h74, h7]
  rfl

/-- The fourth kernel region adds the last bias row to the third aggregation. -/
theorem out3 (c : Dev nD) (h103 : W8 m c main_v103 = Cert.ReferenceIdeal.ReadP.val_main_v109 x0 x1 x3 x4 x5 x6 x7)
    (h104 : W8 m c main_v104 = Cert.ReferenceIdeal.ReadP.val_main_v110 x8) :
    W9 m c main_v105 = Cert.ReferenceIdeal.ReadP.val_main_v112 x0 x1 x3 x4 x5 x6 x7 x8 := by
  refine (W9_arr m c 2).trans ((final3 (E8 m) c).trans ?_)
  show ref3 (W8 m c main_v103) (W8 m c main_v104) = _
  rw [h103, h104]
  rfl

/-- The last kernel region sums the node rows of each graph: the reference's scatter-add of them by segment id
    into zeros. The node rows are the fourth region's output, which the reshape of the ids between the two leaves. -/
theorem out4 (c : Dev nD) (h105 : W9 m c main_v105 = Cert.ReferenceIdeal.ReadP.val_main_v112 x0 x1 x3 x4 x5 x6 x7 x8)
    (h106 : W10 m c main_v106 = Cert.ReferenceIdeal.ReadP.val_main_v114 x2) :
    W11 m c main_v107 = Cert.ReferenceIdeal.ReadP.val_main_v115 x0 x1 x2 x3 x4 x5 x6 x7 x8 := by
  refine (W11_arr m c 2).trans ((final4 (E10 m) c).trans ?_)
  show Host.scatterAdd (F := Ideal) (φ := .f32) Cert.ReferenceIdeal.scatter_S128x128_S100000x1_S100000x128_1_0_0_1
    (Cert.ReferenceIdeal.ReadP.val_main_v113 (F := Ideal)) (W10 m c main_v106) (W10 m c main_v105) = _
  rw [h106, W10_of m c main_v105 (by decide), h105]
  rfl

end Outputs

/-! ## The whole program -/

/-- THE RESULT of the kernel program is the reference's last stage of the same eleven arguments: the host stretches
    compute the reference's stages between the dense products, and each kernel region computes the dense product
    (or the bias add, or the pooling sum) that the reference has at that place. -/
theorem result_eq (c : Dev nD) :
    W12 m c main_v120 = Cert.ReferenceIdeal.ReadP.val_main_v128 (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) := by
  obtain ⟨e3, e6, e14⟩ := early m c (x1 := m ((c : Thread nD τ).loc main_arg1)) rfl
  obtain ⟨e43, e44⟩ := stretch1 m c
    ((W3_keep m c main_v3 (by decide)).trans e3) ((W3_keep m c main_v6 (by decide)).trans e6)
    ((W3_keep m c main_v14 (by decide)).trans e14) (out0 m c)
    (W3_launch m c main_arg4 (by decide) (by decide) (by decide))
  have e45 := out1 m c e43 e44 (W4_launch m c main_arg5 (by decide) (by decide) (by decide) (by decide))
  obtain ⟨e73, e74⟩ := stretch2 m c
    ((W5_early m c main_v3 (by decide) (by decide) (by decide)).trans e3) ((W5_early m c main_v6 (by decide) (by decide) (by decide)).trans e6)
    ((W5_early m c main_v14 (by decide) (by decide) (by decide)).trans e14) e45
    (W5_launch m c main_arg6 (by decide) (by decide) (by decide) (by decide) (by decide))
  have e75 := out2 m c e73 e74 (W6_launch m c main_arg7 (by decide) (by decide) (by decide) (by decide) (by decide) (by decide))
  obtain ⟨e103, e104⟩ := stretch3 m c
    ((W7_early m c main_v3 (by decide) (by decide) (by decide) (by decide) (by decide)).trans e3) ((W7_early m c main_v6 (by decide) (by decide) (by decide) (by decide) (by decide)).trans e6)
    ((W7_early m c main_v14 (by decide) (by decide) (by decide) (by decide) (by decide)).trans e14) e75
    (W7_launch m c main_arg8 (by decide) (by decide) (by decide) (by decide) (by decide) (by decide) (by decide))
  have e105 := out3 m c e103 e104
  have e106 := stretch4 m c (W9_launch m c main_arg2 (by decide) (by decide) (by decide) (by decide) (by decide) (by decide) (by decide) (by decide) (by decide))
  have e107 := out4 m c e105 e106
  exact stretch5 m c e107 (W11_launch m c main_arg2 (by decide) (by decide) (by decide) (by decide) (by decide) (by decide) (by decide) (by decide) (by decide) (by decide) (by decide))
    (W11_launch m c main_arg9 (by decide) (by decide) (by decide) (by decide) (by decide) (by decide) (by decide) (by decide) (by decide) (by decide) (by decide)) (W11_launch m c main_arg10 (by decide) (by decide) (by decide) (by decide) (by decide) (by decide) (by decide) (by decide) (by decide) (by decide) (by decide))

end Cert.Value

end
-- ==== Proof.lean ====
/-
  The claim's five conjuncts, and where each is proved.
  1. The kernel program as printed, at the word level, runs to the end and leaves its eleven argument arrays
     unchanged: Proof/Kernel/Run.lean (`Cert.Kernel.Fr.frame`), the run of @main segment by segment — five pipelined
     regions with stretches of host operations between them.
  2. The same of the kernel program at the exact instance: Proof/KernelIdeal/Run.lean (`Cert.KernelIdeal.Fr.frame`).
  3. The same of the reference program: its run, Proof/RefRunP.lean, read at the argument arrays.
  4. The idealization rewrote no operation, so there is nothing to preserve: the conjunct is `True`.
  5. At the exact instance (a float is an extended real, every operation exact), from memories that agree on the eleven
     arguments, both programs run, leave their arguments unchanged, and end with equal results. The kernel's result
     array ends at the last contents `W12` of the fold over @main (Proof/KernelIdeal/Run.lean, `run_result`); the
     reference's ends at its composed term of the arguments (Proof/RefRunP.lean), which is the function `val_main_v128`
     of the arguments (Proof/RefReadP.lean); and `W12` at the result buffer is that same function of the same arguments
     (Proof/Value/Chain.lean, `result_eq`: three graph-convolution layers and a mean pool, region by region).
-/
import proofs.«408481_j1683627180174_2_alg».proof.Defs
import proofs.«408481_j1683627180174_2_alg».proof.Proof.Gen.Pre_finite_inputs
import proofs.«408481_j1683627180174_2_alg».proof.Proof.KernelIdeal.Run
import proofs.«408481_j1683627180174_2_alg».proof.Proof.Kernel.Run
import proofs.«408481_j1683627180174_2_alg».proof.Proof.Value.Chain
import proofs.«408481_j1683627180174_2_alg».proof.Proof.RefReadP
import Idealize.ShloMosaic.Adequacy
import Idealize.ShloMosaic.Init

noncomputable section

namespace Cert.Proof

open Idealize.ShloMosaic Idealize.ShloMosaic.TcCoe Idealize.SL.Sem

/-- The kernel program at the word level runs and keeps its arguments. -/
theorem frame_kernel : Cert.frame_Kernel := fun m ρ _ => Cert.Kernel.Fr.frame (F := Bits) m ρ

/-- The kernel program at the exact instance runs and keeps its arguments. -/
theorem frame_kernelIdeal : Cert.frame_KernelIdeal := fun m ρ _ => Cert.KernelIdeal.Fr.frame (F := Ideal) m ρ

/-- The reference program runs and keeps its arguments: its run, without the clause on the result. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- No operation was rewritten. -/
theorem preserves : Cert.preserves_Kernel_KernelIdeal := trivial

/-- Both programs end with the same result: the common value is the kernel's last contents at its result buffer; the
    reference's result is the function `val_main_v128` of its own arguments, which are the kernel's, and that function
    of the kernel's arguments is the kernel's result. -/
theorem algebraic : Cert.algebraic_KernelIdeal_ReferenceIdeal := fun m ρ m' ρ' _ hagree =>
  ⟨fun c => Cert.KernelIdeal.Fr.W12 m c Cert.KernelIdeal.main_v120, Cert.KernelIdeal.Fr.run_result m ρ,
    (θ_run Cert.ReferenceIdeal.defs _ _).mono (fun _ h c => ⟨(h c).1.trans (by
        rw [Cert.ReferenceIdeal.ReadP.val_main_v128_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
        exact (Cert.Value.result_eq m c).symm), (h c).2⟩)
      (Cert.ReferenceIdeal.ValueP.run (F := Ideal) m' ρ')⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
